-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v417) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S56x56x64 : S_.BroadcastsInDim S56x56x64 (![] : Fin 0 → Fin S56x56x64.rank)
  reducesTo_S56x56x64_S_d0_1_2 : S56x56x64.ReducesTo [0, 1, 2] S_
  bcast_S_S28x28x128 : S_.BroadcastsInDim S28x28x128 (![] : Fin 0 → Fin S28x28x128.rank)
  reducesTo_S28x28x128_S_d0_1_2 : S28x28x128.ReducesTo [0, 1, 2] S_
  bcast_S_S14x14x256 : S_.BroadcastsInDim S14x14x256 (![] : Fin 0 → Fin S14x14x256.rank)
  reducesTo_S14x14x256_S_d0_1_2 : S14x14x256.ReducesTo [0, 1, 2] S_
  bcast_S_S7x7x512 : S_.BroadcastsInDim S7x7x512 (![] : Fin 0 → Fin S7x7x512.rank)
  reducesTo_S7x7x512_S_d0_1_2 : S7x7x512.ReducesTo [0, 1, 2] S_

variable [Facts]

def fn_part1 {F : FTy → Type} [FloatOps F] (main_arg4 : FVec F S7x7x512 .f32) (main_v13 : IVec S_ 1) (main_v16 : IVec S14x14x256 1) : IVec S_ 1 :=
  let main_c_5 : IVec S_ 1 := constantI S_ 1 1#1
  let main_v17 : IVec S_ 1 := (fun x v => Host.reduce IntOp.andi x v reducesTo_S14x14x256_S_d0_1_2 h_S_) main_v16 main_c_5
  let main_v18 : IVec S_ 1 := andi main_v13 main_v17
  let main_v19 : FVec F S7x7x512 .f32 := Host.absf main_arg4
  let main_cst_6 : FVec F S_ .f32 := constant S_ .f32 0x7F800000#32
  let main_v20 : FVec F S7x7x512 .f32 := broadcastInDim S7x7x512 ![] bcast_S_S7x7x512 main_cst_6
  let main_v21 : IVec S7x7x512 1 := cmpf .olt main_v19 main_v20
  let main_c_7 : IVec S_ 1 := constantI S_ 1 1#1
  let main_v22 : IVec S_ 1 := (fun x v => Host.reduce IntOp.andi x v reducesTo_S7x7x512_S_d0_1_2 h_S_) main_v21 main_c_7
  let main_v23 : IVec S_ 1 := andi main_v18 main_v22
  main_v23

def fn {F : FTy → Type} [FloatOps F] (main_arg0 : FVec F S131072x3 .f32) (main_arg1 : FVec F S56x56x64 .f32) (main_arg2 : FVec F S28x28x128 .f32) (main_arg3 : FVec F S14x14x256 .f32) (main_arg4 : FVec F S7x7x512 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S56x56x64 .f32 := Host.absf main_arg1
  let main_cst_0 : FVec F S_ .f32 := constant S_ .f32 0x7F800000#32
  let main_v5 : FVec F S56x56x64 .f32 := broadcastInDim S56x56x64 ![] bcast_S_S56x56x64 main_cst_0
  let main_v6 : IVec S56x56x64 1 := cmpf .olt main_v4 main_v5
  let main_c_1 : IVec S_ 1 := constantI S_ 1 1#1
  let main_v7 : IVec S_ 1 := (fun x v => Host.reduce IntOp.andi x v reducesTo_S56x56x64_S_d0_1_2 h_S_) main_v6 main_c_1
  let main_v8 : IVec S_ 1 := andi main_v3 main_v7
  let main_v9 : FVec F S28x28x128 .f32 := Host.absf main_arg2
  let main_cst_2 : FVec F S_ .f32 := constant S_ .f32 0x7F800000#32
  let main_v10 : FVec F S28x28x128 .f32 := broadcastInDim S28x28x128 ![] bcast_S_S28x28x128 main_cst_2
  let main_v11 : IVec S28x28x128 1 := cmpf .olt main_v9 main_v10
  let main_c_3 : IVec S_ 1 := constantI S_ 1 1#1
  let main_v12 : IVec S_ 1 := (fun x v => Host.reduce IntOp.andi x v reducesTo_S28x28x128_S_d0_1_2 h_S_) main_v11 main_c_3
  let main_v13 : IVec S_ 1 := andi main_v8 main_v12
  let main_v14 : FVec F S14x14x256 .f32 := Host.absf main_arg3
  let main_cst_4 : FVec F S_ .f32 := constant S_ .f32 0x7F800000#32
  let main_v15 : FVec F S14x14x256 .f32 := broadcastInDim S14x14x256 ![] bcast_S_S14x14x256 main_cst_4
  let main_v16 : IVec S14x14x256 1 := cmpf .olt main_v14 main_v15
  fn_part1 (F := F) main_arg4 main_v13 main_v16
-- ==== Kernel.lean ====
abbrev S131072x3 : Shape := ⟨2, ![131072, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S3136x64 : Shape := ⟨2, ![3136, 64]⟩
abbrev S_ : Shape := ⟨0, ![]⟩
abbrev S3584x64 : Shape := ⟨2, ![3584, 64]⟩
abbrev S784x128 : Shape := ⟨2, ![784, 128]⟩
abbrev S1024x128 : Shape := ⟨2, ![1024, 128]⟩
abbrev S196x256 : Shape := ⟨2, ![196, 256]⟩
abbrev S512x256 : Shape := ⟨2, ![512, 256]⟩
abbrev S49x512 : Shape := ⟨2, ![49, 512]⟩
abbrev S512x512 : Shape := ⟨2, ![512, 512]⟩
abbrev S131072x963 : Shape := ⟨2, ![131072, 963]⟩
abbrev S1024x3 : Shape := ⟨2, ![1024, 3]⟩
abbrev S1024x963 : Shape := ⟨2, ![1024, 963]⟩
abbrev S1024x1 : Shape := ⟨2, ![1024, 1]⟩
abbrev S1024 : Shape := ⟨1, ![1024]⟩
abbrev S1024x64 : Shape := ⟨2, ![1024, 64]⟩
abbrev S512x64 : Shape := ⟨2, ![512, 64]⟩
abbrev S1024x512 : Shape := ⟨2, ![1024, 512]⟩
abbrev S512x128 : Shape := ⟨2, ![512, 128]⟩
abbrev S1024x256 : Shape := ⟨2, ![1024, 256]⟩

abbrev nBuf : Space → Nat
  | .hbm => 22
  | .vmem => 8
  | .smem => 0
  | _ => 0

abbrev bufTy : (tb : Table) → Fin (tcTables nBuf tb) → BufTy
  | .hbm, ⟨0, _⟩ => ⟨S131072x3, .f32⟩
  | .hbm, ⟨1, _⟩ => ⟨S56x56x64, .f32⟩
  | .hbm, ⟨2, _⟩ => ⟨S28x28x128, .f32⟩
  | .hbm, ⟨3, _⟩ => ⟨S14x14x256, .f32⟩
  | .hbm, ⟨4, _⟩ => ⟨S7x7x512, .f32⟩
  | .hbm, ⟨5, _⟩ => ⟨S3136x64, .f32⟩
  | .hbm, ⟨6, _⟩ => ⟨S_, .i32⟩
  | .hbm, ⟨7, _⟩ => ⟨S_, .f32⟩
  | .hbm, ⟨8, _⟩ => ⟨S3584x64, .f32⟩
  | .hbm, ⟨9, _⟩ => ⟨S784x128, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S196x256, .f32⟩
  | .hbm, ⟨14, _⟩ => ⟨S_, .i32⟩
  | .hbm, ⟨15, _⟩ => ⟨S_, .f32⟩
  | .hbm, ⟨16, _⟩ => ⟨S512x256, .f32⟩
  | .hbm, ⟨17, _⟩ => ⟨S49x512, .f32⟩
  | .hbm, ⟨18, _⟩ => ⟨S_, .i32⟩
  | .hbm, ⟨19, _⟩ => ⟨S_, .f32⟩
  | .hbm, ⟨20, _⟩ => ⟨S512x512, .f32⟩
  | .hbm, ⟨21, _⟩ => ⟨S131072x963, .f32⟩
  | .local _ .vmem, ⟨0, _⟩ => ⟨S1024x3, .f32⟩
  | .local _ .vmem, ⟨1, _⟩ => ⟨S1024x3, .f32⟩
  | .local _ .vmem, ⟨2, _⟩ => ⟨S3584x64, .f32⟩
  | .local _ .vmem, ⟨3, _⟩ => ⟨S1024x128, .f32⟩
  | .local _ .vmem, ⟨4, _⟩ => ⟨S512x256, .f32⟩
  | .local _ .vmem, ⟨5, _⟩ => ⟨S512x512, .f32⟩
  | .local _ .vmem, ⟨6, _⟩ => ⟨S1024x963, .f32⟩
  | .local _ .vmem, ⟨7, _⟩ => ⟨S1024x963, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x963 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S56x56x64_S3136x64 : S56x56x64.ShapeCasts S3136x64
  pads_S3136x64_S3584x64_04480_000 : S3136x64.Pads (![0, 0] : Fin 2 → Nat) ![448, 0] ![0, 0] S3584x64
  h_S_ : 0 < S_.numel
  shapeCasts_S28x28x128_S784x128 : S28x28x128.ShapeCasts S784x128
  pads_S784x128_S1024x128_02400_000 : S784x128.Pads (![0, 0] : Fin 2 → Nat) ![240, 0] ![0, 0] S1024x128
  shapeCasts_S14x14x256_S196x256 : S14x14x256.ShapeCasts S196x256
  pads_S196x256_S512x256_03160_000 : S196x256.Pads (![0, 0] : Fin 2 → Nat) ![316, 0] ![0, 0] S512x256
  shapeCasts_S7x7x512_S49x512 : S7x7x512.ShapeCasts S49x512
  pads_S49x512_S512x512_04630_000 : S49x512.Pads (![0, 0] : Fin 2 → Nat) ![463, 0] ![0, 0] S512x512
  inb_S1024x3_S1024x3_0_0 : ∀ a, (![0, 0] : Fin 2 → Nat) a + S1024x3.size a ≤ S1024x3.size a
  h_S1024x3 : 0 < S1024x3.numel
  slices_S1024x3_o0_0_S1024x1 : S1024x3.Slices ![0, 0] S1024x1
  shapeCasts_S1024x1_S1024 : S1024x1.ShapeCasts S1024
  slices_S1024x3_o0_1_S1024x1 : S1024x3.Slices ![0, 1] S1024x1
  slices_S1024x3_o0_2_S1024x1 : S1024x3.Slices ![0, 2] S1024x1
  inb_S1024x963_S1024x3_0_0 : ∀ a, (![0, 0] : Fin 2 → Nat) a + S1024x3.size a ≤ S1024x963.size a
  shapeCasts_S1024_S1024x1 : S1024.ShapeCasts S1024x1
  inb_S3584x64_S512x64_0_0 : ∀ a, (![0, 0] : Fin 2 → Nat) a + S512x64.size a ≤ S3584x64.size a
  h_S512x64 : 0 < S512x64.numel
  shapeCasts_S512x64_S512x64 : S512x64.ShapeCasts S512x64
  iota_S1024x512_d1_w32 : S1024x512.Iotas .tc 32 [1]
  broadcasts_S1024x1_S1024x512 : S1024x1.Broadcasts S1024x512
  shapeCasts_S1024x1_S1024x1 : S1024x1.ShapeCasts S1024x1
  bitsLt_bf16_f32 : FTy.bits .bf16 < FTy.bits .f32
  inb_S3584x64_S512x64_512_0 : ∀ a, (![512, 0] : Fin 2 → Nat) a + S512x64.size a ≤ S3584x64.size a
  inb_S3584x64_S512x64_1024_0 : ∀ a, (![1024, 0] : Fin 2 → Nat) a + S512x64.size a ≤ S3584x64.size a
  inb_S3584x64_S512x64_1536_0 : ∀ a, (![1536, 0] : Fin 2 → Nat) a + S512x64.size a ≤ S3584x64.size a
  inb_S3584x64_S512x64_2048_0 : ∀ a, (![2048, 0] : Fin 2 → Nat) a + S512x64.size a ≤ S3584x64.size a
  inb_S3584x64_S512x64_2560_0 : ∀ a, (![2560, 0] : Fin 2 → Nat) a + S512x64.size a ≤ S3584x64.size a
  inb_S3584x64_S512x64_3072_0 : ∀ a, (![3072, 0] : Fin 2 → Nat) a + S512x64.size a ≤ S3584x64.size a
  inb_S1024x963_S1024x64_0_3 : ∀ a, (![0, 3] : Fin 2 → Nat) a + S1024x64.size a ≤ S1024x963.size a
  h_S1024x64 : 0 < S1024x64.numel
  inb_S1024x128_S512x128_0_0 : ∀ a, (![0, 0] : Fin 2 → Nat) a + S512x128.size a ≤ S1024x128.size a
  h_S512x128 : 0 < S512x128.numel
  shapeCasts_S512x128_S512x128 : S512x128.ShapeCasts S512x128
  inb_S1024x128_S512x128_512_0 : ∀ a, (![512, 0] : Fin 2 → Nat) a + S512x128.size a ≤ S1024x128.size a
  inb_S1024x963_S1024x128_0_67 : ∀ a, (![0, 67] : Fin 2 → Nat) a + S1024x128.size a ≤ S1024x963.size a
  h_S1024x128 : 0 < S1024x128.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x963_S1024x256_0_195 : ∀ a, (![0, 195] : Fin 2 → Nat) a + S1024x256.size a ≤ S1024x963.size a
  h_S1024x256 : 0 < S1024x256.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x963_S1024x512_0_451 : ∀ a, (![0, 451] : Fin 2 → Nat) a + S1024x512.size a ≤ S1024x963.size a
  h_S1024x512 : 0 < S1024x512.numel
  dot_S1024x512_S512x64_S1024x64_1_0_0_1_n_n_wf : DotDims.WF S1024x512 S512x64 S1024x64 [1] [0] [0] [1] [] []
  dot_S1024x512_S512x128_S1024x128_1_0_0_1_n_n_wf : DotDims.WF S1024x512 S512x128 S1024x128 [1] [0] [0] [1] [] []
  dot_S1024x512_S512x256_S1024x256_1_0_0_1_n_n_wf : DotDims.WF S1024x512 S512x256 S1024x256 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S131072x3.size a
  hwx0_0 : ∀ i : grid0.Coords, EltTy.bits .f32 = 32 ∨ (Rect.block (s := S131072x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3584x64.size a ≤ S3584x64.size a
  hwx0_1 : ∀ i : grid0.Coords, EltTy.bits .f32 = 32 ∨ (Rect.block (s := S3584x64) S3584x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x963.size a ≤ S131072x963.size a
  hwx0_5 : ∀ i : grid0.Coords, EltTy.bits .f32 = 32 ∨ (Rect.block (s := S131072x963) S1024x963.size (cc0_transform_5 i) (hinb0_5 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3584x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x963.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x3 : Shape := ⟨2, ![131072, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S131072x1 : Shape := ⟨2, ![131072, 1]⟩
abbrev S131072 : Shape := ⟨1, ![131072]⟩
abbrev S_ : Shape := ⟨0, ![]⟩
abbrev S131072x2 : Shape := ⟨2, ![131072, 2]⟩
abbrev S131072x64 : Shape := ⟨2, ![131072, 64]⟩
abbrev S131072x128 : Shape := ⟨2, ![131072, 128]⟩
abbrev S131072x256 : Shape := ⟨2, ![131072, 256]⟩
abbrev S131072x512 : Shape := ⟨2, ![131072, 512]⟩
abbrev S131072x963 : Shape := ⟨2, ![131072, 963]⟩

abbrev nBuf : Space → Nat
  | .hbm => 625
  | .vmem => 0
  | .smem => 0
  | _ => 0

abbrev hbmTy0_0 (i : Nat) : BufTy := match i % 128 with
  | 0 => ⟨S131072x3, .f32⟩
  | 1 => ⟨S56x56x64, .f32⟩
  | 2 => ⟨S28x28x128, .f32⟩
  | 3 => ⟨S14x14x256, .f32⟩
  | 4 => ⟨S7x7x512, .f32⟩
  | 5 => ⟨S131072x1, .f32⟩
  | 6 => ⟨S131072, .f32⟩
  | 7 => ⟨S131072x1, .f32⟩
  | 8 => ⟨S131072, .f32⟩
  | 9 => ⟨S131072x1, .f32⟩
  | 10 => ⟨S131072, .f32⟩
  | 11 => ⟨S131072, .f32⟩
  | 12 => ⟨S_, .f32⟩
  | 13 => ⟨S131072, .f32⟩
  | 14 => ⟨S131072, .f32⟩
  | 15 => ⟨S131072, .f32⟩
  | 16 => ⟨S131072, .f32⟩
  | 17 => ⟨S_, .f32⟩
  | 18 => ⟨S131072, .f32⟩
  | 19 => ⟨S131072, .f32⟩
  | 20 => ⟨S_, .f32⟩
  | 21 => ⟨S131072, .f32⟩
  | 22 => ⟨S131072, .f32⟩
  | 23 => ⟨S131072, .f32⟩
  | 24 => ⟨S131072, .f32⟩
  | 25 => ⟨S_, .f32⟩
  | 26 => ⟨S131072, .f32⟩
  | 27 => ⟨S131072, .f32⟩
  | 28 => ⟨S_, .f32⟩
  | 29 => ⟨S_, .f32⟩
  | 30 => ⟨S_, .f32⟩
  | 31 => ⟨S131072, .f32⟩
  | 32 => ⟨S131072, .f32⟩
  | 33 => ⟨S_, .f32⟩
  | 34 => ⟨S131072, .f32⟩
  | 35 => ⟨S131072, .f32⟩
  | 36 => ⟨S_, .f32⟩
  | 37 => ⟨S_, .f32⟩
  | 38 => ⟨S_, .f32⟩
  | 39 => ⟨S131072, .f32⟩
  | 40 => ⟨S131072, .f32⟩
  | 41 => ⟨S_, .f32⟩
  | 42 => ⟨S131072, .f32⟩
  | 43 => ⟨S131072, .f32⟩
  | 44 => ⟨S_, .f32⟩
  | 45 => ⟨S131072, .f32⟩
  | 46 => ⟨S131072, .f32⟩
  | 47 => ⟨S_, .f32⟩
  | 48 => ⟨S131072, .f32⟩
  | 49 => ⟨S131072, .f32⟩
  | 50 => ⟨S131072, .f32⟩
  | 51 => ⟨S131072, .f32⟩
  | 52 => ⟨S131072, .f32⟩
  | 53 => ⟨S131072, .f32⟩
  | 54 => ⟨S131072, .i32⟩
  | 55 => ⟨S_, .i32⟩
  | 56 => ⟨S_, .i32⟩
  | 57 => ⟨S_, .i32⟩
  | 58 => ⟨S131072, .i32⟩
  | 59 => ⟨S131072, .i32⟩
  | 60 => ⟨S_, .i32⟩
  | 61 => ⟨S131072, .i32⟩
  | 62 => ⟨S131072, .i32⟩
  | 63 => ⟨S131072, .i32⟩
  | 64 => ⟨S_, .i32⟩
  | 65 => ⟨S_, .i32⟩
  | 66 => ⟨S_, .i32⟩
  | 67 => ⟨S131072, .i32⟩
  | 68 => ⟨S131072, .i32⟩
  | 69 => ⟨S_, .i32⟩
  | 70 => ⟨S131072, .i32⟩
  | 71 => ⟨S131072, .i32⟩
  | 72 => ⟨S131072, .i32⟩
  | 73 => ⟨S_, .i32⟩
  | 74 => ⟨S_, .i32⟩
  | 75 => ⟨S_, .i32⟩
  | 76 => ⟨S131072, .i32⟩
  | 77 => ⟨S131072, .i32⟩
  | 78 => ⟨S_, .i32⟩
  | 79 => ⟨S131072, .i32⟩
  | 80 => ⟨S131072, .i32⟩
  | 81 => ⟨S131072, .i32⟩
  | 82 => ⟨S_, .i32⟩
  | 83 => ⟨S_, .i32⟩
  | 84 => ⟨S_, .i32⟩
  | 85 => ⟨S131072, .i32⟩
  | 86 => ⟨S131072, .i32⟩
  | 87 => ⟨S_, .i32⟩
  | 88 => ⟨S131072, .i32⟩
  | 89 => ⟨S131072, .i32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S131072x1, .i32⟩
  | 106 => ⟨S131072x2, .i32⟩
  | 107 => ⟨S131072x64, .f32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S131072x1, .i32⟩
  | 123 => ⟨S131072x1, .i32⟩
  | 124 => ⟨S131072x2, .i32⟩
  | 125 => ⟨S131072x64, .f32⟩
  | 126 => ⟨S_, .i32⟩
  | 127 => ⟨S131072, .i32⟩
  | _ => ⟨S131072x3, .f32⟩

abbrev hbmTy0_1 (i : Nat) : BufTy := match i % 128 with
  | 0 => ⟨S131072, .i1⟩
  | 1 => ⟨S_, .i32⟩
  | 2 => ⟨S131072, .i32⟩
  | 3 => ⟨S131072, .i32⟩
  | 4 => ⟨S131072, .i32⟩
  | 5 => ⟨S_, .i32⟩
  | 6 => ⟨S131072, .i32⟩
  | 7 => ⟨S131072, .i1⟩
  | 8 => ⟨S_, .i32⟩
  | 9 => ⟨S131072, .i32⟩
  | 10 => ⟨S131072, .i32⟩
  | 11 => ⟨S131072, .i32⟩
  | 12 => ⟨S131072x1, .i32⟩
  | 13 => ⟨S131072x1, .i32⟩
  | 14 => ⟨S131072x2, .i32⟩
  | 15 => ⟨S131072x64, .f32⟩
  | 16 => ⟨S_, .i32⟩
  | 17 => ⟨S131072, .i32⟩
  | 18 => ⟨S131072, .i1⟩
  | 19 => ⟨S_, .i32⟩
  | 20 => ⟨S131072, .i32⟩
  | 21 => ⟨S131072, .i32⟩
  | 22 => ⟨S131072, .i32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x1, .i32⟩
  | 32 => ⟨S131072x2, .i32⟩
  | 33 => ⟨S131072x64, .f32⟩
  | 34 => ⟨S131072, .f32⟩
  | 35 => ⟨S131072, .f32⟩
  | 36 => ⟨S131072, .f32⟩
  | 37 => ⟨S131072x1, .f32⟩
  | 38 => ⟨S131072, .f32⟩
  | 39 => ⟨S131072, .f32⟩
  | 40 => ⟨S131072, .f32⟩
  | 41 => ⟨S131072x1, .f32⟩
  | 42 => ⟨S131072, .f32⟩
  | 43 => ⟨S131072, .f32⟩
  | 44 => ⟨S131072, .f32⟩
  | 45 => ⟨S131072x1, .f32⟩
  | 46 => ⟨S131072, .f32⟩
  | 47 => ⟨S131072, .f32⟩
  | 48 => ⟨S131072, .f32⟩
  | 49 => ⟨S131072x1, .f32⟩
  | 50 => ⟨S131072x64, .f32⟩
  | 51 => ⟨S131072x64, .f32⟩
  | 52 => ⟨S131072x64, .f32⟩
  | 53 => ⟨S131072x64, .f32⟩
  | 54 => ⟨S131072x64, .f32⟩
  | 55 => ⟨S131072x64, .f32⟩
  | 56 => ⟨S131072x64, .f32⟩
  | 57 => ⟨S131072x64, .f32⟩
  | 58 => ⟨S131072x64, .f32⟩
  | 59 => ⟨S131072x64, .f32⟩
  | 60 => ⟨S131072x64, .f32⟩
  | 61 => ⟨S_, .f32⟩
  | 62 => ⟨S131072, .f32⟩
  | 63 => ⟨S131072, .f32⟩
  | 64 => ⟨S_, .f32⟩
  | 65 => ⟨S131072, .f32⟩
  | 66 => ⟨S131072, .f32⟩
  | 67 => ⟨S131072, .f32⟩
  | 68 => ⟨S131072, .f32⟩
  | 69 => ⟨S131072, .f32⟩
  | 70 => ⟨S131072, .f32⟩
  | 71 => ⟨S131072, .i32⟩
  | 72 => ⟨S_, .i32⟩
  | 73 => ⟨S_, .i32⟩
  | 74 => ⟨S_, .i32⟩
  | 75 => ⟨S131072, .i32⟩
  | 76 => ⟨S131072, .i32⟩
  | 77 => ⟨S_, .i32⟩
  | 78 => ⟨S131072, .i32⟩
  | 79 => ⟨S131072, .i32⟩
  | 80 => ⟨S131072, .i32⟩
  | 81 => ⟨S_, .i32⟩
  | 82 => ⟨S_, .i32⟩
  | 83 => ⟨S_, .i32⟩
  | 84 => ⟨S131072, .i32⟩
  | 85 => ⟨S131072, .i32⟩
  | 86 => ⟨S_, .i32⟩
  | 87 => ⟨S131072, .i32⟩
  | 88 => ⟨S131072, .i32⟩
  | 89 => ⟨S131072, .i32⟩
  | 90 => ⟨S_, .i32⟩
  | 91 => ⟨S_, .i32⟩
  | 92 => ⟨S_, .i32⟩
  | 93 => ⟨S131072, .i32⟩
  | 94 => ⟨S131072, .i32⟩
  | 95 => ⟨S_, .i32⟩
  | 96 => ⟨S131072, .i32⟩
  | 97 => ⟨S131072, .i32⟩
  | 98 => ⟨S131072, .i32⟩
  | 99 => ⟨S_, .i32⟩
  | 100 => ⟨S_, .i32⟩
  | 101 => ⟨S_, .i32⟩
  | 102 => ⟨S131072, .i32⟩
  | 103 => ⟨S131072, .i32⟩
  | 104 => ⟨S_, .i32⟩
  | 105 => ⟨S131072, .i32⟩
  | 106 => ⟨S131072, .i32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S131072x1, .i32⟩
  | 122 => ⟨S131072x1, .i32⟩
  | 123 => ⟨S131072x2, .i32⟩
  | 124 => ⟨S131072x128, .f32⟩
  | 125 => ⟨S_, .i32⟩
  | 126 => ⟨S131072, .i32⟩
  | 127 => ⟨S131072, .i1⟩
  | _ => ⟨S131072x3, .f32⟩

abbrev hbmTy0_2 (i : Nat) : BufTy := match i % 128 with
  | 0 => ⟨S_, .i32⟩
  | 1 => ⟨S131072, .i32⟩
  | 2 => ⟨S131072, .i32⟩
  | 3 => ⟨S131072, .i32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S131072x1, .i32⟩
  | 13 => ⟨S131072x2, .i32⟩
  | 14 => ⟨S131072x128, .f32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x1, .i32⟩
  | 31 => ⟨S131072x2, .i32⟩
  | 32 => ⟨S131072x128, .f32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x1, .i32⟩
  | 49 => ⟨S131072x2, .i32⟩
  | 50 => ⟨S131072x128, .f32⟩
  | 51 => ⟨S131072, .f32⟩
  | 52 => ⟨S131072, .f32⟩
  | 53 => ⟨S131072, .f32⟩
  | 54 => ⟨S131072x1, .f32⟩
  | 55 => ⟨S131072, .f32⟩
  | 56 => ⟨S131072, .f32⟩
  | 57 => ⟨S131072, .f32⟩
  | 58 => ⟨S131072x1, .f32⟩
  | 59 => ⟨S131072, .f32⟩
  | 60 => ⟨S131072, .f32⟩
  | 61 => ⟨S131072, .f32⟩
  | 62 => ⟨S131072x1, .f32⟩
  | 63 => ⟨S131072, .f32⟩
  | 64 => ⟨S131072, .f32⟩
  | 65 => ⟨S131072, .f32⟩
  | 66 => ⟨S131072x1, .f32⟩
  | 67 => ⟨S131072x128, .f32⟩
  | 68 => ⟨S131072x128, .f32⟩
  | 69 => ⟨S131072x128, .f32⟩
  | 70 => ⟨S131072x128, .f32⟩
  | 71 => ⟨S131072x128, .f32⟩
  | 72 => ⟨S131072x128, .f32⟩
  | 73 => ⟨S131072x128, .f32⟩
  | 74 => ⟨S131072x128, .f32⟩
  | 75 => ⟨S131072x128, .f32⟩
  | 76 => ⟨S131072x128, .f32⟩
  | 77 => ⟨S131072x128, .f32⟩
  | 78 => ⟨S_, .f32⟩
  | 79 => ⟨S131072, .f32⟩
  | 80 => ⟨S131072, .f32⟩
  | 81 => ⟨S_, .f32⟩
  | 82 => ⟨S131072, .f32⟩
  | 83 => ⟨S131072, .f32⟩
  | 84 => ⟨S131072, .f32⟩
  | 85 => ⟨S131072, .f32⟩
  | 86 => ⟨S131072, .f32⟩
  | 87 => ⟨S131072, .f32⟩
  | 88 => ⟨S131072, .i32⟩
  | 89 => ⟨S_, .i32⟩
  | 90 => ⟨S_, .i32⟩
  | 91 => ⟨S_, .i32⟩
  | 92 => ⟨S131072, .i32⟩
  | 93 => ⟨S131072, .i32⟩
  | 94 => ⟨S_, .i32⟩
  | 95 => ⟨S131072, .i32⟩
  | 96 => ⟨S131072, .i32⟩
  | 97 => ⟨S131072, .i32⟩
  | 98 => ⟨S_, .i32⟩
  | 99 => ⟨S_, .i32⟩
  | 100 => ⟨S_, .i32⟩
  | 101 => ⟨S131072, .i32⟩
  | 102 => ⟨S131072, .i32⟩
  | 103 => ⟨S_, .i32⟩
  | 104 => ⟨S131072, .i32⟩
  | 105 => ⟨S131072, .i32⟩
  | 106 => ⟨S131072, .i32⟩
  | 107 => ⟨S_, .i32⟩
  | 108 => ⟨S_, .i32⟩
  | 109 => ⟨S_, .i32⟩
  | 110 => ⟨S131072, .i32⟩
  | 111 => ⟨S131072, .i32⟩
  | 112 => ⟨S_, .i32⟩
  | 113 => ⟨S131072, .i32⟩
  | 114 => ⟨S131072, .i32⟩
  | 115 => ⟨S131072, .i32⟩
  | 116 => ⟨S_, .i32⟩
  | 117 => ⟨S_, .i32⟩
  | 118 => ⟨S_, .i32⟩
  | 119 => ⟨S131072, .i32⟩
  | 120 => ⟨S131072, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i1⟩
  | 127 => ⟨S_, .i32⟩
  | _ => ⟨S131072x3, .f32⟩

abbrev hbmTy0_3 (i : Nat) : BufTy := match i % 128 with
  | 0 => ⟨S131072, .i32⟩
  | 1 => ⟨S131072, .i32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072x1, .i32⟩
  | 12 => ⟨S131072x2, .i32⟩
  | 13 => ⟨S131072x256, .f32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S131072x1, .i32⟩
  | 30 => ⟨S131072x2, .i32⟩
  | 31 => ⟨S131072x256, .f32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S131072x1, .i32⟩
  | 47 => ⟨S131072x1, .i32⟩
  | 48 => ⟨S131072x2, .i32⟩
  | 49 => ⟨S131072x256, .f32⟩
  | 50 => ⟨S_, .i32⟩
  | 51 => ⟨S131072, .i32⟩
  | 52 => ⟨S131072, .i1⟩
  | 53 => ⟨S_, .i32⟩
  | 54 => ⟨S131072, .i32⟩
  | 55 => ⟨S131072, .i32⟩
  | 56 => ⟨S131072, .i32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S131072x1, .i32⟩
  | 65 => ⟨S131072x1, .i32⟩
  | 66 => ⟨S131072x2, .i32⟩
  | 67 => ⟨S131072x256, .f32⟩
  | 68 => ⟨S131072, .f32⟩
  | 69 => ⟨S131072, .f32⟩
  | 70 => ⟨S131072, .f32⟩
  | 71 => ⟨S131072x1, .f32⟩
  | 72 => ⟨S131072, .f32⟩
  | 73 => ⟨S131072, .f32⟩
  | 74 => ⟨S131072, .f32⟩
  | 75 => ⟨S131072x1, .f32⟩
  | 76 => ⟨S131072, .f32⟩
  | 77 => ⟨S131072, .f32⟩
  | 78 => ⟨S131072, .f32⟩
  | 79 => ⟨S131072x1, .f32⟩
  | 80 => ⟨S131072, .f32⟩
  | 81 => ⟨S131072, .f32⟩
  | 82 => ⟨S131072, .f32⟩
  | 83 => ⟨S131072x1, .f32⟩
  | 84 => ⟨S131072x256, .f32⟩
  | 85 => ⟨S131072x256, .f32⟩
  | 86 => ⟨S131072x256, .f32⟩
  | 87 => ⟨S131072x256, .f32⟩
  | 88 => ⟨S131072x256, .f32⟩
  | 89 => ⟨S131072x256, .f32⟩
  | 90 => ⟨S131072x256, .f32⟩
  | 91 => ⟨S131072x256, .f32⟩
  | 92 => ⟨S131072x256, .f32⟩
  | 93 => ⟨S131072x256, .f32⟩
  | 94 => ⟨S131072x256, .f32⟩
  | 95 => ⟨S_, .f32⟩
  | 96 => ⟨S131072, .f32⟩
  | 97 => ⟨S131072, .f32⟩
  | 98 => ⟨S_, .f32⟩
  | 99 => ⟨S131072, .f32⟩
  | 100 => ⟨S131072, .f32⟩
  | 101 => ⟨S131072, .f32⟩
  | 102 => ⟨S131072, .f32⟩
  | 103 => ⟨S131072, .f32⟩
  | 104 => ⟨S131072, .f32⟩
  | 105 => ⟨S131072, .i32⟩
  | 106 => ⟨S_, .i32⟩
  | 107 => ⟨S_, .i32⟩
  | 108 => ⟨S_, .i32⟩
  | 109 => ⟨S131072, .i32⟩
  | 110 => ⟨S131072, .i32⟩
  | 111 => ⟨S_, .i32⟩
  | 112 => ⟨S131072, .i32⟩
  | 113 => ⟨S131072, .i32⟩
  | 114 => ⟨S131072, .i32⟩
  | 115 => ⟨S_, .i32⟩
  | 116 => ⟨S_, .i32⟩
  | 117 => ⟨S_, .i32⟩
  | 118 => ⟨S131072, .i32⟩
  | 119 => ⟨S131072, .i32⟩
  | 120 => ⟨S_, .i32⟩
  | 121 => ⟨S131072, .i32⟩
  | 122 => ⟨S131072, .i32⟩
  | 123 => ⟨S131072, .i32⟩
  | 124 => ⟨S_, .i32⟩
  | 125 => ⟨S_, .i32⟩
  | 126 => ⟨S_, .i32⟩
  | 127 => ⟨S131072, .i32⟩
  | _ => ⟨S131072x3, .f32⟩

abbrev hbmTy0_4 (i : Nat) : BufTy := match i % 128 with
  | 0 => ⟨S131072, .i32⟩
  | 1 => ⟨S_, .i32⟩
  | 2 => ⟨S131072, .i32⟩
  | 3 => ⟨S131072, .i32⟩
  | 4 => ⟨S131072, .i32⟩
  | 5 => ⟨S_, .i32⟩
  | 6 => ⟨S_, .i32⟩
  | 7 => ⟨S_, .i32⟩
  | 8 => ⟨S131072, .i32⟩
  | 9 => ⟨S131072, .i32⟩
  | 10 => ⟨S_, .i32⟩
  | 11 => ⟨S131072, .i32⟩
  | 12 => ⟨S131072, .i32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x1, .i32⟩
  | 29 => ⟨S131072x2, .i32⟩
  | 30 => ⟨S131072x512, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072x1, .i32⟩
  | 47 => ⟨S131072x2, .i32⟩
  | 48 => ⟨S131072x512, .f32⟩
  | 49 => ⟨S_, .i32⟩
  | 50 => ⟨S131072, .i32⟩
  | 51 => ⟨S131072, .i1⟩
  | 52 => ⟨S_, .i32⟩
  | 53 => ⟨S131072, .i32⟩
  | 54 => ⟨S131072, .i32⟩
  | 55 => ⟨S131072, .i32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S131072x1, .i32⟩
  | 65 => ⟨S131072x2, .i32⟩
  | 66 => ⟨S131072x512, .f32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S_, .i32⟩
  | 75 => ⟨S131072, .i32⟩
  | 76 => ⟨S131072, .i1⟩
  | 77 => ⟨S_, .i32⟩
  | 78 => ⟨S131072, .i32⟩
  | 79 => ⟨S131072, .i32⟩
  | 80 => ⟨S131072, .i32⟩
  | 81 => ⟨S131072x1, .i32⟩
  | 82 => ⟨S131072x1, .i32⟩
  | 83 => ⟨S131072x2, .i32⟩
  | 84 => ⟨S131072x512, .f32⟩
  | 85 => ⟨S131072, .f32⟩
  | 86 => ⟨S131072, .f32⟩
  | 87 => ⟨S131072, .f32⟩
  | 88 => ⟨S131072x1, .f32⟩
  | 89 => ⟨S131072, .f32⟩
  | 90 => ⟨S131072, .f32⟩
  | 91 => ⟨S131072, .f32⟩
  | 92 => ⟨S131072x1, .f32⟩
  | 93 => ⟨S131072, .f32⟩
  | 94 => ⟨S131072, .f32⟩
  | 95 => ⟨S131072, .f32⟩
  | 96 => ⟨S131072x1, .f32⟩
  | 97 => ⟨S131072, .f32⟩
  | 98 => ⟨S131072, .f32⟩
  | 99 => ⟨S131072, .f32⟩
  | 100 => ⟨S131072x1, .f32⟩
  | 101 => ⟨S131072x512, .f32⟩
  | 102 => ⟨S131072x512, .f32⟩
  | 103 => ⟨S131072x512, .f32⟩
  | 104 => ⟨S131072x512, .f32⟩
  | 105 => ⟨S131072x512, .f32⟩
  | 106 => ⟨S131072x512, .f32⟩
  | 107 => ⟨S131072x512, .f32⟩
  | 108 => ⟨S131072x512, .f32⟩
  | 109 => ⟨S131072x512, .f32⟩
  | 110 => ⟨S131072x512, .f32⟩
  | 111 => ⟨S131072x512, .f32⟩
  | 112 => ⟨S131072x963, .f32⟩
  | _ => ⟨S131072x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S131072x3, .f32⟩

abbrev bufTy : (tb : Table) → Fin (tcTables nBuf tb) → BufTy
  | .hbm, ⟨i, _⟩ => hbmTy i
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c : Ref sig .tc := ⟨.hbm, 55, rfl⟩
abbrev main_c_9 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v30 : Ref sig .tc := ⟨.hbm, 62, rfl⟩
abbrev main_v31 : Ref sig .tc := ⟨.hbm, 63, rfl⟩
abbrev main_c_10 : Ref sig .tc := ⟨.hbm, 64, rfl⟩
abbrev main_c_11 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v32 : Ref sig .tc := ⟨.hbm, 71, rfl⟩
abbrev main_v33 : Ref sig .tc := ⟨.hbm, 72, rfl⟩
abbrev main_c_12 : Ref sig .tc := ⟨.hbm, 73, rfl⟩
abbrev main_c_13 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_v34 : Ref sig .tc := ⟨.hbm, 80, rfl⟩
abbrev main_v35 : Ref sig .tc := ⟨.hbm, 81, rfl⟩
abbrev main_c_14 : Ref sig .tc := ⟨.hbm, 82, rfl⟩
abbrev main_c_15 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v36 : Ref sig .tc := ⟨.hbm, 89, rfl⟩
abbrev main_c_16 : Ref sig .tc := ⟨.hbm, 90, rfl⟩
abbrev main_v37 : Ref sig .tc := ⟨.hbm, 91, rfl⟩
abbrev main_v38 : Ref sig .tc := ⟨.hbm, 92, rfl⟩
abbrev main_c_17 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_c_18 : Ref sig .tc := ⟨.hbm, 97, rfl⟩
abbrev main_v42 : Ref sig .tc := ⟨.hbm, 98, rfl⟩
abbrev main_v43 : Ref sig .tc := ⟨.hbm, 99, rfl⟩
abbrev main_c_19 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_c_20 : Ref sig .tc := ⟨.hbm, 108, rfl⟩
abbrev main_v51 : Ref sig .tc := ⟨.hbm, 109, rfl⟩
abbrev main_v52 : Ref sig .tc := ⟨.hbm, 110, rfl⟩
abbrev main_c_21 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_c_22 : Ref sig .tc := ⟨.hbm, 115, rfl⟩
abbrev main_v56 : Ref sig .tc := ⟨.hbm, 116, rfl⟩
abbrev main_v57 : Ref sig .tc := ⟨.hbm, 117, rfl⟩
abbrev main_c_23 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_c_24 : Ref sig .tc := ⟨.hbm, 126, rfl⟩
abbrev main_v65 : Ref sig .tc := ⟨.hbm, 127, rfl⟩
abbrev main_v66 : Ref sig .tc := ⟨.hbm, 128, rfl⟩
abbrev main_c_25 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_c_26 : Ref sig .tc := ⟨.hbm, 133, rfl⟩
abbrev main_v70 : Ref sig .tc := ⟨.hbm, 134, rfl⟩
abbrev main_v71 : Ref sig .tc := ⟨.hbm, 135, rfl⟩
abbrev main_c_27 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_c_28 : Ref sig .tc := ⟨.hbm, 144, rfl⟩
abbrev main_v79 : Ref sig .tc := ⟨.hbm, 145, rfl⟩
abbrev main_v80 : Ref sig .tc := ⟨.hbm, 146, rfl⟩
abbrev main_c_29 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_c_30 : Ref sig .tc := ⟨.hbm, 151, rfl⟩
abbrev main_v84 : Ref sig .tc := ⟨.hbm, 152, rfl⟩
abbrev main_v85 : Ref sig .tc := ⟨.hbm, 153, rfl⟩
abbrev main_c_31 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_cst_32 : Ref sig .tc := ⟨.hbm, 189, rfl⟩
abbrev main_v120 : Ref sig .tc := ⟨.hbm, 190, rfl⟩
abbrev main_v121 : Ref sig .tc := ⟨.hbm, 191, rfl⟩
abbrev main_cst_33 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_c_34 : Ref sig .tc := ⟨.hbm, 200, rfl⟩
abbrev main_c_35 : Ref sig .tc := ⟨.hbm, 201, rfl⟩
abbrev main_call6_v0 : Ref sig .tc := ⟨.hbm, 202, rfl⟩
abbrev main_call6_v1 : Ref sig .tc := ⟨.hbm, 203, rfl⟩
abbrev main_call6_v2 : Ref sig .tc := ⟨.hbm, 204, rfl⟩
abbrev main_call6_v3 : Ref sig .tc := ⟨.hbm, 205, rfl⟩
abbrev main_call6_v4 : Ref sig .tc := ⟨.hbm, 206, rfl⟩
abbrev main_v129 : Ref sig .tc := ⟨.hbm, 207, rfl⟩
abbrev main_v130 : Ref sig .tc := ⟨.hbm, 208, rfl⟩
abbrev main_c_36 : Ref sig .tc := ⟨.hbm, 209, rfl⟩
abbrev main_c_37 : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_v131 : Ref sig .tc := ⟨.hbm, 216, rfl⟩
abbrev main_v132 : Ref sig .tc := ⟨.hbm, 217, rfl⟩
abbrev main_c_38 : Ref sig .tc := ⟨.hbm, 218, rfl⟩
abbrev main_c_39 : Ref sig .tc := ⟨.hbm, 219, rfl⟩
abbrev main_call8_v0 : Ref sig .tc := ⟨.hbm, 220, rfl⟩
abbrev main_call8_v1 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_v133 : Ref sig .tc := ⟨.hbm, 225, rfl⟩
abbrev main_v134 : Ref sig .tc := ⟨.hbm, 226, rfl⟩
abbrev main_c_40 : Ref sig .tc := ⟨.hbm, 227, rfl⟩
abbrev main_c_41 : Ref sig .tc := ⟨.hbm, 228, rfl⟩
abbrev main_call9_v0 : Ref sig .tc := ⟨.hbm, 229, rfl⟩
abbrev main_call9_v1 : Ref sig .tc := ⟨.hbm, 230, rfl⟩
abbrev main_call9_v2 : Ref sig .tc := ⟨.hbm, 231, rfl⟩
abbrev main_call9_v3 : Ref sig .tc := ⟨.hbm, 232, rfl⟩
abbrev main_call9_v4 : Ref sig .tc := ⟨.hbm, 233, rfl⟩
abbrev main_v135 : Ref sig .tc := ⟨.hbm, 234, rfl⟩
abbrev main_c_42 : Ref sig .tc := ⟨.hbm, 235, rfl⟩
abbrev main_v136 : Ref sig .tc := ⟨.hbm, 236, rfl⟩
abbrev main_v137 : Ref sig .tc := ⟨.hbm, 237, rfl⟩
abbrev main_c_43 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_c_44 : Ref sig .tc := ⟨.hbm, 242, rfl⟩
abbrev main_v141 : Ref sig .tc := ⟨.hbm, 243, rfl⟩
abbrev main_v142 : Ref sig .tc := ⟨.hbm, 244, rfl⟩
abbrev main_c_45 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_c_46 : Ref sig .tc := ⟨.hbm, 253, rfl⟩
abbrev main_v150 : Ref sig .tc := ⟨.hbm, 254, rfl⟩
abbrev main_v151 : Ref sig .tc := ⟨.hbm, 255, rfl⟩
abbrev main_c_47 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_c_48 : Ref sig .tc := ⟨.hbm, 260, rfl⟩
abbrev main_v155 : Ref sig .tc := ⟨.hbm, 261, rfl⟩
abbrev main_v156 : Ref sig .tc := ⟨.hbm, 262, rfl⟩
abbrev main_c_49 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_c_50 : Ref sig .tc := ⟨.hbm, 271, rfl⟩
abbrev main_v164 : Ref sig .tc := ⟨.hbm, 272, rfl⟩
abbrev main_v165 : Ref sig .tc := ⟨.hbm, 273, rfl⟩
abbrev main_c_51 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_c_52 : Ref sig .tc := ⟨.hbm, 278, rfl⟩
abbrev main_v169 : Ref sig .tc := ⟨.hbm, 279, rfl⟩
abbrev main_v170 : Ref sig .tc := ⟨.hbm, 280, rfl⟩
abbrev main_c_53 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_c_54 : Ref sig .tc := ⟨.hbm, 289, rfl⟩
abbrev main_v178 : Ref sig .tc := ⟨.hbm, 290, rfl⟩
abbrev main_v179 : Ref sig .tc := ⟨.hbm, 291, rfl⟩
abbrev main_c_55 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_c_56 : Ref sig .tc := ⟨.hbm, 296, rfl⟩
abbrev main_v183 : Ref sig .tc := ⟨.hbm, 297, rfl⟩
abbrev main_v184 : Ref sig .tc := ⟨.hbm, 298, rfl⟩
abbrev main_c_57 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_cst_58 : Ref sig .tc := ⟨.hbm, 334, rfl⟩
abbrev main_v219 : Ref sig .tc := ⟨.hbm, 335, rfl⟩
abbrev main_v220 : Ref sig .tc := ⟨.hbm, 336, rfl⟩
abbrev main_cst_59 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_v225 : Ref sig .tc := ⟨.hbm, 342, rfl⟩
abbrev main_v226 : Ref sig .tc := ⟨.hbm, 343, rfl⟩
abbrev main_v227 : Ref sig .tc := ⟨.hbm, 344, rfl⟩
abbrev main_c_60 : Ref sig .tc := ⟨.hbm, 345, rfl⟩
abbrev main_c_61 : Ref sig .tc := ⟨.hbm, 346, rfl⟩
abbrev main_call10_v0 : Ref sig .tc := ⟨.hbm, 347, rfl⟩
abbrev main_call10_v1 : Ref sig .tc := ⟨.hbm, 348, rfl⟩
abbrev main_call10_v2 : Ref sig .tc := ⟨.hbm, 349, rfl⟩
abbrev main_call10_v3 : Ref sig .tc := ⟨.hbm, 350, rfl⟩
abbrev main_call10_v4 : Ref sig .tc := ⟨.hbm, 351, rfl⟩
abbrev main_v228 : Ref sig .tc := ⟨.hbm, 352, rfl⟩
abbrev main_v229 : Ref sig .tc := ⟨.hbm, 353, rfl⟩
abbrev main_c_62 : Ref sig .tc := ⟨.hbm, 354, rfl⟩
abbrev main_c_63 : Ref sig .tc := ⟨.hbm, 355, rfl⟩
abbrev main_call11_v0 : Ref sig .tc := ⟨.hbm, 356, rfl⟩
abbrev main_call11_v1 : Ref sig .tc := ⟨.hbm, 357, rfl⟩
abbrev main_call11_v2 : Ref sig .tc := ⟨.hbm, 358, rfl⟩
abbrev main_call11_v3 : Ref sig .tc := ⟨.hbm, 359, rfl⟩
abbrev main_call11_v4 : Ref sig .tc := ⟨.hbm, 360, rfl⟩
abbrev main_v230 : Ref sig .tc := ⟨.hbm, 361, rfl⟩
abbrev main_v231 : Ref sig .tc := ⟨.hbm, 362, rfl⟩
abbrev main_c_64 : Ref sig .tc := ⟨.hbm, 363, rfl⟩
abbrev main_c_65 : Ref sig .tc := ⟨.hbm, 364, rfl⟩
abbrev main_call12_v0 : Ref sig .tc := ⟨.hbm, 365, rfl⟩
abbrev main_call12_v1 : Ref sig .tc := ⟨.hbm, 366, rfl⟩
abbrev main_call12_v2 : Ref sig .tc := ⟨.hbm, 367, rfl⟩
abbrev main_call12_v3 : Ref sig .tc := ⟨.hbm, 368, rfl⟩
abbrev main_call12_v4 : Ref sig .tc := ⟨.hbm, 369, rfl⟩
abbrev main_v232 : Ref sig .tc := ⟨.hbm, 370, rfl⟩
abbrev main_v233 : Ref sig .tc := ⟨.hbm, 371, rfl⟩
abbrev main_c_66 : Ref sig .tc := ⟨.hbm, 372, rfl⟩
abbrev main_c_67 : Ref sig .tc := ⟨.hbm, 373, rfl⟩
abbrev main_call13_v0 : Ref sig .tc := ⟨.hbm, 374, rfl⟩
abbrev main_call13_v1 : Ref sig .tc := ⟨.hbm, 375, rfl⟩
abbrev main_call13_v2 : Ref sig .tc := ⟨.hbm, 376, rfl⟩
abbrev main_call13_v3 : Ref sig .tc := ⟨.hbm, 377, rfl⟩
abbrev main_call13_v4 : Ref sig .tc := ⟨.hbm, 378, rfl⟩
abbrev main_v234 : Ref sig .tc := ⟨.hbm, 379, rfl⟩
abbrev main_c_68 : Ref sig .tc := ⟨.hbm, 380, rfl⟩
abbrev main_v235 : Ref sig .tc := ⟨.hbm, 381, rfl⟩
abbrev main_v236 : Ref sig .tc := ⟨.hbm, 382, rfl⟩
abbrev main_c_69 : Ref sig .tc := ⟨.hbm, 383, rfl⟩
abbrev main_v237 : Ref sig .tc := ⟨.hbm, 384, rfl⟩
abbrev main_v238 : Ref sig .tc := ⟨.hbm, 385, rfl⟩
abbrev main_v239 : Ref sig .tc := ⟨.hbm, 386, rfl⟩
abbrev main_c_70 : Ref sig .tc := ⟨.hbm, 387, rfl⟩
abbrev main_v240 : Ref sig .tc := ⟨.hbm, 388, rfl⟩
abbrev main_v241 : Ref sig .tc := ⟨.hbm, 389, rfl⟩
abbrev main_c_71 : Ref sig .tc := ⟨.hbm, 390, rfl⟩
abbrev main_v242 : Ref sig .tc := ⟨.hbm, 391, rfl⟩
abbrev main_v243 : Ref sig .tc := ⟨.hbm, 392, rfl⟩
abbrev main_v244 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_v248 : Ref sig .tc := ⟨.hbm, 397, rfl⟩
abbrev main_c_72 : Ref sig .tc := ⟨.hbm, 398, rfl⟩
abbrev main_v249 : Ref sig .tc := ⟨.hbm, 399, rfl⟩
abbrev main_v250 : Ref sig .tc := ⟨.hbm, 400, rfl⟩
abbrev main_c_73 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_c_74 : Ref sig .tc := ⟨.hbm, 405, rfl⟩
abbrev main_v254 : Ref sig .tc := ⟨.hbm, 406, rfl⟩
abbrev main_v255 : Ref sig .tc := ⟨.hbm, 407, rfl⟩
abbrev main_c_75 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_v262 : Ref sig .tc := ⟨.hbm, 415, rfl⟩
abbrev main_c_76 : Ref sig .tc := ⟨.hbm, 416, rfl⟩
abbrev main_v263 : Ref sig .tc := ⟨.hbm, 417, rfl⟩
abbrev main_v264 : Ref sig .tc := ⟨.hbm, 418, rfl⟩
abbrev main_c_77 : Ref sig .tc := ⟨.hbm, 419, rfl⟩
abbrev main_v265 : Ref sig .tc := ⟨.hbm, 420, rfl⟩
abbrev main_v266 : Ref sig .tc := ⟨.hbm, 421, rfl⟩
abbrev main_v267 : Ref sig .tc := ⟨.hbm, 422, rfl⟩
abbrev main_c_78 : Ref sig .tc := ⟨.hbm, 423, rfl⟩
abbrev main_v268 : Ref sig .tc := ⟨.hbm, 424, rfl⟩
abbrev main_v269 : Ref sig .tc := ⟨.hbm, 425, rfl⟩
abbrev main_c_79 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_v276 : Ref sig .tc := ⟨.hbm, 433, rfl⟩
abbrev main_c_80 : Ref sig .tc := ⟨.hbm, 434, rfl⟩
abbrev main_v277 : Ref sig .tc := ⟨.hbm, 435, rfl⟩
abbrev main_v278 : Ref sig .tc := ⟨.hbm, 436, rfl⟩
abbrev main_c_81 : Ref sig .tc := ⟨.hbm, 437, rfl⟩
abbrev main_v279 : Ref sig .tc := ⟨.hbm, 438, rfl⟩
abbrev main_v280 : Ref sig .tc := ⟨.hbm, 439, rfl⟩
abbrev main_v281 : Ref sig .tc := ⟨.hbm, 440, rfl⟩
abbrev main_c_82 : Ref sig .tc := ⟨.hbm, 441, rfl⟩
abbrev main_v282 : Ref sig .tc := ⟨.hbm, 442, rfl⟩
abbrev main_v283 : Ref sig .tc := ⟨.hbm, 443, rfl⟩
abbrev main_c_83 : Ref sig .tc := ⟨.hbm, 444, rfl⟩
abbrev main_v284 : Ref sig .tc := ⟨.hbm, 445, rfl⟩
abbrev main_v285 : Ref sig .tc := ⟨.hbm, 446, rfl⟩
abbrev main_v286 : Ref sig .tc := ⟨.hbm, 447, rfl⟩
abbrev main_v287 : Ref sig .tc := ⟨.hbm, 448, rfl⟩
abbrev main_v288 : Ref sig .tc := ⟨.hbm, 449, rfl⟩
abbrev main_v289 : Ref sig .tc := ⟨.hbm, 450, rfl⟩
abbrev main_v290 : Ref sig .tc := ⟨.hbm, 451, rfl⟩
abbrev main_v291 : Ref sig .tc := ⟨.hbm, 452, rfl⟩
abbrev main_v292 : Ref sig .tc := ⟨.hbm, 453, rfl⟩
abbrev main_v293 : Ref sig .tc := ⟨.hbm, 454, rfl⟩
abbrev main_v294 : Ref sig .tc := ⟨.hbm, 455, rfl⟩
abbrev main_v295 : Ref sig .tc := ⟨.hbm, 456, rfl⟩
abbrev main_v296 : Ref sig .tc := ⟨.hbm, 457, rfl⟩
abbrev main_v297 : Ref sig .tc := ⟨.hbm, 458, rfl⟩
abbrev main_v298 : Ref sig .tc := ⟨.hbm, 459, rfl⟩
abbrev main_v299 : Ref sig .tc := ⟨.hbm, 460, rfl⟩
abbrev main_v300 : Ref sig .tc := ⟨.hbm, 461, rfl⟩
abbrev main_v301 : Ref sig .tc := ⟨.hbm, 462, rfl⟩
abbrev main_v302 : Ref sig .tc := ⟨.hbm, 463, rfl⟩
abbrev main_v303 : Ref sig .tc := ⟨.hbm, 464, rfl⟩
abbrev main_v304 : Ref sig .tc := ⟨.hbm, 465, rfl⟩
abbrev main_v305 : Ref sig .tc := ⟨.hbm, 466, rfl⟩
abbrev main_v306 : Ref sig .tc := ⟨.hbm, 467, rfl⟩
abbrev main_v307 : Ref sig .tc := ⟨.hbm, 468, rfl⟩
abbrev main_v308 : Ref sig .tc := ⟨.hbm, 469, rfl⟩
abbrev main_v309 : Ref sig .tc := ⟨.hbm, 470, rfl⟩
abbrev main_v310 : Ref sig .tc := ⟨.hbm, 471, rfl⟩
abbrev main_v311 : Ref sig .tc := ⟨.hbm, 472, rfl⟩
abbrev main_v312 : Ref sig .tc := ⟨.hbm, 473, rfl⟩
abbrev main_v313 : Ref sig .tc := ⟨.hbm, 474, rfl⟩
abbrev main_v314 : Ref sig .tc := ⟨.hbm, 475, rfl⟩
abbrev main_v315 : Ref sig .tc := ⟨.hbm, 476, rfl⟩
abbrev main_v316 : Ref sig .tc := ⟨.hbm, 477, rfl⟩
abbrev main_v317 : Ref sig .tc := ⟨.hbm, 478, rfl⟩
abbrev main_cst_84 : Ref sig .tc := ⟨.hbm, 479, rfl⟩
abbrev main_v318 : Ref sig .tc := ⟨.hbm, 480, rfl⟩
abbrev main_v319 : Ref sig .tc := ⟨.hbm, 481, rfl⟩
abbrev main_cst_85 : Ref sig .tc := ⟨.hbm, 482, rfl⟩
abbrev main_v320 : Ref sig .tc := ⟨.hbm, 483, rfl⟩
abbrev main_v321 : Ref sig .tc := ⟨.hbm, 484, rfl⟩
abbrev main_v322 : Ref sig .tc := ⟨.hbm, 485, rfl⟩
abbrev main_v323 : Ref sig .tc := ⟨.hbm, 486, rfl⟩
abbrev main_v324 : Ref sig .tc := ⟨.hbm, 487, rfl⟩
abbrev main_v325 : Ref sig .tc := ⟨.hbm, 488, rfl⟩
abbrev main_v326 : Ref sig .tc := ⟨.hbm, 489, rfl⟩
abbrev main_c_86 : Ref sig .tc := ⟨.hbm, 490, rfl⟩
abbrev main_c_87 : Ref sig .tc := ⟨.hbm, 491, rfl⟩
abbrev main_call14_v0 : Ref sig .tc := ⟨.hbm, 492, rfl⟩
abbrev main_call14_v1 : Ref sig .tc := ⟨.hbm, 493, rfl⟩
abbrev main_call14_v2 : Ref sig .tc := ⟨.hbm, 494, rfl⟩
abbrev main_call14_v3 : Ref sig .tc := ⟨.hbm, 495, rfl⟩
abbrev main_call14_v4 : Ref sig .tc := ⟨.hbm, 496, rfl⟩
abbrev main_v327 : Ref sig .tc := ⟨.hbm, 497, rfl⟩
abbrev main_v328 : Ref sig .tc := ⟨.hbm, 498, rfl⟩
abbrev main_c_88 : Ref sig .tc := ⟨.hbm, 499, rfl⟩
abbrev main_c_89 : Ref sig .tc := ⟨.hbm, 500, rfl⟩
abbrev main_call15_v0 : Ref sig .tc := ⟨.hbm, 501, rfl⟩
abbrev main_call15_v1 : Ref sig .tc := ⟨.hbm, 502, rfl⟩
abbrev main_call15_v2 : Ref sig .tc := ⟨.hbm, 503, rfl⟩
abbrev main_call15_v3 : Ref sig .tc := ⟨.hbm, 504, rfl⟩
abbrev main_call15_v4 : Ref sig .tc := ⟨.hbm, 505, rfl⟩
abbrev main_v329 : Ref sig .tc := ⟨.hbm, 506, rfl⟩
abbrev main_v330 : Ref sig .tc := ⟨.hbm, 507, rfl⟩
abbrev main_c_90 : Ref sig .tc := ⟨.hbm, 508, rfl⟩
abbrev main_c_91 : Ref sig .tc := ⟨.hbm, 509, rfl⟩
abbrev main_call16_v0 : Ref sig .tc := ⟨.hbm, 510, rfl⟩
abbrev main_call16_v1 : Ref sig .tc := ⟨.hbm, 511, rfl⟩
abbrev main_call16_v2 : Ref sig .tc := ⟨.hbm, 512, rfl⟩
abbrev main_call16_v3 : Ref sig .tc := ⟨.hbm, 513, rfl⟩
abbrev main_call16_v4 : Ref sig .tc := ⟨.hbm, 514, rfl⟩
abbrev main_v331 : Ref sig .tc := ⟨.hbm, 515, rfl⟩
abbrev main_v332 : Ref sig .tc := ⟨.hbm, 516, rfl⟩
abbrev main_c_92 : Ref sig .tc := ⟨.hbm, 517, rfl⟩
abbrev main_c_93 : Ref sig .tc := ⟨.hbm, 518, rfl⟩
abbrev main_call17_v0 : Ref sig .tc := ⟨.hbm, 519, rfl⟩
abbrev main_call17_v1 : Ref sig .tc := ⟨.hbm, 520, rfl⟩
abbrev main_call17_v2 : Ref sig .tc := ⟨.hbm, 521, rfl⟩
abbrev main_call17_v3 : Ref sig .tc := ⟨.hbm, 522, rfl⟩
abbrev main_call17_v4 : Ref sig .tc := ⟨.hbm, 523, rfl⟩
abbrev main_v333 : Ref sig .tc := ⟨.hbm, 524, rfl⟩
abbrev main_c_94 : Ref sig .tc := ⟨.hbm, 525, rfl⟩
abbrev main_v334 : Ref sig .tc := ⟨.hbm, 526, rfl⟩
abbrev main_v335 : Ref sig .tc := ⟨.hbm, 527, rfl⟩
abbrev main_c_95 : Ref sig .tc := ⟨.hbm, 528, rfl⟩
abbrev main_v336 : Ref sig .tc := ⟨.hbm, 529, rfl⟩
abbrev main_v337 : Ref sig .tc := ⟨.hbm, 530, rfl⟩
abbrev main_v338 : Ref sig .tc := ⟨.hbm, 531, rfl⟩
abbrev main_c_96 : Ref sig .tc := ⟨.hbm, 532, rfl⟩
abbrev main_v339 : Ref sig .tc := ⟨.hbm, 533, rfl⟩
abbrev main_v340 : Ref sig .tc := ⟨.hbm, 534, rfl⟩
abbrev main_c_97 : Ref sig .tc := ⟨.hbm, 535, rfl⟩
abbrev main_v341 : Ref sig .tc := ⟨.hbm, 536, rfl⟩
abbrev main_v342 : Ref sig .tc := ⟨.hbm, 537, rfl⟩
abbrev main_v343 : Ref sig .tc := ⟨.hbm, 538, rfl⟩
abbrev main_v344 : Ref sig .tc := ⟨.hbm, 539, rfl⟩
abbrev main_v345 : Ref sig .tc := ⟨.hbm, 540, rfl⟩
abbrev main_v346 : Ref sig .tc := ⟨.hbm, 541, rfl⟩
abbrev main_v347 : Ref sig .tc := ⟨.hbm, 542, rfl⟩
abbrev main_c_98 : Ref sig .tc := ⟨.hbm, 543, rfl⟩
abbrev main_v348 : Ref sig .tc := ⟨.hbm, 544, rfl⟩
abbrev main_v349 : Ref sig .tc := ⟨.hbm, 545, rfl⟩
abbrev main_c_99 : Ref sig .tc := ⟨.hbm, 546, rfl⟩
abbrev main_v350 : Ref sig .tc := ⟨.hbm, 547, rfl⟩
abbrev main_v351 : Ref sig .tc := ⟨.hbm, 548, rfl⟩
abbrev main_v352 : Ref sig .tc := ⟨.hbm, 549, rfl⟩
abbrev main_c_100 : Ref sig .tc := ⟨.hbm, 550, rfl⟩
abbrev main_v353 : Ref sig .tc := ⟨.hbm, 551, rfl⟩
abbrev main_v354 : Ref sig .tc := ⟨.hbm, 552, rfl⟩
abbrev main_c_101 : Ref sig .tc := ⟨.hbm, 553, rfl⟩
abbrev main_v355 : Ref sig .tc := ⟨.hbm, 554, rfl⟩
abbrev main_v356 : Ref sig .tc := ⟨.hbm, 555, rfl⟩
abbrev main_v357 : Ref sig .tc := ⟨.hbm, 556, rfl⟩
abbrev main_v358 : Ref sig .tc := ⟨.hbm, 557, rfl⟩
abbrev main_v359 : Ref sig .tc := ⟨.hbm, 558, rfl⟩
abbrev main_v360 : Ref sig .tc := ⟨.hbm, 559, rfl⟩
abbrev main_v361 : Ref sig .tc := ⟨.hbm, 560, rfl⟩
abbrev main_c_102 : Ref sig .tc := ⟨.hbm, 561, rfl⟩
abbrev main_v362 : Ref sig .tc := ⟨.hbm, 562, rfl⟩
abbrev main_v363 : Ref sig .tc := ⟨.hbm, 563, rfl⟩
abbrev main_c_103 : Ref sig .tc := ⟨.hbm, 564, rfl⟩
abbrev main_v364 : Ref sig .tc := ⟨.hbm, 565, rfl⟩
abbrev main_v365 : Ref sig .tc := ⟨.hbm, 566, rfl⟩
abbrev main_v366 : Ref sig .tc := ⟨.hbm, 567, rfl⟩
abbrev main_c_104 : Ref sig .tc := ⟨.hbm, 568, rfl⟩
abbrev main_v367 : Ref sig .tc := ⟨.hbm, 569, rfl⟩
abbrev main_v368 : Ref sig .tc := ⟨.hbm, 570, rfl⟩
abbrev main_c_105 : Ref sig .tc := ⟨.hbm, 571, rfl⟩
abbrev main_v369 : Ref sig .tc := ⟨.hbm, 572, rfl⟩
abbrev main_v370 : Ref sig .tc := ⟨.hbm, 573, rfl⟩
abbrev main_v371 : Ref sig .tc := ⟨.hbm, 574, rfl⟩
abbrev main_v372 : Ref sig .tc := ⟨.hbm, 575, rfl⟩
abbrev main_v373 : Ref sig .tc := ⟨.hbm, 576, rfl⟩
abbrev main_v374 : Ref sig .tc := ⟨.hbm, 577, rfl⟩
abbrev main_v375 : Ref sig .tc := ⟨.hbm, 578, rfl⟩
abbrev main_c_106 : Ref sig .tc := ⟨.hbm, 579, rfl⟩
abbrev main_v376 : Ref sig .tc := ⟨.hbm, 580, rfl⟩
abbrev main_v377 : Ref sig .tc := ⟨.hbm, 581, rfl⟩
abbrev main_c_107 : Ref sig .tc := ⟨.hbm, 582, rfl⟩
abbrev main_v378 : Ref sig .tc := ⟨.hbm, 583, rfl⟩
abbrev main_v379 : Ref sig .tc := ⟨.hbm, 584, rfl⟩
abbrev main_v380 : Ref sig .tc := ⟨.hbm, 585, rfl⟩
abbrev main_c_108 : Ref sig .tc := ⟨.hbm, 586, rfl⟩
abbrev main_v381 : Ref sig .tc := ⟨.hbm, 587, rfl⟩
abbrev main_v382 : Ref sig .tc := ⟨.hbm, 588, rfl⟩
abbrev main_c_109 : Ref sig .tc := ⟨.hbm, 589, rfl⟩
abbrev main_v383 : Ref sig .tc := ⟨.hbm, 590, rfl⟩
abbrev main_v384 : Ref sig .tc := ⟨.hbm, 591, rfl⟩
abbrev main_v385 : Ref sig .tc := ⟨.hbm, 592, rfl⟩
abbrev main_v386 : Ref sig .tc := ⟨.hbm, 593, rfl⟩
abbrev main_v387 : Ref sig .tc := ⟨.hbm, 594, rfl⟩
abbrev main_v388 : Ref sig .tc := ⟨.hbm, 595, rfl⟩
abbrev main_v389 : Ref sig .tc := ⟨.hbm, 596, rfl⟩
abbrev main_v390 : Ref sig .tc := ⟨.hbm, 597, rfl⟩
abbrev main_v391 : Ref sig .tc := ⟨.hbm, 598, rfl⟩
abbrev main_v392 : Ref sig .tc := ⟨.hbm, 599, rfl⟩
abbrev main_v393 : Ref sig .tc := ⟨.hbm, 600, rfl⟩
abbrev main_v394 : Ref sig .tc := ⟨.hbm, 601, rfl⟩
abbrev main_v395 : Ref sig .tc := ⟨.hbm, 602, rfl⟩
abbrev main_v396 : Ref sig .tc := ⟨.hbm, 603, rfl⟩
abbrev main_v397 : Ref sig .tc := ⟨.hbm, 604, rfl⟩
abbrev main_v398 : Ref sig .tc := ⟨.hbm, 605, rfl⟩
abbrev main_v399 : Ref sig .tc := ⟨.hbm, 606, rfl⟩
abbrev main_v400 : Ref sig .tc := ⟨.hbm, 607, rfl⟩
abbrev main_v401 : Ref sig .tc := ⟨.hbm, 608, rfl⟩
abbrev main_v402 : Ref sig .tc := ⟨.hbm, 609, rfl⟩
abbrev main_v403 : Ref sig .tc := ⟨.hbm, 610, rfl⟩
abbrev main_v404 : Ref sig .tc := ⟨.hbm, 611, rfl⟩
abbrev main_v405 : Ref sig .tc := ⟨.hbm, 612, rfl⟩
abbrev main_v406 : Ref sig .tc := ⟨.hbm, 613, rfl⟩
abbrev main_v407 : Ref sig .tc := ⟨.hbm, 614, rfl⟩
abbrev main_v408 : Ref sig .tc := ⟨.hbm, 615, rfl⟩
abbrev main_v409 : Ref sig .tc := ⟨.hbm, 616, rfl⟩
abbrev main_v410 : Ref sig .tc := ⟨.hbm, 617, rfl⟩
abbrev main_v411 : Ref sig .tc := ⟨.hbm, 618, rfl⟩
abbrev main_v412 : Ref sig .tc := ⟨.hbm, 619, rfl⟩
abbrev main_v413 : Ref sig .tc := ⟨.hbm, 620, rfl⟩
abbrev main_v414 : Ref sig .tc := ⟨.hbm, 621, rfl⟩
abbrev main_v415 : Ref sig .tc := ⟨.hbm, 622, rfl⟩
abbrev main_v416 : Ref sig .tc := ⟨.hbm, 623, rfl⟩
abbrev main_v417 : Ref sig .tc := ⟨.hbm, 624, rfl⟩

abbrev nD : Nat := 1
abbrev τ : Topo := Topo.v7x

variable {F : FTy → Type} [FloatOps F]

class Facts₀ : Prop where
  slices_S131072x3_S131072x1_0_0 : S131072x3.Slices ![0, 0] S131072x1
  shapeCasts_S131072x1_S131072 : S131072x1.ShapeCasts S131072
  slices_S131072x3_S131072x1_0_1 : S131072x3.Slices ![0, 1] S131072x1
  slices_S131072x3_S131072x1_0_2 : S131072x3.Slices ![0, 2] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S131072x1_S131072x64_0_1 : S131072x1.BroadcastsInDim S131072x64 (![0, 1] : Fin 2 → Fin S131072x64.rank)
  bcast_S131072x1_S131072x128_0_1 : S131072x1.BroadcastsInDim S131072x128 (![0, 1] : Fin 2 → Fin S131072x128.rank)
  bcast_S131072x1_S131072x256_0_1 : S131072x1.BroadcastsInDim S131072x256 (![0, 1] : Fin 2 → Fin S131072x256.rank)
  bcast_S131072x1_S131072x512_0_1 : S131072x1.BroadcastsInDim S131072x512 (![0, 1] : Fin 2 → Fin S131072x512.rank)
  concatenates_S131072x3_S131072x64_S131072x128_S131072x256_S131072x512_S131072x963_d1 : Shape.Concatenates [S131072x3, S131072x64, S131072x128, S131072x256, S131072x512] S131072x963 1
  gather_S56x56x64_S131072x2_S131072x64_1_01_n_n_01_1_1164_wf : GatherDims.WF S56x56x64 S131072x2 S131072x64 [1] [0, 1] [] [0, 1] [] 1 ![1, 1, 64]
  gather_S28x28x128_S131072x2_S131072x128_1_01_n_n_01_1_11128_wf : GatherDims.WF S28x28x128 S131072x2 S131072x128 [1] [0, 1] [] [0, 1] [] 1 ![1, 1, 128]
  gather_S14x14x256_S131072x2_S131072x256_1_01_n_n_01_1_11256_wf : GatherDims.WF S14x14x256 S131072x2 S131072x256 [1] [0, 1] [] [0, 1] [] 1 ![1, 1, 256]
  gather_S7x7x512_S131072x2_S131072x512_1_01_n_n_01_1_11512_wf : GatherDims.WF S7x7x512 S131072x2 S131072x512 [1] [0, 1] [] [0, 1] [] 1 ![1, 1, 512]

variable [Facts₀]

def gather_S56x56x64_S131072x2_S131072x64_1_01_n_n_01_1_1164 : GatherDims S56x56x64 S131072x2 S131072x64 where
  offsetDims := [1]
  collapsedSliceDims := [0, 1]
  operandBatchingDims := []
  startIndicesBatchingDims := []
  startIndexMap := [0, 1]
  indexVectorDim := 1
  sliceSizes := ![1, 1, 64]
  wf := gather_S56x56x64_S131072x2_S131072x64_1_01_n_n_01_1_1164_wf
def gather_S28x28x128_S131072x2_S131072x128_1_01_n_n_01_1_11128 : GatherDims S28x28x128 S131072x2 S131072x128 where
  offsetDims := [1]
  collapsedSliceDims := [0, 1]
  operandBatchingDims := []
  startIndicesBatchingDims := []
  startIndexMap := [0, 1]
  indexVectorDim := 1
  sliceSizes := ![1, 1, 128]
  wf := gather_S28x28x128_S131072x2_S131072x128_1_01_n_n_01_1_11128_wf
def gather_S14x14x256_S131072x2_S131072x256_1_01_n_n_01_1_11256 : GatherDims S14x14x256 S131072x2 S131072x256 where
  offsetDims := [1]
  collapsedSliceDims := [0, 1]
  operandBatchingDims := []
  startIndicesBatchingDims := []
  startIndexMap := [0, 1]
  indexVectorDim := 1
  sliceSizes := ![1, 1, 256]
  wf := gather_S14x14x256_S131072x2_S131072x256_1_01_n_n_01_1_11256_wf
def gather_S7x7x512_S131072x2_S131072x512_1_01_n_n_01_1_11512 : GatherDims S7x7x512 S131072x2 S131072x512 where
  offsetDims := [1]
  collapsedSliceDims := [0, 1]
  operandBatchingDims := []
  startIndicesBatchingDims := []
  startIndexMap := [0, 1]
  indexVectorDim := 1
  sliceSizes := ![1, 1, 512]
  wf := gather_S7x7x512_S131072x2_S131072x512_1_01_n_n_01_1_11512_wf

class Facts : Prop extends Facts₀ where

variable [Facts]
-- ==== Proof.OneHot.lean ====
/-
  The weight matrix of a bilinear sample, and why multiplying by it samples.

  For one query point the kernel builds a row of weights over the flattened cells of a map: at position `p` the row holds
  the sum, over the four corners, of the corner's weight where `p` is the corner's flattened cell number and zero elsewhere.
  The row is cut into chunks of 512 positions; each chunk is multiplied with the matching 512 rows of the flattened map
  and the products are added up chunk by chunk from zero. Over real weights and real map entries the result is
  the four corner entries weighted by the four weights: every position other than a corner's contributes a zero product,
  and a corner's position contributes its weight times the entry there (corners that coincide add their weights, which is
  the same by distributivity over the reals — the one place where finiteness is used).
-/
import Idealize.ShloMosaic.PureOps.Ideal
import Idealize.ShloMosaic.PureOps.Ideal.Laws

noncomputable section

namespace Cert.Bilinear

open Idealize.ShloMosaic

/-- One corner's entry of the weight row at position `pos`: its weight at its own cell number, the zero word elsewhere. -/
def hot (pos idx : BitVec 32) (w : EReal) : EReal :=
  Scalar.select (IntOp.cmpi .eq pos idx) w (Ideal.ofBits .f32 0x00000000#32)

/-- The weight row at position `pos`: the four corners' entries, added in this order. -/
def rowEntry (pos i11 i21 i12 i22 : BitVec 32) (w11 w21 w12 w22 : EReal) : EReal :=
  hot pos i11 w11 + hot pos i21 w21 + hot pos i12 w12 + hot pos i22 w22

/-- Chunk `i` of the row times rows `512 i … 512 i + 511` of a flattened map column `G`. -/
def chunkDot (G : Nat → EReal) (i11 i21 i12 i22 : BitVec 32) (w11 w21 w12 w22 : EReal) (i : Nat) : EReal :=
  ∑ k : Fin 512, rowEntry (BitVec.ofNat 32 k.val + BitVec.ofNat 32 (512 * i)) i11 i21 i12 i22 w11 w21 w12 w22 * G (512 * i + k.val)

/-- The chunks' products added up from the zero word, first chunk first. -/
def accum (D : Nat → EReal) : Nat → EReal
  | 0 => Ideal.ofBits .f32 0x00000000#32
  | n + 1 => accum D n + D n

/-- A corner's entry is its weight at its own cell number and zero elsewhere. -/
private theorem hot_eq (pos idx : BitVec 32) (w : EReal) : hot pos idx w = if pos = idx then w else 0 := by
  have h0 : (Ideal.ofBits .f32 0x00000000#32 : EReal) = 0 := Ideal.ofBits_zero_f32
  show (if BitVec.ofBool (pos == idx) = 1 then w else Ideal.ofBits .f32 0x00000000#32) = _
  rw [h0]
  by_cases h : pos = idx
  · have hb : (pos == idx) = true := beq_iff_eq.2 h
    rw [if_pos h, hb, if_pos (by decide)]
  · have hb : (pos == idx) = false := beq_eq_false_iff_ne.2 h
    rw [if_neg h, hb, if_neg (by decide)]

/-- A corner's entry of a real weight is real. -/
private theorem hot_fin (pos idx : BitVec 32) {w : EReal} (hw : w ≠ ⊤ ∧ w ≠ ⊥) :
    hot pos idx w ≠ ⊤ ∧ hot pos idx w ≠ ⊥ := by
  rw [hot_eq]
  by_cases h : pos = idx
  · rw [if_pos h]; exact hw
  · rw [if_neg h]; exact ⟨EReal.zero_ne_top, EReal.zero_ne_bot⟩

/-- Over the reals a sum of four factors distributes over a product. -/
private theorem four_mul {a b c d g : EReal} (ha : a ≠ ⊤ ∧ a ≠ ⊥) (hb : b ≠ ⊤ ∧ b ≠ ⊥) (hc : c ≠ ⊤ ∧ c ≠ ⊥)
    (hd : d ≠ ⊤ ∧ d ≠ ⊥) (hg : g ≠ ⊤ ∧ g ≠ ⊥) :
    (a + b + c + d) * g = a * g + b * g + c * g + d * g := by
  lift a to ℝ using ha
  lift b to ℝ using hb
  lift c to ℝ using hc
  lift d to ℝ using hd
  lift g to ℝ using hg
  exact_mod_cast (by ring : (a + b + c + d) * g = a * g + b * g + c * g + d * g)

/-- Position `k` of chunk `i` is a corner's cell number exactly when `512 i + k` is that number: the position word
    does not wrap, the covered range being at most `2 ^ 31`. -/
private theorem pos_eq_iff (i : Nat) (hi : 512 * (i + 1) ≤ 2 ^ 31) (k : Fin 512) (idx : BitVec 32) :
    BitVec.ofNat 32 k.val + BitVec.ofNat 32 (512 * i) = idx ↔ 512 * i + k.val = idx.toNat := by
  have hk := k.isLt
  rw [← BitVec.toNat_inj, BitVec.toNat_add, BitVec.toNat_ofNat, BitVec.toNat_ofNat]
  omega

/-- One corner against one chunk: the only position with a nonzero product is the corner's own, if the chunk holds it. -/
private theorem corner_chunk (G : Nat → EReal) (i : Nat) (hi : 512 * (i + 1) ≤ 2 ^ 31) (idx : BitVec 32) (w : EReal) :
    ∑ k : Fin 512, hot (BitVec.ofNat 32 k.val + BitVec.ofNat 32 (512 * i)) idx w * G (512 * i + k.val)
      = if 512 * i ≤ idx.toNat ∧ idx.toNat < 512 * (i + 1) then w * G idx.toNat else 0 := by
  have step : ∀ k : Fin 512,
      hot (BitVec.ofNat 32 k.val + BitVec.ofNat 32 (512 * i)) idx w * G (512 * i + k.val)
        = if 512 * i + k.val = idx.toNat then w * G idx.toNat else 0 := by
    intro k
    rw [hot_eq]
    by_cases h : 512 * i + k.val = idx.toNat
    · have hp : BitVec.ofNat 32 k.val + BitVec.ofNat 32 (512 * i) = idx := (pos_eq_iff i hi k idx).2 h
      rw [if_pos hp, if_pos h, h]
    · have hp : ¬ (BitVec.ofNat 32 k.val + BitVec.ofNat 32 (512 * i) = idx) :=
        fun h' => h ((pos_eq_iff i hi k idx).1 h')
      rw [if_neg hp, if_neg h, zero_mul]
  rw [Finset.sum_congr rfl (fun k _ => step k)]
  by_cases h : 512 * i ≤ idx.toNat ∧ idx.toNat < 512 * (i + 1)
  · rw [if_pos h]
    have hlt : idx.toNat - 512 * i < 512 := by omega
    rw [Finset.sum_eq_single (⟨idx.toNat - 512 * i, hlt⟩ : Fin 512)]
    · have e : 512 * i + ((⟨idx.toNat - 512 * i, hlt⟩ : Fin 512) : Nat) = idx.toNat := by
        show 512 * i + (idx.toNat - 512 * i) = idx.toNat
        omega
      rw [if_pos e]
    · intro k _ hk
      have hne : ¬ (512 * i + k.val = idx.toNat) := by
        intro h'
        apply hk
        apply Fin.ext
        show k.val = idx.toNat - 512 * i
        omega
      rw [if_neg hne]
    · intro h'
      exact absurd (Finset.mem_univ _) h'
  · rw [if_neg h]
    apply Finset.sum_eq_zero
    intro k _
    have hk := k.isLt
    have hne : ¬ (512 * i + k.val = idx.toNat) := by omega
    rw [if_neg hne]

/-- One chunk: each corner contributes its weighted entry if the chunk holds its cell, and nothing otherwise. -/
private theorem chunkDot_eq (G : Nat → EReal) (hG : ∀ j, G j ≠ ⊤ ∧ G j ≠ ⊥) (i11 i21 i12 i22 : BitVec 32)
    (w11 w21 w12 w22 : EReal)
    (hw11 : w11 ≠ ⊤ ∧ w11 ≠ ⊥) (hw21 : w21 ≠ ⊤ ∧ w21 ≠ ⊥) (hw12 : w12 ≠ ⊤ ∧ w12 ≠ ⊥) (hw22 : w22 ≠ ⊤ ∧ w22 ≠ ⊥)
    (i : Nat) (hi : 512 * (i + 1) ≤ 2 ^ 31) :
    chunkDot G i11 i21 i12 i22 w11 w21 w12 w22 i
      = (if 512 * i ≤ i11.toNat ∧ i11.toNat < 512 * (i + 1) then w11 * G i11.toNat else 0)
        + (if 512 * i ≤ i21.toNat ∧ i21.toNat < 512 * (i + 1) then w21 * G i21.toNat else 0)
        + (if 512 * i ≤ i12.toNat ∧ i12.toNat < 512 * (i + 1) then w12 * G i12.toNat else 0)
        + (if 512 * i ≤ i22.toNat ∧ i22.toNat < 512 * (i + 1) then w22 * G i22.toNat else 0) := by
  have dist : ∀ k : Fin 512,
      (hot (BitVec.ofNat 32 k.val + BitVec.ofNat 32 (512 * i)) i11 w11
          + hot (BitVec.ofNat 32 k.val + BitVec.ofNat 32 (512 * i)) i21 w21
          + hot (BitVec.ofNat 32 k.val + BitVec.ofNat 32 (512 * i)) i12 w12
          + hot (BitVec.ofNat 32 k.val + BitVec.ofNat 32 (512 * i)) i22 w22) * G (512 * i + k.val)
        = hot (BitVec.ofNat 32 k.val + BitVec.ofNat 32 (512 * i)) i11 w11 * G (512 * i + k.val)
          + hot (BitVec.ofNat 32 k.val + BitVec.ofNat 32 (512 * i)) i21 w21 * G (512 * i + k.val)
          + hot (BitVec.ofNat 32 k.val + BitVec.ofNat 32 (512 * i)) i12 w12 * G (512 * i + k.val)
          + hot (BitVec.ofNat 32 k.val + BitVec.ofNat 32 (512 * i)) i22 w22 * G (512 * i + k.val) :=
    fun k => four_mul (hot_fin _ i11 hw11) (hot_fin _ i21 hw21) (hot_fin _ i12 hw12) (hot_fin _ i22 hw22)
      (hG (512 * i + k.val))
  unfold chunkDot rowEntry
  rw [Finset.sum_congr rfl (fun k _ => dist k)]
  rw [Finset.sum_add_distrib, Finset.sum_add_distrib, Finset.sum_add_distrib]
  rw [corner_chunk G i hi i11 w11, corner_chunk G i hi i21 w21, corner_chunk G i hi i12 w12,
    corner_chunk G i hi i22 w22]

/-- Two stretches of positions that follow each other: a cell below `512 (n + 1)` is below `512 n` or in chunk `n`. -/
private theorem ite_step (t n : Nat) (x : EReal) :
    (if t < 512 * n then x else 0) + (if 512 * n ≤ t ∧ t < 512 * (n + 1) then x else 0)
      = if t < 512 * (n + 1) then x else 0 := by
  by_cases h1 : t < 512 * n
  · have h2 : ¬ (512 * n ≤ t ∧ t < 512 * (n + 1)) := by omega
    have h3 : t < 512 * (n + 1) := by omega
    rw [if_pos h1, if_neg h2, if_pos h3, add_zero]
  · by_cases h3 : t < 512 * (n + 1)
    · have h2 : 512 * n ≤ t ∧ t < 512 * (n + 1) := ⟨by omega, h3⟩
      rw [if_neg h1, if_pos h2, if_pos h3, zero_add]
    · have h2 : ¬ (512 * n ≤ t ∧ t < 512 * (n + 1)) := by omega
      rw [if_neg h1, if_neg h2, if_neg h3, add_zero]

/-- After `n` chunks each corner has contributed its weighted entry if its cell lies in the positions covered so far. -/
private theorem accum_chunkDot_aux (G : Nat → EReal) (hG : ∀ j, G j ≠ ⊤ ∧ G j ≠ ⊥) (i11 i21 i12 i22 : BitVec 32)
    (w11 w21 w12 w22 : EReal)
    (hw11 : w11 ≠ ⊤ ∧ w11 ≠ ⊥) (hw21 : w21 ≠ ⊤ ∧ w21 ≠ ⊥) (hw12 : w12 ≠ ⊤ ∧ w12 ≠ ⊥) (hw22 : w22 ≠ ⊤ ∧ w22 ≠ ⊥) :
    ∀ n : Nat, 512 * n ≤ 2 ^ 31 →
    accum (chunkDot G i11 i21 i12 i22 w11 w21 w12 w22) n
      = (if i11.toNat < 512 * n then w11 * G i11.toNat else 0)
        + (if i21.toNat < 512 * n then w21 * G i21.toNat else 0)
        + (if i12.toNat < 512 * n then w12 * G i12.toNat else 0)
        + (if i22.toNat < 512 * n then w22 * G i22.toNat else 0) := by
  intro n
  induction n with
  | zero =>
    intro _
    show Ideal.ofBits .f32 0x00000000#32 = _
    have z : ∀ t : Nat, ¬ t < 512 * 0 := fun t => by omega
    rw [Ideal.ofBits_zero_f32, if_neg (z _), if_neg (z _), if_neg (z _), if_neg (z _), add_zero, add_zero, add_zero]
  | succ n ih =>
    intro hn
    show accum _ n + chunkDot G i11 i21 i12 i22 w11 w21 w12 w22 n = _
    rw [ih (by omega), chunkDot_eq G hG i11 i21 i12 i22 w11 w21 w12 w22 hw11 hw21 hw12 hw22 n hn,
      ← ite_step i11.toNat n, ← ite_step i21.toNat n, ← ite_step i12.toNat n, ← ite_step i22.toNat n]
    abel

/-- Over real weights and a real column, the accumulated chunk products are the four corner entries weighted by the four
    weights, when every corner's cell number lies inside the `512 n` positions covered. -/
theorem accum_chunkDot (n : Nat) (hn : 512 * n ≤ 2 ^ 31) (G : Nat → EReal) (hG : ∀ j, G j ≠ ⊤ ∧ G j ≠ ⊥)
    (i11 i21 i12 i22 : BitVec 32)
    (h11 : i11.toNat < 512 * n) (h21 : i21.toNat < 512 * n) (h12 : i12.toNat < 512 * n) (h22 : i22.toNat < 512 * n)
    (w11 w21 w12 w22 : EReal)
    (hw11 : w11 ≠ ⊤ ∧ w11 ≠ ⊥) (hw21 : w21 ≠ ⊤ ∧ w21 ≠ ⊥) (hw12 : w12 ≠ ⊤ ∧ w12 ≠ ⊥) (hw22 : w22 ≠ ⊤ ∧ w22 ≠ ⊥) :
    accum (chunkDot G i11 i21 i12 i22 w11 w21 w12 w22) n
      = w11 * G i11.toNat + w21 * G i21.toNat + w12 * G i12.toNat + w22 * G i22.toNat := by
  rw [accum_chunkDot_aux G hG i11 i21 i12 i22 w11 w21 w12 w22 hw11 hw21 hw12 hw22 n hn,
    if_pos h11, if_pos h21, if_pos h12, if_pos h22]

end Cert.Bilinear

end
-- ==== Proof.Layout.lean ====
/-
  Reading the kernel's layout operations at an index.

  The kernel works on 1024 query points at a time. It takes a column of the coordinate block as a vector of 1024 entries,
  turns such vectors back into one-column arrays, spreads a one-column array across the 512 positions of a chunk of the
  weight row, numbers those positions along the row, and reads 512 consecutive rows of a flattened map. Each of these
  only moves entries; read at an index, each names the entry it moves.
-/
import Idealize.ShloMosaic.PureOps.Ideal
import Idealize.ShloMosaic.PureOps.Ideal.Laws
import Idealize.ShloMosaic.Lib.ValueIdx
import Idealize.ShloMosaic.Lib.Pipeline.Value

noncomputable section

namespace Cert.Bilinear

open Idealize.ShloMosaic Idealize.ShloMosaic.ValueIdx

variable {α : Type}

/-- Column `k` of an `n × 3` array, taken as an `n × 1` slice: row `r` of the slice is entry `(r, k)`. -/
theorem slice_col {n : Nat} (k : Fin 3) (off : Fin 2 → Nat) (hoff : off = ![0, k.val])
    (v : (⟨2, ![n, 3]⟩ : Shape).Idx → α) (h : (⟨2, ![n, 3]⟩ : Shape).Slices off ⟨2, ![n, 1]⟩) (r : Fin n) :
    extractStridedSlice ⟨2, ![n, 1]⟩ off v h (ix2 r (0 : Fin 1)) = v (ix2 r k) := by
  subst hoff
  refine extractStridedSlice_apply _ v h _ _ (fun a => ?_)
  match a with
  | ⟨0, _⟩ => simp
  | ⟨1, _⟩ => simp

/-- A one-column array as a vector: entry `r` is row `r`. -/
theorem cast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r (0 : Fin 1)) := by
  refine shapeCast_apply v h _ _ ?_
  rw [Shape.rowMajor_val_two, Shape.rowMajor_val_one]
  simp
  rfl

/-- A vector as a one-column array: row `r` is entry `r`. -/
theorem cast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r (0 : Fin 1)) = v (ix1 r) := by
  refine shapeCast_apply v h _ _ ?_
  rw [Shape.rowMajor_val_two, Shape.rowMajor_val_one]
  simp
  rfl

/-- A one-column array spread across `K` positions: every position of row `r` holds row `r`'s entry. -/
theorem spread_col {n K : Nat} (hK : K ≠ 1) (v : (⟨2, ![n, 1]⟩ : Shape).Idx → α)
    (h : (⟨2, ![n, 1]⟩ : Shape).Broadcasts ⟨2, ![n, K]⟩) (r : Fin n) (k : Fin K) :
    broadcastTo ⟨2, ![n, K]⟩ v h (ix2 r k) = v (ix2 r (0 : Fin 1)) := by
  refine broadcastTo_apply v h _ _ (fun a => ?_)
  match a with
  | ⟨0, _⟩ =>
    by_cases h1 : n = 1
    · have hr := r.isLt
      simp [h1]
      show r.val = 0
      omega
    · simp [h1]
  | ⟨1, _⟩ => simp

/-- The positions of a row numbered along the row: position `k` holds the word `k`. -/
theorem iota_row {n K : Nat} (h : (⟨2, ![n, K]⟩ : Shape).Iotas .tc 32 [1]) (r : Fin n) (k : Fin K) :
    iota .tc ⟨2, ![n, K]⟩ 32 [1] h (ix2 r k) = BitVec.ofNat 32 k.val := by
  simp [iota]
  rfl

/-- A matrix product into a zero accumulator, at a row and a column: the sum over the contracted positions of the
    products of the row's entry and the column's entry. -/
theorem matmul_zero_at {M K N : Nat} {φ₁ φ₂ : FTy}
    (d : DotDims (⟨2, ![M, K]⟩ : Shape) ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply]
  have hr : d.contr.rank = 1 := by rw [d.rank_contr, hlc]; rfl
  have hs : d.contr.size ⟨0, by omega⟩ = K := by
    have h0 := d.size_contr 0 (by rw [hlc]; exact Nat.one_pos)
    simp [hlc] at h0
    exact h0
  rw [← Equiv.sum_comp (contrEquiv1 d K hr hs).symm]
  refine Finset.sum_congr rfl fun k _ => ?_
  have hl : d.lhsIdx (ix2 r c) ((contrEquiv1 d K hr hs).symm k) = ix2 r k := by
    funext a; apply Fin.ext
    match a with
    | ⟨0, _⟩ =>
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![M, N]⟩ : Shape).rank), p = 0 → ((ix2 r c) ⟨p, hp⟩).val = r.val :=
        fun p hp h => by subst h; rfl
      exact key _ _ (by simp [hlb, hln])
    | ⟨1, _⟩ => exact (d.lhsIdx_val_of_single hlc _ _).trans (contrEquiv1_symm_val d K hr hs k)
  have hrr : d.rhsIdx (ix2 r c) ((contrEquiv1 d K hr hs).symm k) = ix2 k c := by
    funext a; apply Fin.ext
    match a with
    | ⟨0, _⟩ => exact (d.rhsIdx_val_of_single hrc _ _).trans (contrEquiv1_symm_val d K hr hs k)
    | ⟨1, _⟩ =>
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![M, N]⟩ : Shape).rank), p = 1 → ((ix2 r c) ⟨p, hp⟩).val = c.val :=
        fun p hp h => by subst h; rfl
      exact key _ _ (by simp [hlb, hln, hrn])
  rw [hl, hrr]

end Cert.Bilinear

end
-- ==== Proof.Spec.lean ====
/-
  One entry of the result, as a function of the five input arrays.

  A query point (X, Y, Z) is projected to pixel coordinates
      h = clip (250 · (−Y) / (−Z) + 112, 0, 223),   w = clip (250 · X / (−Z) + 112, 0, 223),
  and on a feature map of H × H cells with C channels and cell size s (4, 8, 16, 32 for H = 56, 28, 14, 7) the point
  is sampled bilinearly at (x, y) = (h / s, w / s): with x₁ = ⌊x⌋, x₂ = ⌈x⌉, y₁ = ⌊y⌋, y₂ = ⌈y⌉ and each of them
  turned into a cell index clamped to [0, H − 1],
      (x₂ − x)(y₂ − y) · f[x₁, y₁] + (x − x₁)(y₂ − y) · f[x₂, y₁] + (x₂ − x)(y − y₁) · f[x₁, y₂] + (x − x₁)(y − y₁) · f[x₂, y₂].
  Row n of the result is the point's three coordinates followed by the 64, 128, 256 and 512 channel samples of the four maps.
  Because h and w are clipped, x, y and the four weights are real numbers whatever the coordinates are; the samples are
  finite as soon as the maps' entries are.
-/
import Idealize.ShloMosaic.PureOps.Ideal
import Idealize.ShloMosaic.PureOps.Ideal.Laws
import Idealize.ShloMosaic.Lib.ValueIdx

noncomputable section

namespace Cert.Bilinear

open Idealize.ShloMosaic Idealize.ShloMosaic.ValueIdx

/-- A 32-bit float word read as the extended real it denotes. -/
abbrev lit (b : BitVec 32) : EReal := Ideal.ofBits .f32 b

/-- A pixel coordinate: `250 · u / (−z) + 112` clipped to `[0, 223]`. -/
def pix (u z : EReal) : EReal :=
  min (lit 0x435F0000#32) (max (lit 0x00000000#32) (Ideal.div (lit 0x437A0000#32 * u) (-z) + lit 0x42E00000#32))

/-- A pixel coordinate in units of a map's cells: divided by the cell size (a float word). -/
def grid (p : EReal) (s : BitVec 32) : EReal := Ideal.div p (lit s)

/-- The cell below and the cell above a grid coordinate, still as floats. -/
def below (q : EReal) : EReal := Ideal.liftRound Int.floor q
def above (q : EReal) : EReal := Ideal.liftRound Int.ceil q

/-- A float cell number as an integer word clamped to `[0, last]`. -/
def cell (last : BitVec 32) (v : EReal) : BitVec 32 := IntOp.minsi last (IntOp.maxsi 0#32 (Ideal.fptosi 32 v))

/-- The bilinear sample at grid coordinates `(x, y)` of a map read through `f` at a pair of cell words. -/
def sample (last : BitVec 32) (x y : EReal) (f : BitVec 32 → BitVec 32 → EReal) : EReal :=
  (above x - x) * (above y - y) * f (cell last (below x)) (cell last (below y))
    + (x - below x) * (above y - y) * f (cell last (above x)) (cell last (below y))
    + (above x - x) * (y - below y) * f (cell last (below x)) (cell last (above y))
    + (x - below x) * (y - below y) * f (cell last (above x)) (cell last (above y))

/-- Channel `c` of an `H × H × C` map at a pair of cell words, each read signed and kept inside the map. -/
def entry {H C : Nat} (hH : 0 < H) (feat : (⟨3, ![H, H, C]⟩ : Shape).Idx → EReal) (c : Fin C) (a b : BitVec 32) : EReal :=
  feat (ix3 ⟨min a.toInt.toNat (H - 1), by omega⟩ ⟨min b.toInt.toNat (H - 1), by omega⟩ c)

/-- The sample of channel `c` of a map for the point `(X, Y, Z)`. -/
def level {H C : Nat} (hH : 0 < H) (last s : BitVec 32) (feat : (⟨3, ![H, H, C]⟩ : Shape).Idx → EReal)
    (X Y Z : EReal) (c : Fin C) : EReal :=
  sample last (grid (pix (-Y) Z) s) (grid (pix X Z) s) (entry hH feat c)

/-- Entry `(n, col)` of the result. -/
def result (coord : (⟨2, ![131072, 3]⟩ : Shape).Idx → EReal)
    (f56 : (⟨3, ![56, 56, 64]⟩ : Shape).Idx → EReal) (f28 : (⟨3, ![28, 28, 128]⟩ : Shape).Idx → EReal)
    (f14 : (⟨3, ![14, 14, 256]⟩ : Shape).Idx → EReal) (f7 : (⟨3, ![7, 7, 512]⟩ : Shape).Idx → EReal)
    (j : (⟨2, ![131072, 963]⟩ : Shape).Idx) : EReal :=
  let X := coord (ix2 (j 0) (0 : Fin 3))
  let Y := coord (ix2 (j 0) (1 : Fin 3))
  let Z := coord (ix2 (j 0) (2 : Fin 3))
  if h0 : (j 1).val < 3 then coord (ix2 (j 0) ⟨(j 1).val, h0⟩)
  else if h1 : (j 1).val < 67 then level (by omega) 55#32 0x40800000#32 f56 X Y Z ⟨(j 1).val - 3, by omega⟩
  else if h2 : (j 1).val < 195 then level (by omega) 27#32 0x41000000#32 f28 X Y Z ⟨(j 1).val - 67, by omega⟩
  else if h3 : (j 1).val < 451 then level (by omega) 13#32 0x41800000#32 f14 X Y Z ⟨(j 1).val - 195, by omega⟩
  else level (by omega) 6#32 0x42000000#32 f7 X Y Z ⟨(j 1).val - 451, by have h963 : (j 1).val < 963 := (j 1).isLt; omega⟩

end Cert.Bilinear

end
-- ==== Proof.KernelMirror.lean ====
/-
  The kernel's computation for a block of 1024 points, written once for all four maps.

  For a block of coordinates the kernel forms the two pixel coordinate vectors; then, per map (cell size s, last cell
  number, H columns, C channels), the grid coordinates x = h / s and y = w / s, their floors and ceilings, the four clamped
  cell words, the four flattened cell numbers  row · H + column  and the four weights, each as a one-column array; then,
  chunk by chunk of 512 positions, the chunk of the weight row (position p holds, for each corner, the corner's weight
  where p is the corner's flattened cell number and zero elsewhere, the four added up) times the chunk's 512 rows of the
  flattened map, accumulated from zero. What follows is that computation as vector expressions — the same operations in
  the same order as the kernel's body — and, further down, what it gives at one point and one channel.
-/
import proofs.«122278_j57483842289710_1_alg».proof.Proof.Gen.KernelIdeal
import proofs.«122278_j57483842289710_1_alg».proof.Proof.OneHot
import proofs.«122278_j57483842289710_1_alg».proof.Proof.Layout
import proofs.«122278_j57483842289710_1_alg».proof.Proof.Spec

noncomputable section

namespace Cert.Bilinear

open Idealize.ShloMosaic Idealize.ShloMosaic.TcCoe Idealize.ShloMosaic.ValueIdx
open Cert.KernelIdeal Cert.KernelIdeal.Gen

section Mirror

variable {F : FTy → Type} [FloatOps F]

/-- Column `k` of the coordinate block as a vector. -/
def colVec (k : Fin 3) (off : Fin 2 → Nat) (h : S1024x3.Slices off S1024x1) (v0 : Vec F S1024x3 .f32) : FVec F S1024 .f32 :=
  shapeCast S1024 (extractStridedSlice S1024x1 off v0 h) shapeCasts_S1024x1_S1024

/-- A splat of a float word over the 1024 points. -/
abbrev splat (b : BitVec 32) : FVec F S1024 .f32 := broadcast S1024 (Scalar.ofBits .f32 b)

/-- The pixel coordinate from a numerator vector `u` and the depth column: `250 · u / (0 − Z) + 112` clipped to `[0, 223]`. -/
def pixVec (u z : FVec F S1024 .f32) : FVec F S1024 .f32 :=
  minimumf (splat 0x435F0000#32)
    (maximumf (splat 0x00000000#32)
      (addf (divf (mulf (splat 0x437A0000#32) u) (subf (splat 0x00000000#32) z)) (splat 0x42E00000#32)))

/-- The row pixel coordinate `h` (from `0 − Y`) -/
def hVec (v0 : Vec F S1024x3 .f32) : FVec F S1024 .f32 :=
  pixVec (subf (splat 0x00000000#32) (colVec 1 ![0, 1] slices_S1024x3_o0_1_S1024x1 v0)) (colVec 2 ![0, 2] slices_S1024x3_o0_2_S1024x1 v0)

/-- and the column pixel coordinate `w` (from `X`). -/
def wVec (v0 : Vec F S1024x3 .f32) : FVec F S1024 .f32 :=
  pixVec (colVec 0 ![0, 0] slices_S1024x3_o0_0_S1024x1 v0) (colVec 2 ![0, 2] slices_S1024x3_o0_2_S1024x1 v0)

/-- A pixel coordinate in units of a map's cells. -/
def gridVec (s : BitVec 32) (p : FVec F S1024 .f32) : FVec F S1024 .f32 := divf p (splat s)

/-- A rounded grid coordinate as a cell word clamped to `[0, last]`. -/
def cellVec (last : BitVec 32) (q : FVec F S1024 .f32) : IVec S1024 32 :=
  minsi (broadcast S1024 last) (maxsi (broadcast S1024 0#32) (fptosi 32 q))

/-- The flattened cell number of a row cell word and a column cell word, as a one-column array. -/
def flatVec (Hw : BitVec 32) (a b : IVec S1024 32) : IVec S1024x1 32 :=
  shapeCast S1024x1 (addi (muli a (broadcast S1024 Hw)) b) shapeCasts_S1024_S1024x1

/-- A weight: the product of two differences, as a one-column array. -/
def wgtVec (a b : FVec F S1024 .f32) : FVec F S1024x1 .f32 :=
  shapeCast S1024x1 (mulf a b) shapeCasts_S1024_S1024x1

/-- One corner's part of a chunk of the weight row: its weight where the position (counted from `lo`) is its
    flattened cell number, the zero word elsewhere. -/
def cornerVec (lo : BitVec 32) (idx : IVec S1024x1 32) (w : FVec F S1024x1 .f32) : FVec F S1024x512 .f32 :=
  select
    (cmpi .eq (addi (iota .tc S1024x512 32 [1] iota_S1024x512_d1_w32) (broadcast S1024x512 lo))
      (broadcastTo S1024x512 idx broadcasts_S1024x1_S1024x512))
    (broadcastTo S1024x512 (shapeCast S1024x1 w shapeCasts_S1024x1_S1024x1) broadcasts_S1024x1_S1024x512)
    (broadcast S1024x512 (Scalar.ofBits .f32 0x00000000#32))

/-- A chunk of the weight row: the four corners' parts added in the kernel's order. -/
def rowVec (lo : BitVec 32) (i11 i21 i12 i22 : IVec S1024x1 32) (w11 w21 w12 w22 : FVec F S1024x1 .f32) :
    FVec F S1024x512 .f32 :=
  addf (addf (addf (cornerVec lo i11 w11) (cornerVec lo i21 w21)) (cornerVec lo i12 w12)) (cornerVec lo i22 w22)

/-- A chunk of the weight row times the chunk's 512 rows of the flattened map. -/
def chunkVec {C : Nat} (d : DotDims S1024x512 (⟨2, ![512, C]⟩ : Shape) (⟨2, ![1024, C]⟩ : Shape))
    (hc : (⟨2, ![512, C]⟩ : Shape).ShapeCasts ⟨2, ![512, C]⟩)
    (lo : BitVec 32) (i11 i21 i12 i22 : IVec S1024x1 32) (w11 w21 w12 w22 : FVec F S1024x1 .f32)
    (fc : Vec F (⟨2, ![512, C]⟩ : Shape) .f32) : FVec F (⟨2, ![1024, C]⟩ : Shape) .f32 :=
  matmul d none
    (truncf .bf16 (rowVec lo i11 i21 i12 i22 w11 w21 w12 w22) bitsLt_bf16_f32)
    (truncf .bf16 (shapeCast (⟨2, ![512, C]⟩ : Shape) fc hc) bitsLt_bf16_f32)
    (constant (⟨2, ![1024, C]⟩ : Shape) .f32 0x00000000#32)

/-- The chunks' products accumulated from zero, first chunk first: `n` chunks, chunk `i` counted from position `512 i`
    and multiplied with the rows `fc i`. -/
def accVec {C : Nat} (d : DotDims S1024x512 (⟨2, ![512, C]⟩ : Shape) (⟨2, ![1024, C]⟩ : Shape))
    (hc : (⟨2, ![512, C]⟩ : Shape).ShapeCasts ⟨2, ![512, C]⟩)
    (i11 i21 i12 i22 : IVec S1024x1 32) (w11 w21 w12 w22 : FVec F S1024x1 .f32)
    (fc : Nat → Vec F (⟨2, ![512, C]⟩ : Shape) .f32) : Nat → FVec F (⟨2, ![1024, C]⟩ : Shape) .f32
  | 0 => broadcast (⟨2, ![1024, C]⟩ : Shape) (Scalar.ofBits .f32 0x00000000#32)
  | n + 1 => addf (accVec d hc i11 i21 i12 i22 w11 w21 w12 w22 fc n)
      (chunkVec d hc (BitVec.ofNat 32 (512 * n)) i11 i21 i12 i22 w11 w21 w12 w22 (fc n))

/-- A map's samples for the block: from the coordinate block and the map's chunks. -/
def levelVec {C : Nat} (d : DotDims S1024x512 (⟨2, ![512, C]⟩ : Shape) (⟨2, ![1024, C]⟩ : Shape))
    (hc : (⟨2, ![512, C]⟩ : Shape).ShapeCasts ⟨2, ![512, C]⟩)
    (s last Hw : BitVec 32) (v0 : Vec F S1024x3 .f32) (fc : Nat → Vec F (⟨2, ![512, C]⟩ : Shape) .f32) (n : Nat) :
    FVec F (⟨2, ![1024, C]⟩ : Shape) .f32 :=
  let x := gridVec s (hVec v0)
  let y := gridVec s (wVec v0)
  let a1 := cellVec last (floor x)
  let a2 := cellVec last (ceil x)
  let b1 := cellVec last (floor y)
  let b2 := cellVec last (ceil y)
  accVec d hc (flatVec Hw a1 b1) (flatVec Hw a2 b1) (flatVec Hw a1 b2) (flatVec Hw a2 b2)
    (wgtVec (subf (ceil x) x) (subf (ceil y) y)) (wgtVec (subf x (floor x)) (subf (ceil y) y))
    (wgtVec (subf (ceil x) x) (subf y (floor y))) (wgtVec (subf x (floor x)) (subf y (floor y)))
    fc n

end Mirror

/-! ## At one point and one channel, over the extended reals -/

section AtIndex

/-- The zero word minus a value is its negation. -/
theorem lit_zero_sub (t : EReal) : Ideal.ofBits .f32 0x00000000#32 - t = -t := by
  rw [Ideal.ofBits_zero_f32, zero_sub]

/-- A column of the coordinate block, at a point. -/
theorem colVec_apply (k : Fin 3) (off : Fin 2 → Nat) (hoff : off = ![0, k.val]) (h : S1024x3.Slices off S1024x1)
    (v0 : Vec Ideal S1024x3 .f32) (r : Fin 1024) :
    colVec k off h v0 (ix1 r) = v0 (ix2 r k) := by
  unfold colVec
  rw [cast_col_vec, slice_col k off hoff]

/-- A pixel coordinate vector, at a point. -/
theorem pixVec_apply (u z : FVec Ideal S1024 .f32) (r : Fin 1024) :
    pixVec u z (ix1 r) = pix (u (ix1 r)) (z (ix1 r)) := by
  show min (Ideal.ofBits .f32 0x435F0000#32) (max (Ideal.ofBits .f32 0x00000000#32)
      (Ideal.div (Ideal.ofBits .f32 0x437A0000#32 * u (ix1 r)) (Ideal.ofBits .f32 0x00000000#32 - z (ix1 r))
        + Ideal.ofBits .f32 0x42E00000#32)) = _
  rw [lit_zero_sub]
  rfl

/-- The row pixel coordinate of point `r`. -/
theorem hVec_apply (v0 : Vec Ideal S1024x3 .f32) (r : Fin 1024) :
    hVec v0 (ix1 r) = pix (-(v0 (ix2 r (1 : Fin 3)))) (v0 (ix2 r (2 : Fin 3))) := by
  unfold hVec
  rw [pixVec_apply, colVec_apply 2 ![0, 2] rfl]
  show pix (Ideal.ofBits .f32 0x00000000#32 - colVec 1 ![0, 1] slices_S1024x3_o0_1_S1024x1 v0 (ix1 r)) _ = _
  rw [lit_zero_sub, colVec_apply 1 ![0, 1] rfl]

/-- The column pixel coordinate of point `r`. -/
theorem wVec_apply (v0 : Vec Ideal S1024x3 .f32) (r : Fin 1024) :
    wVec v0 (ix1 r) = pix (v0 (ix2 r (0 : Fin 3))) (v0 (ix2 r (2 : Fin 3))) := by
  unfold wVec
  rw [pixVec_apply, colVec_apply 2 ![0, 2] rfl, colVec_apply 0 ![0, 0] rfl]

/-- A flattened cell number, at a point. -/
theorem flatVec_apply (H : Nat) (a b : IVec S1024 32) (r : Fin 1024) :
    flatVec (BitVec.ofNat 32 H) a b (ix2 r (0 : Fin 1)) = IntOp.addi (IntOp.muli (a (ix1 r)) (BitVec.ofNat 32 H)) (b (ix1 r)) := by
  unfold flatVec
  rw [cast_vec_col]
  rfl

/-- A weight, at a point. -/
theorem wgtVec_apply (a b : FVec Ideal S1024 .f32) (r : Fin 1024) :
    wgtVec a b (ix2 r (0 : Fin 1)) = a (ix1 r) * b (ix1 r) := by
  unfold wgtVec
  rw [cast_vec_col]
  rfl

/-- One corner's part of a chunk of the weight row, at a point and a position. -/
theorem cornerVec_apply (lo : BitVec 32) (idx : IVec S1024x1 32) (w : FVec Ideal S1024x1 .f32) (r : Fin 1024) (k : Fin 512) :
    cornerVec lo idx w (ix2 r k) = hot (BitVec.ofNat 32 k.val + lo) (idx (ix2 r (0 : Fin 1))) (w (ix2 r (0 : Fin 1))) := by
  unfold cornerVec hot
  show Scalar.select (IntOp.cmpi .eq (IntOp.addi (iota .tc S1024x512 32 [1] iota_S1024x512_d1_w32 (ix2 r k)) lo)
      (broadcastTo S1024x512 idx broadcasts_S1024x1_S1024x512 (ix2 r k)))
    (broadcastTo S1024x512 (shapeCast S1024x1 w shapeCasts_S1024x1_S1024x1) broadcasts_S1024x1_S1024x512 (ix2 r k))
    (Ideal.ofBits .f32 0x00000000#32) = _
  rw [iota_row, spread_col (by decide), spread_col (by decide), shapeCast_self]
  rfl

/-- A chunk of the weight row, at a point and a position. -/
theorem rowVec_apply (lo : BitVec 32) (i11 i21 i12 i22 : IVec S1024x1 32) (w11 w21 w12 w22 : FVec Ideal S1024x1 .f32)
    (r : Fin 1024) (k : Fin 512) :
    rowVec lo i11 i21 i12 i22 w11 w21 w12 w22 (ix2 r k)
      = rowEntry (BitVec.ofNat 32 k.val + lo) (i11 (ix2 r (0 : Fin 1))) (i21 (ix2 r (0 : Fin 1))) (i12 (ix2 r (0 : Fin 1)))
          (i22 (ix2 r (0 : Fin 1))) (w11 (ix2 r (0 : Fin 1))) (w21 (ix2 r (0 : Fin 1))) (w12 (ix2 r (0 : Fin 1)))
          (w22 (ix2 r (0 : Fin 1))) := by
  unfold rowVec rowEntry
  show cornerVec lo i11 w11 (ix2 r k) + cornerVec lo i21 w21 (ix2 r k) + cornerVec lo i12 w12 (ix2 r k)
      + cornerVec lo i22 w22 (ix2 r k) = _
  rw [cornerVec_apply, cornerVec_apply, cornerVec_apply, cornerVec_apply]

end AtIndex

section AtIndex2

variable {C : Nat} (d : DotDims S1024x512 (⟨2, ![512, C]⟩ : Shape) (⟨2, ![1024, C]⟩ : Shape))
  (hlc : d.lhsContracting = [1]) (hrc : d.rhsContracting = [0]) (hln : d.lhsNonContracting = [0])
  (hrn : d.rhsNonContracting = [1]) (hlb : d.lhsBatch = []) (hrb : d.rhsBatch = [])
  (hc : (⟨2, ![512, C]⟩ : Shape).ShapeCasts ⟨2, ![512, C]⟩)

include hlc hrc hln hrn hlb hrb in
/-- A chunk's product, at a point and a channel: the chunk of the weight row against the channel's column. -/
theorem chunkVec_apply (lo : BitVec 32) (i11 i21 i12 i22 : IVec S1024x1 32) (w11 w21 w12 w22 : FVec Ideal S1024x1 .f32)
    (fc : Vec Ideal (⟨2, ![512, C]⟩ : Shape) .f32) (r : Fin 1024) (cc : Fin C) :
    chunkVec d hc lo i11 i21 i12 i22 w11 w21 w12 w22 fc (ix2 r cc)
      = ∑ k : Fin 512, rowEntry (BitVec.ofNat 32 k.val + lo) (i11 (ix2 r (0 : Fin 1))) (i21 (ix2 r (0 : Fin 1)))
          (i12 (ix2 r (0 : Fin 1))) (i22 (ix2 r (0 : Fin 1))) (w11 (ix2 r (0 : Fin 1))) (w21 (ix2 r (0 : Fin 1)))
          (w12 (ix2 r (0 : Fin 1))) (w22 (ix2 r (0 : Fin 1))) * fc (ix2 k cc) := by
  unfold chunkVec
  refine (matmul_zero_at d hlc hrc hln hrn hlb hrb none _ _ r cc).trans ?_
  refine Finset.sum_congr rfl fun k _ => ?_
  show rowVec lo i11 i21 i12 i22 w11 w21 w12 w22 (ix2 r k) * shapeCast (⟨2, ![512, C]⟩ : Shape) fc hc (ix2 k cc) = _
  rw [rowVec_apply, shapeCast_self]

include hlc hrc hln hrn hlb hrb in
/-- The accumulated chunk products, at a point and a channel, are the accumulated products of the chunks of the weight
    row with the channel's column `G` of the flattened map (`G (512 i + k)` is row `k` of chunk `i`). -/
theorem accVec_apply (i11 i21 i12 i22 : IVec S1024x1 32) (w11 w21 w12 w22 : FVec Ideal S1024x1 .f32)
    (fc : Nat → Vec Ideal (⟨2, ![512, C]⟩ : Shape) .f32) (r : Fin 1024) (cc : Fin C) (G : Nat → EReal) :
    ∀ n : Nat, (∀ i, i < n → ∀ k : Fin 512, fc i (ix2 k cc) = G (512 * i + k.val)) →
      accVec d hc i11 i21 i12 i22 w11 w21 w12 w22 fc n (ix2 r cc)
        = accum (chunkDot G (i11 (ix2 r (0 : Fin 1))) (i21 (ix2 r (0 : Fin 1))) (i12 (ix2 r (0 : Fin 1)))
            (i22 (ix2 r (0 : Fin 1))) (w11 (ix2 r (0 : Fin 1))) (w21 (ix2 r (0 : Fin 1))) (w12 (ix2 r (0 : Fin 1)))
            (w22 (ix2 r (0 : Fin 1)))) n
  | 0, _ => rfl
  | n + 1, hG => by
    show accVec d hc i11 i21 i12 i22 w11 w21 w12 w22 fc n (ix2 r cc)
        + chunkVec d hc (BitVec.ofNat 32 (512 * n)) i11 i21 i12 i22 w11 w21 w12 w22 (fc n) (ix2 r cc) = _
    rw [accVec_apply i11 i21 i12 i22 w11 w21 w12 w22 fc r cc G n (fun i hi => hG i (Nat.lt_succ_of_lt hi)),
      chunkVec_apply d hlc hrc hln hrn hlb hrb hc]
    show _ = accum _ n + chunkDot G _ _ _ _ _ _ _ _ n
    congr 1
    unfold chunkDot
    exact Finset.sum_congr rfl fun k _ => by rw [hG n (Nat.lt_succ_self n) k]

end AtIndex2

end Cert.Bilinear

end
-- ==== Proof.LibERealStats.lean ====
/-
  Algebra on the extended reals for column statistics.

  (1) Finiteness of an extended real (being a real number) and its closure under the operations a
      mean / variance normalisation uses: sums over a finite set, products, differences, negation,
      the quotient by a nonzero real constant, the reciprocal square root of a positive value, a
      choice between two finite values, and the f32 words of the constants 0, 1, 100000 and 1e-5.
  (2) The host operations that move data: a gather of an array reads entries of that array (the start
      index is clamped into range, so an out-of-range index still reads an entry), and a scatter-add
      gives at each entry the operand's entry plus a finite sum of update entries (an update landing
      outside the operand is dropped). Both keep an array of finite values finite.
  (3) The law  E[(h - μ)²] = E[h²] - μ²  with μ = E[h], first in ℝ and then in the extended reals for
      finite data, in the two shapes a one-pass computation (sum and sum of squares) and a two-pass
      computation (mean, then centred squares) take; the common value is a nonnegative real, so that
      adding a positive real to it and taking the reciprocal square root gives a positive real.
-/
import Idealize.ShloMosaic.PureOps.Ideal
import Idealize.ShloMosaic.PureOps.Ideal.Laws
import Mathlib.Data.EReal.Basic
import Mathlib.Data.EReal.Operations
import Mathlib.Data.EReal.Inv
import Mathlib.Analysis.Real.Sqrt
import Mathlib.Algebra.BigOperators.Ring.Finset
import Mathlib.Algebra.Order.BigOperators.Group.Finset
import Mathlib.Tactic.Ring
import Mathlib.Tactic.FieldSimp
import Mathlib.Tactic.Positivity
import Mathlib.Tactic.NormNum

noncomputable section

namespace Cert.LibERealStats

open Idealize.ShloMosaic
open scoped BigOperators

/-! ### Finite extended reals -/

/-- An extended real is finite when it is a real number. -/
def IsFin (x : EReal) : Prop := ∃ a : ℝ, x = (a : EReal)

theorem isFin_coe (a : ℝ) : IsFin (a : EReal) := ⟨a, rfl⟩

/-- Finite means neither infinity. -/
theorem isFin_iff {x : EReal} : IsFin x ↔ x ≠ ⊤ ∧ x ≠ ⊥ := by
  constructor
  · rintro ⟨a, rfl⟩; exact ⟨EReal.coe_ne_top a, EReal.coe_ne_bot a⟩
  · rintro ⟨ht, hb⟩; exact ⟨x.toReal, (EReal.coe_toReal ht hb).symm⟩

theorem IsFin.ne_top {x : EReal} (h : IsFin x) : x ≠ ⊤ := (isFin_iff.1 h).1
theorem IsFin.ne_bot {x : EReal} (h : IsFin x) : x ≠ ⊥ := (isFin_iff.1 h).2
theorem isFin_of_ne {x : EReal} (ht : x ≠ ⊤) (hb : x ≠ ⊥) : IsFin x := isFin_iff.2 ⟨ht, hb⟩

/-- A finite extended real is the image of its real part. -/
theorem IsFin.coe_toReal {x : EReal} (h : IsFin x) : ((x.toReal : ℝ) : EReal) = x :=
  EReal.coe_toReal h.ne_top h.ne_bot

theorem isFin_zero : IsFin 0 := ⟨0, rfl⟩
theorem isFin_one : IsFin 1 := ⟨1, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.neg {x : EReal} (hx : IsFin x) : IsFin (-x) := by
  obtain ⟨a, rfl⟩ := hx; exact ⟨-a, (EReal.coe_neg a).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

/-- The image of a finite sum of reals is the sum of the images. -/
theorem coe_sum {ι : Type*} (S : Finset ι) (f : ι → ℝ) :
    ((∑ i ∈ S, f i : ℝ) : EReal) = ∑ i ∈ S, (f i : EReal) := by
  classical
  refine Finset.induction_on S ?_ ?_
  · simp
  · intro a T ha ih
    rw [Finset.sum_insert ha, Finset.sum_insert ha, EReal.coe_add, ih]

/-- A finite sum of finite values is the image of the sum of their real parts. -/
theorem sum_eq_coe {ι : Type*} (S : Finset ι) (f : ι → EReal) (h : ∀ i ∈ S, IsFin (f i)) :
    ∑ i ∈ S, f i = ((∑ i ∈ S, (f i).toReal : ℝ) : EReal) := by
  rw [coe_sum]; exact Finset.sum_congr rfl fun i hi => ((h i hi).coe_toReal).symm

/-- A finite sum of finite values is finite. -/
theorem IsFin.sum {ι : Type*} (S : Finset ι) (f : ι → EReal) (h : ∀ i ∈ S, IsFin (f i)) :
    IsFin (∑ i ∈ S, f i) := ⟨_, sum_eq_coe S f h⟩

/-- The quotient of a real by a nonzero real, at the extended reals' division. -/
theorem div_coe_coe (a : ℝ) {y : ℝ} (hy : y ≠ 0) : Ideal.div (a : EReal) (y : EReal) = ((a / y : ℝ) : EReal) := by
  rw [Ideal.div_coe hy, ← EReal.coe_mul, mul_one_div]

/-- The quotient of a finite value by a nonzero real constant is finite. -/
theorem IsFin.div_coe {x : EReal} (hx : IsFin x) {y : ℝ} (hy : y ≠ 0) : IsFin (Ideal.div x (y : EReal)) := by
  obtain ⟨a, rfl⟩ := hx; exact ⟨a / y, div_coe_coe a hy⟩

/-- The reciprocal square root of a positive real. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- The reciprocal square root of a finite positive value is finite and positive. -/
theorem IsFin.rsqrt {x : EReal} (hx : IsFin x) (hpos : 0 < x) : IsFin (Ideal.rsqrt x) ∧ 0 < Ideal.rsqrt x := by
  obtain ⟨a, rfl⟩ := hx
  have ha : 0 < a := EReal.coe_pos.1 hpos
  rw [rsqrt_coe_pos ha]
  exact ⟨isFin_coe _, EReal.coe_pos.2 (inv_pos.2 (Real.sqrt_pos.2 ha))⟩

/-- A finite nonnegative value plus a finite positive one is finite and positive. -/
theorem IsFin.add_pos {x e : EReal} (hx : IsFin x) (hx0 : 0 ≤ x) (he : IsFin e) (he0 : 0 < e) :
    IsFin (x + e) ∧ 0 < x + e := by
  obtain ⟨a, rfl⟩ := hx; obtain ⟨b, rfl⟩ := he
  have ha : 0 ≤ a := EReal.coe_nonneg.1 hx0
  have hb : 0 < b := EReal.coe_pos.1 he0
  rw [← EReal.coe_add]
  exact ⟨isFin_coe _, EReal.coe_pos.2 (by positivity)⟩

/-- A choice between two finite values is finite. -/
theorem IsFin.ite {c : Prop} [Decidable c] {x y : EReal} (hx : IsFin x) (hy : IsFin y) :
    IsFin (if c then x else y) := by
  split <;> assumption

/-- A select between two finite values is finite, whatever the condition bit. -/
theorem IsFin.select (c : BitVec 1) {x y : EReal} (hx : IsFin x) (hy : IsFin y) :
    IsFin (Scalar.select c x y) := by
  unfold Scalar.select; exact IsFin.ite hx hy

/-! ### The f32 words of the constants -/

/-- The f32 word of `0.0`. -/
theorem ofBits_f32_zero : Ideal.ofBits .f32 0x00000000#32 = ((0 : ℝ) : EReal) := by
  simp [Ideal.ofBits, Ideal.ieee]

/-- The f32 word of `1.0`. -/
theorem ofBits_f32_one : Ideal.ofBits .f32 0x3F800000#32 = ((1 : ℝ) : EReal) := by
  simp [Ideal.ofBits, Ideal.ieee, -EReal.coe_mul]; norm_num

/-- The f32 word of `100000.0`. -/
theorem ofBits_f32_100000 : Ideal.ofBits .f32 0x47C35000#32 = ((100000 : ℝ) : EReal) := by
  simp [Ideal.ofBits, Ideal.ieee, -EReal.coe_mul]; norm_num

/-- The f32 word nearest `1e-5`: the dyadic `10995116 · 2⁻⁴⁰`. -/
theorem ofBits_f32_eps : Ideal.ofBits .f32 0x3727C5AC#32 = ((10995116 / 2 ^ 40 : ℝ) : EReal) := by
  simp [Ideal.ofBits, Ideal.ieee, -EReal.coe_mul]; norm_num

/-! ### The host operations that move data -/

section Moves
variable {s si t u : Shape} {w : Nat}

/-- A gather reads, at each result index, the operand at the operand index the dimension numbers
    give; the start index is read signed and CLAMPED so that the slice fits, so whatever the
    indices hold (out-of-range values included) the index read is one of the operand's. -/
theorem gather_apply {α : Type} (d : GatherDims s si t) (x : s.Idx → α) (idx : IVec si w) (j : t.Idx) :
    Host.gather d x idx j = x (d.operandIdx j idx) := rfl

/-- Every entry of a gather is an entry of its operand. -/
theorem gather_mem {α : Type} (d : GatherDims s si t) (x : s.Idx → α) (idx : IVec si w) (j : t.Idx) :
    ∃ i, Host.gather d x idx j = x i := ⟨_, rfl⟩

/-- Whatever holds of every entry of the operand holds of every entry of a gather of it. -/
theorem gather_forall {α : Type} (P : α → Prop) (d : GatherDims s si t) (x : s.Idx → α) (idx : IVec si w)
    (hx : ∀ i, P (x i)) (j : t.Idx) : P (Host.gather d x idx j) := hx _

/-- A gather of an array of finite values is an array of finite values, whatever the indices. -/
theorem gather_isFin (d : GatherDims s si t) (x : s.Idx → EReal) (idx : IVec si w)
    (hx : ∀ i, IsFin (x i)) (j : t.Idx) : IsFin (Host.gather d x idx j) := hx _

/-- A scatter-add gives, at each entry, the operand's entry plus the sum of the update entries that
    land on it; an update whose result index leaves the operand lands nowhere and is dropped. -/
theorem scatterAdd_apply {φ : FTy} (d : ScatterDims s si u) (x : FVec Ideal s φ) (idx : IVec si w)
    (upd : FVec Ideal u φ) (i : s.Idx) :
    Host.scatterAdd d x idx upd i
      = x i + ∑ j ∈ Finset.univ.filter (fun j => d.resultIdx? j idx = some i), upd j := rfl

/-- A scatter-add of finite updates into a finite operand is finite, whatever the indices. -/
theorem scatterAdd_isFin {φ : FTy} (d : ScatterDims s si u) (x : FVec Ideal s φ) (idx : IVec si w)
    (upd : FVec Ideal u φ) (hx : ∀ i, IsFin (x i)) (hu : ∀ j, IsFin (upd j)) (i : s.Idx) :
    IsFin (Host.scatterAdd d x idx upd i) := by
  rw [scatterAdd_apply]
  exact (hx i).add (IsFin.sum _ _ fun j _ => hu j)

/-- A scatter-add of nonnegative finite updates into a nonnegative finite operand is nonnegative. -/
theorem scatterAdd_nonneg {φ : FTy} (d : ScatterDims s si u) (x : FVec Ideal s φ) (idx : IVec si w)
    (upd : FVec Ideal u φ) (hx : ∀ i, (0 : EReal) ≤ x i) (hu : ∀ j, (0 : EReal) ≤ upd j) (i : s.Idx) :
    (0 : EReal) ≤ Host.scatterAdd d x idx upd i := by
  rw [scatterAdd_apply]
  exact add_nonneg (hx i) (Finset.sum_nonneg fun j _ => hu j)

end Moves

/-! ### The law of the variance -/

section Law
variable {ι : Type*}

/-- In ℝ: the mean of the centred squares is the mean of the squares minus the square of the mean. -/
theorem var_law_real (S : Finset ι) (h : ι → ℝ) (n : ℝ) (hn : n ≠ 0) (hcard : (S.card : ℝ) = n) :
    (∑ i ∈ S, (h i - (∑ i ∈ S, h i) / n) * (h i - (∑ i ∈ S, h i) / n)) / n
      = (∑ i ∈ S, h i * h i) / n - (∑ i ∈ S, h i) / n * ((∑ i ∈ S, h i) / n) := by
  have h1 : ∀ μ : ℝ, ∑ i ∈ S, (h i - μ) * (h i - μ)
      = (∑ i ∈ S, h i * h i) - 2 * μ * (∑ i ∈ S, h i) + n * (μ * μ) := by
    intro μ
    have e : ∀ i, (h i - μ) * (h i - μ) = h i * h i - 2 * μ * h i + μ * μ := fun i => by ring
    simp only [e]
    rw [Finset.sum_add_distrib, Finset.sum_sub_distrib, ← Finset.mul_sum, Finset.sum_const, nsmul_eq_mul, hcard]
  rw [h1]; field_simp; ring

/-- In ℝ: the mean of the centred squares over a nonempty count is nonnegative. -/
theorem var_nonneg_real (S : Finset ι) (h : ι → ℝ) (n : ℝ) (hn : 0 < n) (μ : ℝ) :
    0 ≤ (∑ i ∈ S, (h i - μ) * (h i - μ)) / n :=
  div_nonneg (Finset.sum_nonneg fun i _ => mul_self_nonneg _) hn.le

/-- The mean of finite data, at the extended reals' division, is the real mean of the real parts. -/
theorem mean_eq_coe (S : Finset ι) (h : ι → EReal) (hfin : ∀ i ∈ S, IsFin (h i)) {n : ℝ} (hn : n ≠ 0) :
    Ideal.div (∑ i ∈ S, h i) (n : EReal) = (((∑ i ∈ S, (h i).toReal) / n : ℝ) : EReal) := by
  rw [sum_eq_coe S h hfin, div_coe_coe _ hn]

/-- The mean of the squares of finite data is the real mean of the squares of the real parts. -/
theorem meansq_eq_coe (S : Finset ι) (h : ι → EReal) (hfin : ∀ i ∈ S, IsFin (h i)) {n : ℝ} (hn : n ≠ 0) :
    Ideal.div (∑ i ∈ S, h i * h i) (n : EReal)
      = (((∑ i ∈ S, (h i).toReal * (h i).toReal) / n : ℝ) : EReal) := by
  have e : ∑ i ∈ S, h i * h i = ∑ i ∈ S, (((h i).toReal * (h i).toReal : ℝ) : EReal) :=
    Finset.sum_congr rfl fun i hi => by rw [EReal.coe_mul, (hfin i hi).coe_toReal]
  rw [e, ← coe_sum, div_coe_coe _ hn]

/-- The two-pass variance of finite data (mean first, then the mean of the centred squares) is the
    real one of the real parts. -/
theorem var_reference_eq_coe (S : Finset ι) (h : ι → EReal) (hfin : ∀ i ∈ S, IsFin (h i)) {n : ℝ} (hn : n ≠ 0) :
    Ideal.div (∑ i ∈ S, (h i - Ideal.div (∑ i ∈ S, h i) (n : EReal)) * (h i - Ideal.div (∑ i ∈ S, h i) (n : EReal)))
        (n : EReal)
      = (((∑ i ∈ S, ((h i).toReal - (∑ i ∈ S, (h i).toReal) / n) * ((h i).toReal - (∑ i ∈ S, (h i).toReal) / n)) / n : ℝ)
          : EReal) := by
  rw [mean_eq_coe S h hfin hn]
  have e : ∑ i ∈ S, (h i - (((∑ i ∈ S, (h i).toReal) / n : ℝ) : EReal)) * (h i - (((∑ i ∈ S, (h i).toReal) / n : ℝ) : EReal))
      = ∑ i ∈ S, ((((h i).toReal - (∑ i ∈ S, (h i).toReal) / n) * ((h i).toReal - (∑ i ∈ S, (h i).toReal) / n) : ℝ) : EReal) :=
    Finset.sum_congr rfl fun i hi => by rw [EReal.coe_mul, EReal.coe_sub, (hfin i hi).coe_toReal]
  rw [e, ← coe_sum, div_coe_coe _ hn]

/-- The one-pass variance of finite data (mean of the squares minus the square of the mean) is the
    real one of the real parts. -/
theorem var_kernel_eq_coe (S : Finset ι) (h : ι → EReal) (hfin : ∀ i ∈ S, IsFin (h i)) {n : ℝ} (hn : n ≠ 0) :
    Ideal.div (∑ i ∈ S, h i * h i) (n : EReal) - Ideal.div (∑ i ∈ S, h i) (n : EReal) * Ideal.div (∑ i ∈ S, h i) (n : EReal)
      = (((∑ i ∈ S, (h i).toReal * (h i).toReal) / n
            - (∑ i ∈ S, (h i).toReal) / n * ((∑ i ∈ S, (h i).toReal) / n) : ℝ) : EReal) := by
  rw [mean_eq_coe S h hfin hn, meansq_eq_coe S h hfin hn, ← EReal.coe_mul, ← EReal.coe_sub]

/-- THE LAW in the extended reals: for finite data over a set of `n ≠ 0` indices the one-pass
    variance and the two-pass variance are the same value. -/
theorem var_kernel_eq_reference (S : Finset ι) (h : ι → EReal) (hfin : ∀ i ∈ S, IsFin (h i)) {n : ℝ} (hn : n ≠ 0)
    (hcard : (S.card : ℝ) = n) :
    Ideal.div (∑ i ∈ S, h i * h i) (n : EReal) - Ideal.div (∑ i ∈ S, h i) (n : EReal) * Ideal.div (∑ i ∈ S, h i) (n : EReal)
      = Ideal.div (∑ i ∈ S, (h i - Ideal.div (∑ i ∈ S, h i) (n : EReal)) * (h i - Ideal.div (∑ i ∈ S, h i) (n : EReal)))
          (n : EReal) := by
  rw [var_kernel_eq_coe S h hfin hn, var_reference_eq_coe S h hfin hn,
    var_law_real S (fun i => (h i).toReal) n hn hcard]

/-- The two-pass variance of finite data over a positive count is finite and nonnegative. -/
theorem var_reference_isFin_nonneg (S : Finset ι) (h : ι → EReal) (hfin : ∀ i ∈ S, IsFin (h i)) {n : ℝ} (hn : 0 < n) :
    IsFin (Ideal.div (∑ i ∈ S, (h i - Ideal.div (∑ i ∈ S, h i) (n : EReal)) * (h i - Ideal.div (∑ i ∈ S, h i) (n : EReal)))
        (n : EReal))
      ∧ (0 : EReal) ≤ Ideal.div (∑ i ∈ S, (h i - Ideal.div (∑ i ∈ S, h i) (n : EReal)) * (h i - Ideal.div (∑ i ∈ S, h i) (n : EReal)))
        (n : EReal) := by
  rw [var_reference_eq_coe S h hfin hn.ne']
  exact ⟨isFin_coe _, EReal.coe_nonneg.2 (var_nonneg_real S _ n hn _)⟩

/-- The one-pass variance of finite data over a positive count is finite and nonnegative. -/
theorem var_kernel_isFin_nonneg (S : Finset ι) (h : ι → EReal) (hfin : ∀ i ∈ S, IsFin (h i)) {n : ℝ} (hn : 0 < n)
    (hcard : (S.card : ℝ) = n) :
    IsFin (Ideal.div (∑ i ∈ S, h i * h i) (n : EReal)
        - Ideal.div (∑ i ∈ S, h i) (n : EReal) * Ideal.div (∑ i ∈ S, h i) (n : EReal))
      ∧ (0 : EReal) ≤ Ideal.div (∑ i ∈ S, h i * h i) (n : EReal)
        - Ideal.div (∑ i ∈ S, h i) (n : EReal) * Ideal.div (∑ i ∈ S, h i) (n : EReal) := by
  rw [var_kernel_eq_reference S h hfin hn.ne' hcard]
  exact var_reference_isFin_nonneg S h hfin hn

/-- A finite nonnegative value plus a finite positive one has a finite positive reciprocal square root. -/
theorem rsqrt_add_pos {v e : EReal} (hv : IsFin v) (hv0 : 0 ≤ v) (he : IsFin e) (he0 : 0 < e) :
    IsFin (Ideal.rsqrt (v + e)) ∧ 0 < Ideal.rsqrt (v + e) :=
  (IsFin.add_pos hv hv0 he he0).1.rsqrt (IsFin.add_pos hv hv0 he he0).2

end Law

/-! ### The same over `Fin n` -/

section OverFin
variable {n : ℕ}

/-- THE LAW over `Fin n`, `0 < n`, in ℝ. -/
theorem var_law_real_fin (hn : 0 < n) (h : Fin n → ℝ) :
    (∑ i, (h i - (∑ i, h i) / (n : ℝ)) * (h i - (∑ i, h i) / (n : ℝ))) / (n : ℝ)
      = (∑ i, h i * h i) / (n : ℝ) - (∑ i, h i) / (n : ℝ) * ((∑ i, h i) / (n : ℝ)) :=
  var_law_real Finset.univ h n (Nat.cast_ne_zero.2 hn.ne') (by simp)

/-- THE LAW over `Fin n`, `0 < n`, in the extended reals, for finite data. -/
theorem var_kernel_eq_reference_fin (hn : 0 < n) (h : Fin n → EReal) (hfin : ∀ i, IsFin (h i)) :
    Ideal.div (∑ i, h i * h i) ((n : ℝ) : EReal)
        - Ideal.div (∑ i, h i) ((n : ℝ) : EReal) * Ideal.div (∑ i, h i) ((n : ℝ) : EReal)
      = Ideal.div (∑ i, (h i - Ideal.div (∑ i, h i) ((n : ℝ) : EReal)) * (h i - Ideal.div (∑ i, h i) ((n : ℝ) : EReal)))
          ((n : ℝ) : EReal) :=
  var_kernel_eq_reference Finset.univ h (fun i _ => hfin i) (Nat.cast_ne_zero.2 hn.ne') (by simp)

/-- Over `Fin n`, `0 < n`: the one-pass variance of finite data is finite and nonnegative. -/
theorem var_kernel_isFin_nonneg_fin (hn : 0 < n) (h : Fin n → EReal) (hfin : ∀ i, IsFin (h i)) :
    IsFin (Ideal.div (∑ i, h i * h i) ((n : ℝ) : EReal)
        - Ideal.div (∑ i, h i) ((n : ℝ) : EReal) * Ideal.div (∑ i, h i) ((n : ℝ) : EReal))
      ∧ (0 : EReal) ≤ Ideal.div (∑ i, h i * h i) ((n : ℝ) : EReal)
        - Ideal.div (∑ i, h i) ((n : ℝ) : EReal) * Ideal.div (∑ i, h i) ((n : ℝ) : EReal) :=
  var_kernel_isFin_nonneg Finset.univ h (fun i _ => hfin i) (Nat.cast_pos.2 hn) (by simp)

/-- Over `Fin n`, `0 < n`: the two-pass variance of finite data is finite and nonnegative. -/
theorem var_reference_isFin_nonneg_fin (hn : 0 < n) (h : Fin n → EReal) (hfin : ∀ i, IsFin (h i)) :
    IsFin (Ideal.div (∑ i, (h i - Ideal.div (∑ i, h i) ((n : ℝ) : EReal)) * (h i - Ideal.div (∑ i, h i) ((n : ℝ) : EReal)))
        ((n : ℝ) : EReal))
      ∧ (0 : EReal) ≤ Ideal.div (∑ i, (h i - Ideal.div (∑ i, h i) ((n : ℝ) : EReal)) * (h i - Ideal.div (∑ i, h i) ((n : ℝ) : EReal)))
        ((n : ℝ) : EReal) :=
  var_reference_isFin_nonneg Finset.univ h (fun i _ => hfin i) (Nat.cast_pos.2 hn)

/-- Over `Fin n`, `0 < n`: the mean of finite data is finite. -/
theorem mean_isFin_fin (hn : 0 < n) (h : Fin n → EReal) (hfin : ∀ i, IsFin (h i)) :
    IsFin (Ideal.div (∑ i, h i) ((n : ℝ) : EReal)) :=
  (IsFin.sum _ _ fun i _ => hfin i).div_coe (Nat.cast_ne_zero.2 hn.ne')

end OverFin

/-! ### At the count 100000, spelled as its f32 word -/

section At100000

/-- THE LAW over `Fin 100000` with the count spelled as the f32 word of `100000.0`. -/
theorem var_kernel_eq_reference_100000 (h : Fin 100000 → EReal) (hfin : ∀ i, IsFin (h i)) :
    Ideal.div (∑ i, h i * h i) (Ideal.ofBits .f32 0x47C35000#32)
        - Ideal.div (∑ i, h i) (Ideal.ofBits .f32 0x47C35000#32) * Ideal.div (∑ i, h i) (Ideal.ofBits .f32 0x47C35000#32)
      = Ideal.div (∑ i, (h i - Ideal.div (∑ i, h i) (Ideal.ofBits .f32 0x47C35000#32))
            * (h i - Ideal.div (∑ i, h i) (Ideal.ofBits .f32 0x47C35000#32)))
          (Ideal.ofBits .f32 0x47C35000#32) := by
  have e : Ideal.ofBits .f32 0x47C35000#32 = (((100000 : ℕ) : ℝ) : EReal) := by
    rw [ofBits_f32_100000]; norm_num
  rw [e]
  exact var_kernel_eq_reference_fin (by norm_num) h hfin

/-- Over `Fin 100000`, the count spelled as its f32 word: the mean of finite data is finite. -/
theorem mean_isFin_100000 (h : Fin 100000 → EReal) (hfin : ∀ i, IsFin (h i)) :
    IsFin (Ideal.div (∑ i, h i) (Ideal.ofBits .f32 0x47C35000#32)) := by
  rw [ofBits_f32_100000]
  exact (IsFin.sum _ _ fun i _ => hfin i).div_coe (by norm_num)

/-- Over `Fin 100000`, the count spelled as its f32 word: the one-pass variance of finite data is finite
    and nonnegative. -/
theorem var_kernel_isFin_nonneg_100000 (h : Fin 100000 → EReal) (hfin : ∀ i, IsFin (h i)) :
    IsFin (Ideal.div (∑ i, h i * h i) (Ideal.ofBits .f32 0x47C35000#32)
        - Ideal.div (∑ i, h i) (Ideal.ofBits .f32 0x47C35000#32) * Ideal.div (∑ i, h i) (Ideal.ofBits .f32 0x47C35000#32))
      ∧ (0 : EReal) ≤ Ideal.div (∑ i, h i * h i) (Ideal.ofBits .f32 0x47C35000#32)
        - Ideal.div (∑ i, h i) (Ideal.ofBits .f32 0x47C35000#32) * Ideal.div (∑ i, h i) (Ideal.ofBits .f32 0x47C35000#32) := by
  have e : Ideal.ofBits .f32 0x47C35000#32 = (((100000 : ℕ) : ℝ) : EReal) := by
    rw [ofBits_f32_100000]; norm_num
  rw [e]
  exact var_kernel_isFin_nonneg_fin (by norm_num) h hfin

/-- The f32 word nearest `1e-5` is a positive real. -/
theorem ofBits_f32_eps_isFin_pos :
    IsFin (Ideal.ofBits .f32 0x3727C5AC#32) ∧ (0 : EReal) < Ideal.ofBits .f32 0x3727C5AC#32 := by
  rw [ofBits_f32_eps]
  exact ⟨isFin_coe _, EReal.coe_pos.2 (by positivity)⟩

/-- A finite nonnegative value plus the f32 word nearest `1e-5` has a finite positive reciprocal square root. -/
theorem rsqrt_add_eps {v : EReal} (hv : IsFin v) (hv0 : 0 ≤ v) :
    IsFin (Ideal.rsqrt (v + Ideal.ofBits .f32 0x3727C5AC#32)) ∧ 0 < Ideal.rsqrt (v + Ideal.ofBits .f32 0x3727C5AC#32) :=
  rsqrt_add_pos hv hv0 ofBits_f32_eps_isFin_pos.1 ofBits_f32_eps_isFin_pos.2

/-- The count `100000.0` minus the integer `0` read as a float (a variance's degrees-of-freedom
    correction at `0`) is the count. -/
theorem count_sub_ddof_zero :
    Ideal.ofBits .f32 0x47C35000#32 - ((((0#32 : BitVec 32).toInt : ℝ)) : EReal) = Ideal.ofBits .f32 0x47C35000#32 := by
  simp

/-- A strict order between extended reals, as the ordered greater-than comparison's bit. -/
theorem cmp_ogt_of_lt {x y : EReal} (h : y < x) : Ideal.cmp .ogt x y = 1#1 := by
  simp [Ideal.cmp, h]

/-- The guard of a variance with correction `0`: the count `100000.0` is greater than `0.0`. -/
theorem count_gt_zero : Ideal.cmp .ogt (Ideal.ofBits .f32 0x47C35000#32) (Ideal.ofBits .f32 0x00000000#32) = 1#1 := by
  rw [ofBits_f32_100000, ofBits_f32_zero]
  exact cmp_ogt_of_lt (EReal.coe_lt_coe_iff.2 (by norm_num))

end At100000

end Cert.LibERealStats
-- ==== Proof.Facts.lean ====
/-
  What the clipping buys.

  A pixel coordinate is clipped to [0, 223], so it is a real number whatever the query point's coordinates are (a zero depth,
  an infinite coordinate: the quotient may be anything, its clip is not). Dividing it by a cell size (4, 8, 16 or 32) and
  rounding down or up keeps it real, so the four bilinear weights are real numbers. A rounded coordinate turned into an
  integer word and clamped to [0, last] is a small non-negative word: read signed or unsigned it is the same number, at most
  `last`; it is never negative; and the flattened cell number  row · H + column  of two such words is computed without
  wrap-around.
-/
import proofs.«122278_j57483842289710_1_alg».proof.Proof.Spec
import proofs.«122278_j57483842289710_1_alg».proof.Proof.LibERealStats

noncomputable section

namespace Cert.Bilinear

open Idealize.ShloMosaic Cert.LibERealStats

/-! ### The float words of the constants -/

private theorem lit_zero : lit 0x00000000#32 = ((0 : ℝ) : EReal) := by
  simp [lit, Ideal.ofBits, Ideal.ieee]

private theorem lit_223 : lit 0x435F0000#32 = ((223 : ℝ) : EReal) := by
  simp [lit, Ideal.ofBits, Ideal.ieee, -EReal.coe_mul]; norm_num

private theorem lit_4 : lit 0x40800000#32 = ((4 : ℝ) : EReal) := by
  simp [lit, Ideal.ofBits, Ideal.ieee, -EReal.coe_mul]; norm_num

private theorem lit_8 : lit 0x41000000#32 = ((8 : ℝ) : EReal) := by
  simp [lit, Ideal.ofBits, Ideal.ieee, -EReal.coe_mul]; norm_num

private theorem lit_16 : lit 0x41800000#32 = ((16 : ℝ) : EReal) := by
  simp [lit, Ideal.ofBits, Ideal.ieee, -EReal.coe_mul]; norm_num

private theorem lit_32 : lit 0x42000000#32 = ((32 : ℝ) : EReal) := by
  simp [lit, Ideal.ofBits, Ideal.ieee, -EReal.coe_mul]; norm_num

/-! ### Real numbers -/

/-- An extended real between two reals is a real: it is below `⊤` and above `⊥`. -/
private theorem isFin_of_between {x : EReal} {a b : ℝ} (ha : (a : EReal) ≤ x) (hb : x ≤ (b : EReal)) : IsFin x :=
  isFin_iff.2 ⟨(lt_of_le_of_lt hb (EReal.coe_lt_top b)).ne, (lt_of_lt_of_le (EReal.bot_lt_coe a) ha).ne'⟩

/-- A clipped pixel coordinate is a real number, for any arguments. -/
theorem isFin_pix (u z : EReal) : IsFin (pix u z) := by
  unfold pix
  rw [lit_223, lit_zero]
  generalize Ideal.div (lit 0x437A0000#32 * u) (-z) + lit 0x42E00000#32 = t
  have h0 : ((0 : ℝ) : EReal) ≤ ((223 : ℝ) : EReal) := EReal.coe_le_coe_iff.2 (by norm_num)
  exact isFin_of_between (le_min h0 (le_max_left _ _)) (min_le_left _ _)

/-- In units of a map's cells (cell size 4, 8, 16 or 32) it still is. -/
theorem isFin_grid {p : EReal} (hp : IsFin p) (s : BitVec 32)
    (hs : s = 0x40800000#32 ∨ s = 0x41000000#32 ∨ s = 0x41800000#32 ∨ s = 0x42000000#32) : IsFin (grid p s) := by
  unfold grid
  rcases hs with rfl | rfl | rfl | rfl
  · rw [lit_4]; exact hp.div_coe (by norm_num)
  · rw [lit_8]; exact hp.div_coe (by norm_num)
  · rw [lit_16]; exact hp.div_coe (by norm_num)
  · rw [lit_32]; exact hp.div_coe (by norm_num)

/-- Rounding a real number down gives a real number, -/
theorem isFin_below {q : EReal} (hq : IsFin q) : IsFin (below q) := by
  obtain ⟨a, rfl⟩ := hq
  unfold below
  rw [Ideal.liftRound_coe]
  exact isFin_coe _

/-- and so does rounding it up. -/
theorem isFin_above {q : EReal} (hq : IsFin q) : IsFin (above q) := by
  obtain ⟨a, rfl⟩ := hq
  unfold above
  rw [Ideal.liftRound_coe]
  exact isFin_coe _

/-! ### Cell words -/

/-- Read signed, a clamped cell word lies between zero and the last cell's number: the inner maximum with zero is not
    negative, and the outer minimum with `last` is the smaller of two numbers that are not negative. -/
private theorem cell_bounds (last : BitVec 32) (hl : last.toNat < 2 ^ 31) (v : EReal) :
    0 ≤ (cell last v).toInt ∧ (cell last v).toInt ≤ (last.toNat : ℤ) := by
  unfold cell
  generalize Ideal.fptosi 32 v = w
  have hlast : last.toInt = (last.toNat : ℤ) := BitVec.toInt_eq_toNat_of_lt (by omega)
  have hm : 0 ≤ (IntOp.maxsi 0#32 w).toInt := by
    unfold IntOp.maxsi
    by_cases h : w.slt 0#32 = true
    · rw [if_pos h, BitVec.toInt_zero]
    · rw [if_neg h]
      have h' : ¬ w.toInt < (0#32 : BitVec 32).toInt := fun hlt => h (BitVec.slt_iff_toInt_lt.2 hlt)
      rw [BitVec.toInt_zero] at h'
      omega
  generalize IntOp.maxsi 0#32 w = m at hm ⊢
  unfold IntOp.minsi
  by_cases h : last.slt m = true
  · rw [if_pos h, hlast]; omega
  · rw [if_neg h]
    have h' : ¬ last.toInt < m.toInt := fun hlt => h (BitVec.slt_iff_toInt_lt.2 hlt)
    rw [hlast] at h'
    omega

/-- A word that is not negative when read signed reads the same unsigned. -/
private theorem toInt_eq_toNat_of_nonneg (c : BitVec 32) (h : 0 ≤ c.toInt) : c.toInt = (c.toNat : ℤ) := by
  have hc := BitVec.toInt_eq_toNat_cond c
  have hlt := c.isLt
  by_cases h2 : 2 * c.toNat < 2 ^ 32
  · rw [if_pos h2] at hc; exact hc
  · rw [if_neg h2] at hc; omega

/-- A clamped cell word is at most the last cell's number, -/
theorem cell_toNat_le (last : BitVec 32) (hl : last.toNat < 2 ^ 31) (v : EReal) : (cell last v).toNat ≤ last.toNat := by
  obtain ⟨h0, h1⟩ := cell_bounds last hl v
  rw [toInt_eq_toNat_of_nonneg _ h0] at h1
  omega

/-- reads the same signed as unsigned, -/
theorem cell_toInt (last : BitVec 32) (hl : last.toNat < 2 ^ 31) (v : EReal) :
    (cell last v).toInt = ((cell last v).toNat : ℤ) :=
  toInt_eq_toNat_of_nonneg _ (cell_bounds last hl v).1

/-- and is not negative: the signed comparison with zero answers no. -/
theorem cell_not_slt_zero (last : BitVec 32) (hl : last.toNat < 2 ^ 31) (v : EReal) :
    IntOp.cmpi .slt (cell last v) 0#32 = 0#1 := by
  have h0 := (cell_bounds last hl v).1
  have hn : (cell last v).slt 0#32 = false := by
    rw [Bool.eq_false_iff]
    intro h
    have := BitVec.slt_iff_toInt_lt.1 h
    rw [BitVec.toInt_zero] at this
    omega
  show BitVec.ofBool ((cell last v).slt 0#32) = 0#1
  rw [hn]; rfl

/-- Keeping such a word inside a map of `H` cells (last cell `H − 1`) changes nothing. -/
theorem cell_min (last : BitVec 32) (hl : last.toNat < 2 ^ 31) (v : EReal) (H : Nat) (hH : last.toNat = H - 1) :
    min (cell last v).toInt.toNat (H - 1) = (cell last v).toNat := by
  have h1 := cell_toNat_le last hl v
  have h2 := cell_toInt last hl v
  omega

/-- The flattened cell number of a row word and a column word below `H ≤ 56` is computed without wrap-around. -/
theorem flat_toNat (a b : BitVec 32) (H : Nat) (hH : H ≤ 56) (ha : a.toNat < H) (hb : b.toNat < H) :
    (IntOp.addi (IntOp.muli a (BitVec.ofNat 32 H)) b).toNat = a.toNat * H + b.toNat := by
  have hmul : a.toNat * H ≤ 55 * 56 := Nat.mul_le_mul (by omega) hH
  unfold IntOp.addi IntOp.muli
  rw [BitVec.toNat_add, BitVec.toNat_mul, BitVec.toNat_ofNat, Nat.mod_eq_of_lt (by omega : H < 2 ^ 32),
    Nat.mod_eq_of_lt (by omega : a.toNat * H < 2 ^ 32), Nat.mod_eq_of_lt (by omega : a.toNat * H + b.toNat < 2 ^ 32)]

end Cert.Bilinear

end
-- ==== Proof.BlockSpec.lean ====
/-
  One block of the result, over the flattened maps.

  The kernel sees 1024 query points at a time and each map flattened to rows of channels (row  a · H + b  is cell (a, b))
  and padded with zero rows. It samples through the flattened cell number: the entry of cell (a, b) is row a · H + b of the
  flattened map. For clamped cell words that is the same entry the reference's pair of indices names, so a block of the
  kernel's output is the matching block of `result`.
-/
import proofs.«122278_j57483842289710_1_alg».proof.Proof.Spec
import proofs.«122278_j57483842289710_1_alg».proof.Proof.Facts

noncomputable section

namespace Cert.Bilinear

open Idealize.ShloMosaic Idealize.ShloMosaic.ValueIdx Cert.LibERealStats

/-- Channel `c` of a flattened map as a function of the row number; zero past the last row. -/
def column {R C : Nat} (flat : (⟨2, ![R, C]⟩ : Shape).Idx → EReal) (c : Fin C) (n : Nat) : EReal :=
  if h : n < R then flat (ix2 ⟨n, h⟩ c) else 0

/-- The flattened cell number of a row word and a column word in a map of `H` columns. -/
def flatCell (H : Nat) (a b : BitVec 32) : BitVec 32 := IntOp.addi (IntOp.muli a (BitVec.ofNat 32 H)) b

/-- The sample of channel `c` for the point `(X, Y, Z)`, read through the flattened map. -/
def flatLevel (H : Nat) (last s : BitVec 32) {R C : Nat} (flat : (⟨2, ![R, C]⟩ : Shape).Idx → EReal)
    (X Y Z : EReal) (c : Fin C) : EReal :=
  sample last (grid (pix (-Y) Z) s) (grid (pix X Z) s) (fun a b => column flat c (flatCell H a b).toNat)

/-- Entry `(r, col)` of a block of 1024 points: the point's coordinates, then its samples of the four flattened maps. -/
def blockResult (x0 : (⟨2, ![1024, 3]⟩ : Shape).Idx → EReal)
    (x1 : (⟨2, ![3584, 64]⟩ : Shape).Idx → EReal) (x2 : (⟨2, ![1024, 128]⟩ : Shape).Idx → EReal)
    (x3 : (⟨2, ![512, 256]⟩ : Shape).Idx → EReal) (x4 : (⟨2, ![512, 512]⟩ : Shape).Idx → EReal)
    (j : (⟨2, ![1024, 963]⟩ : Shape).Idx) : EReal :=
  let X := x0 (ix2 (j 0) (0 : Fin 3))
  let Y := x0 (ix2 (j 0) (1 : Fin 3))
  let Z := x0 (ix2 (j 0) (2 : Fin 3))
  if h0 : (j 1).val < 3 then x0 (ix2 (j 0) ⟨(j 1).val, h0⟩)
  else if h1 : (j 1).val < 67 then flatLevel 56 55#32 0x40800000#32 x1 X Y Z ⟨(j 1).val - 3, by omega⟩
  else if h2 : (j 1).val < 195 then flatLevel 28 27#32 0x41000000#32 x2 X Y Z ⟨(j 1).val - 67, by omega⟩
  else if h3 : (j 1).val < 451 then flatLevel 14 13#32 0x41800000#32 x3 X Y Z ⟨(j 1).val - 195, by omega⟩
  else flatLevel 7 6#32 0x42000000#32 x4 X Y Z ⟨(j 1).val - 451, by have h963 : (j 1).val < 963 := (j 1).isLt; omega⟩

/-- A sample only reads the map at clamped cell words. -/
theorem sample_congr (last : BitVec 32) (x y : EReal) (f g : BitVec 32 → BitVec 32 → EReal)
    (h : ∀ u v : EReal, f (cell last u) (cell last v) = g (cell last u) (cell last v)) :
    sample last x y f = sample last x y g := by
  unfold sample
  rw [h, h, h, h]

/-- Row  a · H + b  of a flattened map is cell (a, b): for clamped cell words of a map of `H × H` cells whose flattened
    form has at least `H · H` rows, reading through the flattened cell number is reading the cell. -/
theorem column_entry {H C R : Nat} (hH : 0 < H) (hH56 : H ≤ 56) (hR : H * H ≤ R) (last : BitVec 32) (hlast : last.toNat = H - 1)
    (feat : (⟨3, ![H, H, C]⟩ : Shape).Idx → EReal) (flat : (⟨2, ![R, C]⟩ : Shape).Idx → EReal)
    (hflat : ∀ (j : Fin R) (c : Fin C), flat (ix2 j c)
      = if h : j.val < H * H then feat (ix3 ⟨j.val / H, by
          exact Nat.div_lt_of_lt_mul h⟩ ⟨j.val % H, Nat.mod_lt _ hH⟩ c) else 0)
    (c : Fin C) (u v : EReal) :
    column flat c (flatCell H (cell last u) (cell last v)).toNat = entry hH feat c (cell last u) (cell last v) := by
  have hl : last.toNat < 2 ^ 31 := by omega
  have ha : (cell last u).toNat < H := by have := cell_toNat_le last hl u; omega
  have hb : (cell last v).toNat < H := by have := cell_toNat_le last hl v; omega
  have hn : (flatCell H (cell last u) (cell last v)).toNat = (cell last u).toNat * H + (cell last v).toNat :=
    flat_toNat _ _ H hH56 ha hb
  have hlt : (cell last u).toNat * H + (cell last v).toNat < H * H := by
    have : (cell last u).toNat * H ≤ (H - 1) * H := Nat.mul_le_mul_right _ (by omega)
    have e : (H - 1) * H + H = H * H := by
      have : H = (H - 1) + 1 := by omega
      calc (H - 1) * H + H = ((H - 1) + 1) * H := by ring
        _ = H * H := by rw [← this]
    omega
  have hdiv : ((cell last u).toNat * H + (cell last v).toNat) / H = (cell last u).toNat := by
    rw [Nat.add_comm, Nat.add_mul_div_right _ _ hH, Nat.div_eq_of_lt hb, Nat.zero_add]
  have hmod : ((cell last u).toNat * H + (cell last v).toNat) % H = (cell last v).toNat := by
    rw [Nat.add_comm, Nat.add_mul_mod_self_right, Nat.mod_eq_of_lt hb]
  unfold column entry
  rw [hn, dif_pos (by omega : (cell last u).toNat * H + (cell last v).toNat < R), hflat, dif_pos hlt]
  congr 1
  funext a
  match a with
  | ⟨0, _⟩ => exact Fin.ext (by simp only [ix3]; rw [cell_min last hl u H hlast]; exact hdiv)
  | ⟨1, _⟩ => exact Fin.ext (by simp only [ix3]; rw [cell_min last hl v H hlast]; exact hmod)
  | ⟨2, _⟩ => rfl

/-- A map's sample read through its flattened form is its sample: for a map of `H × H` cells whose flattened form has
    row `j < H · H` equal to cell `(j / H, j % H)`. -/
theorem flatLevel_eq_level {H C R : Nat} (hH : 0 < H) (hH56 : H ≤ 56) (hR : H * H ≤ R) (last s : BitVec 32)
    (hlast : last.toNat = H - 1) (feat : (⟨3, ![H, H, C]⟩ : Shape).Idx → EReal) (flat : (⟨2, ![R, C]⟩ : Shape).Idx → EReal)
    (hflat : ∀ (j : Fin R) (c : Fin C), flat (ix2 j c)
      = if h : j.val < H * H then feat (ix3 ⟨j.val / H, by
          exact Nat.div_lt_of_lt_mul h⟩ ⟨j.val % H, Nat.mod_lt _ hH⟩ c) else 0)
    (X Y Z : EReal) (c : Fin C) :
    flatLevel H last s flat X Y Z c = level hH last s feat X Y Z c := by
  unfold flatLevel level
  exact sample_congr last _ _ _ _ fun u v => column_entry hH hH56 hR last hlast feat flat hflat c u v

/-- A BLOCK OF THE KERNEL'S RESULT IS THE MATCHING BLOCK OF `result`: for a block of 1024 points starting at row `base`
    of the coordinates, and the four flattened, padded maps. -/
theorem blockResult_eq_result (base : Nat) (hbase : base + 1024 ≤ 131072)
    (x0 : (⟨2, ![1024, 3]⟩ : Shape).Idx → EReal)
    (x1 : (⟨2, ![3584, 64]⟩ : Shape).Idx → EReal) (x2 : (⟨2, ![1024, 128]⟩ : Shape).Idx → EReal)
    (x3 : (⟨2, ![512, 256]⟩ : Shape).Idx → EReal) (x4 : (⟨2, ![512, 512]⟩ : Shape).Idx → EReal)
    (A0 : (⟨2, ![131072, 3]⟩ : Shape).Idx → EReal)
    (A1 : (⟨3, ![56, 56, 64]⟩ : Shape).Idx → EReal) (A2 : (⟨3, ![28, 28, 128]⟩ : Shape).Idx → EReal)
    (A3 : (⟨3, ![14, 14, 256]⟩ : Shape).Idx → EReal) (A4 : (⟨3, ![7, 7, 512]⟩ : Shape).Idx → EReal)
    (h0 : ∀ (r : Fin 1024) (k : Fin 3), x0 (ix2 r k) = A0 (ix2 ⟨base + r.val, by have := r.isLt; omega⟩ k))
    (h1 : ∀ (j : Fin 3584) (c : Fin 64), x1 (ix2 j c)
      = if h : j.val < 56 * 56 then A1 (ix3 ⟨j.val / 56, by omega⟩ ⟨j.val % 56, Nat.mod_lt _ (by norm_num)⟩ c) else 0)
    (h2 : ∀ (j : Fin 1024) (c : Fin 128), x2 (ix2 j c)
      = if h : j.val < 28 * 28 then A2 (ix3 ⟨j.val / 28, by omega⟩ ⟨j.val % 28, Nat.mod_lt _ (by norm_num)⟩ c) else 0)
    (h3 : ∀ (j : Fin 512) (c : Fin 256), x3 (ix2 j c)
      = if h : j.val < 14 * 14 then A3 (ix3 ⟨j.val / 14, by omega⟩ ⟨j.val % 14, Nat.mod_lt _ (by norm_num)⟩ c) else 0)
    (h4 : ∀ (j : Fin 512) (c : Fin 512), x4 (ix2 j c)
      = if h : j.val < 7 * 7 then A4 (ix3 ⟨j.val / 7, by omega⟩ ⟨j.val % 7, Nat.mod_lt _ (by norm_num)⟩ c) else 0)
    (r : Fin 1024) (col : Fin 963) :
    blockResult x0 x1 x2 x3 x4 (ix2 r col)
      = result A0 A1 A2 A3 A4 (ix2 ⟨base + r.val, by have := r.isLt; omega⟩ col) := by
  unfold blockResult result
  simp only [h0]
  show (if h0' : col.val < 3 then _ else if h1' : col.val < 67 then _ else if h2' : col.val < 195 then _
      else if h3' : col.val < 451 then _ else _) = (if h0' : col.val < 3 then _ else if h1' : col.val < 67 then _
      else if h2' : col.val < 195 then _ else if h3' : col.val < 451 then _ else _)
  split_ifs
  · rfl
  · exact flatLevel_eq_level (by norm_num) (by norm_num) (by norm_num) 55#32 _ (by decide) A1 x1 h1 _ _ _ _
  · exact flatLevel_eq_level (by norm_num) (by norm_num) (by norm_num) 27#32 _ (by decide) A2 x2 h2 _ _ _ _
  · exact flatLevel_eq_level (by norm_num) (by norm_num) (by norm_num) 13#32 _ (by decide) A3 x3 h3 _ _ _ _
  · exact flatLevel_eq_level (by norm_num) (by norm_num) (by norm_num) 6#32 _ (by decide) A4 x4 h4 _ _ _ _

end Cert.Bilinear

end
-- ==== Proof.KernelLevel.lean ====
/-
  A map's samples for a block of points are the bilinear samples through the flattened map.

  At a point and a channel the kernel's accumulated chunk products are the products of the chunks of the point's weight
  row with the channel's column of the flattened map. The weights are real numbers, the column's entries are real numbers,
  and every corner's flattened cell number lies inside the positions the chunks cover; so the accumulated products are the
  four corner entries weighted by the four weights: the bilinear sample read through the flattened map.
-/
import proofs.«122278_j57483842289710_1_alg».proof.Proof.KernelMirror
import proofs.«122278_j57483842289710_1_alg».proof.Proof.BlockSpec
import proofs.«122278_j57483842289710_1_alg».proof.Proof.Facts
import proofs.«122278_j57483842289710_1_alg».proof.Proof.LibERealStats

noncomputable section

namespace Cert.Bilinear

open Idealize.ShloMosaic Idealize.ShloMosaic.TcCoe Idealize.ShloMosaic.ValueIdx
open Cert.KernelIdeal Cert.KernelIdeal.Gen Cert.LibERealStats

variable {C : Nat} (d : DotDims S1024x512 (⟨2, ![512, C]⟩ : Shape) (⟨2, ![1024, C]⟩ : Shape))
  (hlc : d.lhsContracting = [1]) (hrc : d.rhsContracting = [0]) (hln : d.lhsNonContracting = [0])
  (hrn : d.rhsNonContracting = [1]) (hlb : d.lhsBatch = []) (hrb : d.rhsBatch = [])
  (hc : (⟨2, ![512, C]⟩ : Shape).ShapeCasts ⟨2, ![512, C]⟩)

include hlc hrc hln hrn hlb hrb in
/-- A map's samples for the block, at a point and a channel, as accumulated products against the channel's column. -/
theorem levelVec_apply (s last : BitVec 32) (H : Nat) (v0 : Vec Ideal S1024x3 .f32)
    (fc : Nat → Vec Ideal (⟨2, ![512, C]⟩ : Shape) .f32) (n : Nat) (r : Fin 1024) (cc : Fin C) (G : Nat → EReal)
    (hG : ∀ i, i < n → ∀ k : Fin 512, fc i (ix2 k cc) = G (512 * i + k.val)) :
    levelVec d hc s last (BitVec.ofNat 32 H) v0 fc n (ix2 r cc)
      = (let x := grid (pix (-(v0 (ix2 r (1 : Fin 3)))) (v0 (ix2 r (2 : Fin 3)))) s
         let y := grid (pix (v0 (ix2 r (0 : Fin 3))) (v0 (ix2 r (2 : Fin 3)))) s
         accum (chunkDot G
          (flatCell H (cell last (below x)) (cell last (below y))) (flatCell H (cell last (above x)) (cell last (below y)))
          (flatCell H (cell last (below x)) (cell last (above y))) (flatCell H (cell last (above x)) (cell last (above y)))
          ((above x - x) * (above y - y)) ((x - below x) * (above y - y))
          ((above x - x) * (y - below y)) ((x - below x) * (y - below y))) n) := by
  unfold levelVec
  dsimp only
  rw [accVec_apply d hlc hrc hln hrn hlb hrb hc _ _ _ _ _ _ _ _ fc r cc G n hG]
  simp only [flatVec_apply, wgtVec_apply]
  have hx : gridVec s (hVec v0) (ix1 r) = grid (pix (-(v0 (ix2 r (1 : Fin 3)))) (v0 (ix2 r (2 : Fin 3)))) s := by
    show Ideal.div (hVec v0 (ix1 r)) (Ideal.ofBits .f32 s) = _
    rw [hVec_apply]; rfl
  have hy : gridVec s (wVec v0) (ix1 r) = grid (pix (v0 (ix2 r (0 : Fin 3))) (v0 (ix2 r (2 : Fin 3)))) s := by
    show Ideal.div (wVec v0 (ix1 r)) (Ideal.ofBits .f32 s) = _
    rw [wVec_apply]; rfl
  show accum (chunkDot G
      (IntOp.addi (IntOp.muli (cell last (below (gridVec s (hVec v0) (ix1 r)))) (BitVec.ofNat 32 H)) (cell last (below (gridVec s (wVec v0) (ix1 r)))))
      (IntOp.addi (IntOp.muli (cell last (above (gridVec s (hVec v0) (ix1 r)))) (BitVec.ofNat 32 H)) (cell last (below (gridVec s (wVec v0) (ix1 r)))))
      (IntOp.addi (IntOp.muli (cell last (below (gridVec s (hVec v0) (ix1 r)))) (BitVec.ofNat 32 H)) (cell last (above (gridVec s (wVec v0) (ix1 r)))))
      (IntOp.addi (IntOp.muli (cell last (above (gridVec s (hVec v0) (ix1 r)))) (BitVec.ofNat 32 H)) (cell last (above (gridVec s (wVec v0) (ix1 r)))))
      ((above (gridVec s (hVec v0) (ix1 r)) - gridVec s (hVec v0) (ix1 r)) * (above (gridVec s (wVec v0) (ix1 r)) - gridVec s (wVec v0) (ix1 r)))
      ((gridVec s (hVec v0) (ix1 r) - below (gridVec s (hVec v0) (ix1 r))) * (above (gridVec s (wVec v0) (ix1 r)) - gridVec s (wVec v0) (ix1 r)))
      ((above (gridVec s (hVec v0) (ix1 r)) - gridVec s (hVec v0) (ix1 r)) * (gridVec s (wVec v0) (ix1 r) - below (gridVec s (wVec v0) (ix1 r))))
      ((gridVec s (hVec v0) (ix1 r) - below (gridVec s (hVec v0) (ix1 r))) * (gridVec s (wVec v0) (ix1 r) - below (gridVec s (wVec v0) (ix1 r))))) n = _
  rw [hx, hy]
  rfl

include hlc hrc hln hrn hlb hrb in
/-- THE KERNEL'S SAMPLES ARE THE BILINEAR SAMPLES through the flattened map: for a flattened map of real entries whose
    first `H · H` rows are the cells, read in `n` chunks that cover them. -/
theorem levelVec_eq_flatLevel (s last : BitVec 32) (H R : Nat) (hH : 0 < H) (hH56 : H ≤ 56) (hlast : last.toNat = H - 1)
    (hs : s = 0x40800000#32 ∨ s = 0x41000000#32 ∨ s = 0x41800000#32 ∨ s = 0x42000000#32)
    (n : Nat) (hn : 512 * n ≤ 2 ^ 31) (hcov : H * H ≤ 512 * n)
    (v0 : Vec Ideal S1024x3 .f32) (flat : (⟨2, ![R, C]⟩ : Shape).Idx → EReal) (hfin : ∀ i, IsFin (flat i))
    (fc : Nat → Vec Ideal (⟨2, ![512, C]⟩ : Shape) .f32) (r : Fin 1024) (cc : Fin C)
    (hG : ∀ i, i < n → ∀ k : Fin 512, fc i (ix2 k cc) = column flat cc (512 * i + k.val)) :
    levelVec d hc s last (BitVec.ofNat 32 H) v0 fc n (ix2 r cc)
      = flatLevel H last s flat (v0 (ix2 r (0 : Fin 3))) (v0 (ix2 r (1 : Fin 3))) (v0 (ix2 r (2 : Fin 3))) cc := by
  rw [levelVec_apply d hlc hrc hln hrn hlb hrb hc s last H v0 fc n r cc (column flat cc) hG]
  dsimp only
  have hl : last.toNat < 2 ^ 31 := by omega
  have hcol : ∀ j, column flat cc j ≠ ⊤ ∧ column flat cc j ≠ ⊥ := fun j => by
    unfold column
    split
    · exact isFin_iff.1 (hfin _)
    · exact isFin_iff.1 isFin_zero
  have hidx : ∀ u v : EReal, (flatCell H (cell last u) (cell last v)).toNat < 512 * n := fun u v => by
    have ha : (cell last u).toNat < H := by have := cell_toNat_le last hl u; omega
    have hb : (cell last v).toNat < H := by have := cell_toNat_le last hl v; omega
    have e : (flatCell H (cell last u) (cell last v)).toNat = (cell last u).toNat * H + (cell last v).toNat :=
      flat_toNat _ _ H hH56 ha hb
    have hm : (cell last u).toNat * H ≤ (H - 1) * H := Nat.mul_le_mul_right _ (by omega)
    have e2 : (H - 1) * H + H = H * H := by
      have : H = (H - 1) + 1 := by omega
      calc (H - 1) * H + H = ((H - 1) + 1) * H := by ring
        _ = H * H := by rw [← this]
    omega
  have fx : IsFin (grid (pix (-(v0 (ix2 r (1 : Fin 3)))) (v0 (ix2 r (2 : Fin 3)))) s) := isFin_grid (isFin_pix _ _) s hs
  have fy : IsFin (grid (pix (v0 (ix2 r (0 : Fin 3))) (v0 (ix2 r (2 : Fin 3)))) s) := isFin_grid (isFin_pix _ _) s hs
  rw [accum_chunkDot n hn (column flat cc) hcol _ _ _ _ (hidx _ _) (hidx _ _) (hidx _ _) (hidx _ _) _ _ _ _
    (isFin_iff.1 (((isFin_above fx).sub fx).mul ((isFin_above fy).sub fy)))
    (isFin_iff.1 ((fx.sub (isFin_below fx)).mul ((isFin_above fy).sub fy)))
    (isFin_iff.1 (((isFin_above fx).sub fx).mul (fy.sub (isFin_below fy))))
    (isFin_iff.1 ((fx.sub (isFin_below fx)).mul (fy.sub (isFin_below fy))))]
  rfl

end Cert.Bilinear

end
-- ==== Proof.KernelBlock.lean ====
/-
  What the kernel's body leaves in a block of the result.

  The body stores five pieces into a block of 1024 rows: the block of coordinates into columns 0–2 and, for each of the four
  maps, the accumulated products of the chunks of the weight rows with the chunks of the flattened map into the map's
  columns. The stored values are the operations of Proof/KernelMirror.lean in the same order, so they ARE those vector
  expressions; read at a point and a channel they are the bilinear samples through the flattened maps
  (Proof/KernelLevel.lean) once the maps' entries are real numbers. The five pieces tile the block, so the block is
  `blockResult` of the coordinates' block and the four flattened maps.
-/
import proofs.«122278_j57483842289710_1_alg».proof.Proof.Gen.KernelIdeal.Frame
import proofs.«122278_j57483842289710_1_alg».proof.Proof.KernelMirror
import proofs.«122278_j57483842289710_1_alg».proof.Proof.KernelLevel
import proofs.«122278_j57483842289710_1_alg».proof.Proof.BlockSpec
import proofs.«122278_j57483842289710_1_alg».proof.Proof.LibERealStats
import Idealize.ShloMosaic.Lib.ValueIdx
import Idealize.ShloMosaic.Lib.Pipeline.Value

set_option maxRecDepth 16384

noncomputable section

namespace Cert.Bilinear

open Idealize.ShloMosaic Idealize.ShloMosaic.TcCoe Idealize.ShloMosaic.Tactic Idealize.ShloMosaic.ValueIdx
open Idealize.SL Idealize.SL.Sem
open Cert.KernelIdeal Cert.KernelIdeal.Gen

section Pieces

variable {F : FTy → Type} [FloatOps F]

/-- The chunks of each flattened map the body loads: 512 rows at a time. -/
def fc1 (x1 : Vec F S3584x64 .f32) : Nat → Vec F S512x64 .f32
  | 0 => View.ld x1 (Rect.unit (s := S3584x64) ![0, 0] S512x64.size inb_S3584x64_S512x64_0_0)
  | 1 => View.ld x1 (Rect.unit (s := S3584x64) ![512, 0] S512x64.size inb_S3584x64_S512x64_512_0)
  | 2 => View.ld x1 (Rect.unit (s := S3584x64) ![1024, 0] S512x64.size inb_S3584x64_S512x64_1024_0)
  | 3 => View.ld x1 (Rect.unit (s := S3584x64) ![1536, 0] S512x64.size inb_S3584x64_S512x64_1536_0)
  | 4 => View.ld x1 (Rect.unit (s := S3584x64) ![2048, 0] S512x64.size inb_S3584x64_S512x64_2048_0)
  | 5 => View.ld x1 (Rect.unit (s := S3584x64) ![2560, 0] S512x64.size inb_S3584x64_S512x64_2560_0)
  | _ => View.ld x1 (Rect.unit (s := S3584x64) ![3072, 0] S512x64.size inb_S3584x64_S512x64_3072_0)

def fc2 (x2 : Vec F S1024x128 .f32) : Nat → Vec F S512x128 .f32
  | 0 => View.ld x2 (Rect.unit (s := S1024x128) ![0, 0] S512x128.size inb_S1024x128_S512x128_0_0)
  | _ => View.ld x2 (Rect.unit (s := S1024x128) ![512, 0] S512x128.size inb_S1024x128_S512x128_512_0)

def fc3 (x3 : Vec F S512x256 .f32) : Nat → Vec F S512x256 .f32 :=
  fun _ => View.ld x3 (Rect.unit (s := S512x256) ![0, 0] S512x256.size inb_S512x256_S512x256_0_0)

def fc4 (x4 : Vec F S512x512 .f32) : Nat → Vec F S512x512 .f32 :=
  fun _ => View.ld x4 (Rect.unit (s := S512x512) ![0, 0] S512x512.size inb_S512x512_S512x512_0_0)

/-- The pieces the body leaves in a block of the result: the coordinates in columns 0–2 and the four maps' samples in
    columns 3–66, 67–194, 195–450 and 451–962, last stored first. -/
def blockPieces (x0 : Vec F S1024x3 .f32) (x1 : Vec F S3584x64 .f32) (x2 : Vec F S1024x128 .f32) (x3 : Vec F S512x256 .f32)
    (x4 : Vec F S512x512 .f32) : List (View.Piece (Elt F) S1024x963 .f32) :=
  [⟨Rect.unit (s := S1024x963) ![0, 451] S1024x512.size inb_S1024x963_S1024x512_0_451,
      levelVec dot_S1024x512_S512x512_S1024x512_1_0_0_1_n_n shapeCasts_S512x512_S512x512 0x42000000#32 6#32 7#32 x0 (fc4 x4) 1⟩,
    ⟨Rect.unit (s := S1024x963) ![0, 195] S1024x256.size inb_S1024x963_S1024x256_0_195,
      levelVec dot_S1024x512_S512x256_S1024x256_1_0_0_1_n_n shapeCasts_S512x256_S512x256 0x41800000#32 13#32 14#32 x0 (fc3 x3) 1⟩,
    ⟨Rect.unit (s := S1024x963) ![0, 67] S1024x128.size inb_S1024x963_S1024x128_0_67,
      levelVec dot_S1024x512_S512x128_S1024x128_1_0_0_1_n_n shapeCasts_S512x128_S512x128 0x41000000#32 27#32 28#32 x0 (fc2 x2) 2⟩,
    ⟨Rect.unit (s := S1024x963) ![0, 3] S1024x64.size inb_S1024x963_S1024x64_0_3,
      levelVec dot_S1024x512_S512x64_S1024x64_1_0_0_1_n_n shapeCasts_S512x64_S512x64 0x40800000#32 55#32 56#32 x0 (fc1 x1) 7⟩,
    ⟨Rect.unit (s := S1024x963) ![0, 0] S1024x3.size inb_S1024x963_S1024x3_0_0, x0⟩]

set_option maxHeartbeats 4000000 in
/-- THE BODY'S STORES ARE THOSE PIECES: the stored values are the same operations in the same order. -/
theorem run_pieces (c : Dev nD) (i : grid0.Coords) (arg1 : Memref sig .tc .vmem S1024x3 .f32) (harg1 : arg1.IsWhole) (arg2 : Memref sig .tc .vmem S3584x64 .f32) (harg2 : arg2.IsWhole) (arg3 : Memref sig .tc .vmem S1024x128 .f32) (harg3 : arg3.IsWhole) (arg4 : Memref sig .tc .vmem S512x256 .f32) (harg4 : arg4.IsWhole) (arg5 : Memref sig .tc .vmem S512x512 .f32) (harg5 : arg5.IsWhole) (arg6 : Memref sig .tc .vmem S1024x963 .f32) (harg6 : arg6.IsWhole) (x0 : Vec F S1024x3 .f32) (x1 : Vec F S3584x64 .f32) (x2 : Vec F S1024x128 .f32) (x3 : Vec F S512x256 .f32) (x4 : Vec F S512x512 .f32) :
    (kernelRun0_A c i arg1 harg1 arg2 harg2 arg3 harg3 arg4 harg4 arg5 harg5 arg6 harg6 x0 x1 x2 x3 x4).1 = blockPieces x0 x1 x2 x3 x4 := by
  unfold kernelRun0_A
  dsimp only
  sl_unfold_words
  have hz : (![0, 0] : Fin 2 → Nat) = fun _ => 0 := funext fun a => by fin_cases a <;> rfl
  simp only [View.readAt_eq_ld, harg1.read_unread, harg2.read_unread, harg3.read_unread, harg4.read_unread, harg5.read_unread,
    View.ld_unit_zero (S := S1024x3) hz]
  rfl

end Pieces

/-! ## What a block of the result holds -/

section Block

open Cert.LibERealStats

/-- 512 consecutive rows of a flattened map, read at a row and a channel, are the channel's column there. -/
theorem ld_rows {R C : Nat} (X : Vec Ideal (⟨2, ![R, C]⟩ : Shape) .f32) (o : Nat)
    (inb : ∀ a, (![o, 0] : Fin 2 → Nat) a + (![512, C] : Fin 2 → Nat) a ≤ (⟨2, ![R, C]⟩ : Shape).size a)
    (k : Fin 512) (cc : Fin C) :
    View.ld (Val := Elt Ideal) (e' := .f32) X (Rect.unit (s := (⟨2, ![R, C]⟩ : Shape)) ![o, 0] ![512, C] inb) (ix2 k cc)
      = column X cc (o + k.val) := by
  have hlt : o + k.val < R := by
    have h0 := inb 0
    have hk := k.isLt
    simp at h0
    omega
  unfold column
  rw [dif_pos hlt]
  show X ((Rect.unit (s := (⟨2, ![R, C]⟩ : Shape)) ![o, 0] ![512, C] inb).idx (ix2 k cc)) = _
  congr 1
  funext a
  apply Fin.ext
  match a with
  | ⟨0, _⟩ => show o + 1 * k.val = o + k.val; omega
  | ⟨1, _⟩ => show 0 + 1 * cc.val = cc.val; omega

end Block

section Block2

open Cert.LibERealStats

theorem hG1 (x1 : Vec Ideal S3584x64 .f32) (cc : Fin 64) :
    ∀ i, i < 7 → ∀ k : Fin 512, fc1 x1 i (ix2 k cc) = column x1 cc (512 * i + k.val) := by
  intro i hi k
  interval_cases i
  · exact ld_rows x1 0 _ k cc
  · exact ld_rows x1 512 _ k cc
  · exact ld_rows x1 1024 _ k cc
  · exact ld_rows x1 1536 _ k cc
  · exact ld_rows x1 2048 _ k cc
  · exact ld_rows x1 2560 _ k cc
  · exact ld_rows x1 3072 _ k cc

theorem hG2 (x2 : Vec Ideal S1024x128 .f32) (cc : Fin 128) :
    ∀ i, i < 2 → ∀ k : Fin 512, fc2 x2 i (ix2 k cc) = column x2 cc (512 * i + k.val) := by
  intro i hi k
  interval_cases i
  · exact ld_rows x2 0 _ k cc
  · exact ld_rows x2 512 _ k cc

theorem hG3 (x3 : Vec Ideal S512x256 .f32) (cc : Fin 256) :
    ∀ i, i < 1 → ∀ k : Fin 512, fc3 x3 i (ix2 k cc) = column x3 cc (512 * i + k.val) := by
  intro i hi k
  interval_cases i
  exact ld_rows x3 0 _ k cc

theorem hG4 (x4 : Vec Ideal S512x512 .f32) (cc : Fin 512) :
    ∀ i, i < 1 → ∀ k : Fin 512, fc4 x4 i (ix2 k cc) = column x4 cc (512 * i + k.val) := by
  intro i hi k
  interval_cases i
  exact ld_rows x4 0 _ k cc

/-- Where a rectangle of all 1024 rows and `w` columns from column `o` puts its entry `(r, cc)`. -/
theorem emb_cols (o w : Nat)
    (inb : ∀ a, (![0, o] : Fin 2 → Nat) a + (![1024, w] : Fin 2 → Nat) a ≤ S1024x963.size a) (r : Fin 1024) (cc : Fin w)
    (h : o + cc.val < 963) :
    (Rect.unit (s := S1024x963) ![0, o] ![1024, w] inb).emb (ix2 r cc) = ix2 r ⟨o + cc.val, h⟩ := by
  funext a
  apply Fin.ext
  match a with
  | ⟨0, _⟩ => show 0 + 1 * r.val = r.val; omega
  | ⟨1, _⟩ => show o + 1 * cc.val = o + cc.val; omega

variable (x0 : (⟨2, ![1024, 3]⟩ : Shape).Idx → EReal)
  (x1 : (⟨2, ![3584, 64]⟩ : Shape).Idx → EReal) (x2 : (⟨2, ![1024, 128]⟩ : Shape).Idx → EReal)
  (x3 : (⟨2, ![512, 256]⟩ : Shape).Idx → EReal) (x4 : (⟨2, ![512, 512]⟩ : Shape).Idx → EReal)

/-- A block's entries by column range. -/
theorem blockResult_c0 (r : Fin 1024) (k : Fin 3) :
    blockResult x0 x1 x2 x3 x4 (ix2 r ⟨0 + k.val, by omega⟩) = x0 (ix2 r k) := by
  unfold blockResult
  have hk : (0 + k.val) < 3 := by omega
  simp only [ix2]
  rw [dif_pos (by simpa using k.isLt)]
  congr 1
  funext a
  match a with
  | ⟨0, _⟩ => rfl
  | ⟨1, _⟩ => exact Fin.ext (by simp)

theorem blockResult_c1 (r : Fin 1024) (cc : Fin 64) :
    blockResult x0 x1 x2 x3 x4 (ix2 r ⟨3 + cc.val, by omega⟩)
      = flatLevel 56 55#32 0x40800000#32 x1 (x0 (ix2 r (0 : Fin 3))) (x0 (ix2 r (1 : Fin 3))) (x0 (ix2 r (2 : Fin 3))) cc := by
  unfold blockResult
  have hc := cc.isLt
  simp only [ix2]
  rw [dif_neg (by first | omega | (simp only [Fin.val_mk]; omega) | (simp; omega)), dif_pos (by first | omega | (simp only [Fin.val_mk]; omega) | (simp; omega))]
  congr 1
  exact Fin.ext (by simp)

theorem blockResult_c2 (r : Fin 1024) (cc : Fin 128) :
    blockResult x0 x1 x2 x3 x4 (ix2 r ⟨67 + cc.val, by omega⟩)
      = flatLevel 28 27#32 0x41000000#32 x2 (x0 (ix2 r (0 : Fin 3))) (x0 (ix2 r (1 : Fin 3))) (x0 (ix2 r (2 : Fin 3))) cc := by
  unfold blockResult
  have hc := cc.isLt
  simp only [ix2]
  rw [dif_neg (by first | omega | (simp only [Fin.val_mk]; omega) | (simp; omega)), dif_neg (by first | omega | (simp only [Fin.val_mk]; omega) | (simp; omega)), dif_pos (by first | omega | (simp only [Fin.val_mk]; omega) | (simp; omega))]
  congr 1
  exact Fin.ext (by simp)

theorem blockResult_c3 (r : Fin 1024) (cc : Fin 256) :
    blockResult x0 x1 x2 x3 x4 (ix2 r ⟨195 + cc.val, by omega⟩)
      = flatLevel 14 13#32 0x41800000#32 x3 (x0 (ix2 r (0 : Fin 3))) (x0 (ix2 r (1 : Fin 3))) (x0 (ix2 r (2 : Fin 3))) cc := by
  unfold blockResult
  have hc := cc.isLt
  simp only [ix2]
  rw [dif_neg (by first | omega | (simp only [Fin.val_mk]; omega) | (simp; omega)), dif_neg (by first | omega | (simp only [Fin.val_mk]; omega) | (simp; omega)), dif_neg (by first | omega | (simp only [Fin.val_mk]; omega) | (simp; omega)), dif_pos (by first | omega | (simp only [Fin.val_mk]; omega) | (simp; omega))]
  congr 1
  exact Fin.ext (by simp)

theorem blockResult_c4 (r : Fin 1024) (cc : Fin 512) :
    blockResult x0 x1 x2 x3 x4 (ix2 r ⟨451 + cc.val, by omega⟩)
      = flatLevel 7 6#32 0x42000000#32 x4 (x0 (ix2 r (0 : Fin 3))) (x0 (ix2 r (1 : Fin 3))) (x0 (ix2 r (2 : Fin 3))) cc := by
  unfold blockResult
  have hc := cc.isLt
  simp only [ix2]
  rw [dif_neg (by first | omega | (simp only [Fin.val_mk]; omega) | (simp; omega)), dif_neg (by first | omega | (simp only [Fin.val_mk]; omega) | (simp; omega)), dif_neg (by first | omega | (simp only [Fin.val_mk]; omega) | (simp; omega)), dif_neg (by first | omega | (simp only [Fin.val_mk]; omega) | (simp; omega))]
  congr 1
  exact Fin.ext (by simp)

end Block2

section Block3

open Cert.LibERealStats

/-- One map's piece of the block: the kernel's samples, stored in the `C` columns from column `o`, are the block's
    entries there — given that the block's entries in those columns are the samples through the flattened map `flat`
    (`hB`), that the chunks loaded are `flat`'s rows 512 at a time (`hG`), and that `flat`'s entries are real. -/
theorem piece_level {C R : Nat} (o : Nat) (ho : o + C ≤ 963)
    (d : DotDims S1024x512 (⟨2, ![512, C]⟩ : Shape) (⟨2, ![1024, C]⟩ : Shape))
    (hlc : d.lhsContracting = [1]) (hrc : d.rhsContracting = [0]) (hln : d.lhsNonContracting = [0])
    (hrn : d.rhsNonContracting = [1]) (hlb : d.lhsBatch = []) (hrb : d.rhsBatch = [])
    (hc : (⟨2, ![512, C]⟩ : Shape).ShapeCasts ⟨2, ![512, C]⟩)
    (s last : BitVec 32) (H : Nat) (hH : 0 < H) (hH56 : H ≤ 56) (hlast : last.toNat = H - 1)
    (hs : s = 0x40800000#32 ∨ s = 0x41000000#32 ∨ s = 0x41800000#32 ∨ s = 0x42000000#32)
    (n : Nat) (hn : 512 * n ≤ 2 ^ 31) (hcov : H * H ≤ 512 * n)
    (x0 : Vec Ideal S1024x3 .f32) (flat : Vec Ideal (⟨2, ![R, C]⟩ : Shape) .f32) (hfin : ∀ i, IsFin (flat i))
    (fc : Nat → Vec Ideal (⟨2, ![512, C]⟩ : Shape) .f32)
    (hG : ∀ cc : Fin C, ∀ i, i < n → ∀ k : Fin 512, fc i (ix2 k cc) = column flat cc (512 * i + k.val))
    (B : S1024x963.Idx → EReal)
    (hB : ∀ (r : Fin 1024) (cc : Fin C) (h : o + cc.val < 963), B (ix2 r ⟨o + cc.val, h⟩)
      = flatLevel H last s flat (x0 (ix2 r (0 : Fin 3))) (x0 (ix2 r (1 : Fin 3))) (x0 (ix2 r (2 : Fin 3))) cc)
    (inb : ∀ a, (![0, o] : Fin 2 → Nat) a + (![1024, C] : Fin 2 → Nat) a ≤ S1024x963.size a)
    (x : (Rect.unit (s := S1024x963) ![0, o] ![1024, C] inb).shape.Idx) :
    levelVec d hc s last (BitVec.ofNat 32 H) x0 fc n x = B ((Rect.unit (s := S1024x963) ![0, o] ![1024, C] inb).emb x) := by
  obtain ⟨r, cc, rfl⟩ : ∃ (r : Fin 1024) (cc : Fin C), x = ix2 r cc := ⟨x 0, x 1, eq_ix2 x⟩
  have hcc := cc.isLt
  rw [emb_cols o C inb r cc (by omega), hB]
  exact levelVec_eq_flatLevel d hlc hrc hln hrn hlb hrb hc s last H R hH hH56 hlast hs n hn hcov x0 flat hfin fc r cc (hG cc)

/-- The coordinates' piece of the block. -/
theorem piece_coords (x0 : Vec Ideal S1024x3 .f32) (x1 : Vec Ideal S3584x64 .f32) (x2 : Vec Ideal S1024x128 .f32)
    (x3 : Vec Ideal S512x256 .f32) (x4 : Vec Ideal S512x512 .f32)
    (x : (Rect.unit (s := S1024x963) ![0, 0] S1024x3.size inb_S1024x963_S1024x3_0_0).shape.Idx) :
    x0 x = blockResult x0 x1 x2 x3 x4 ((Rect.unit (s := S1024x963) ![0, 0] S1024x3.size inb_S1024x963_S1024x3_0_0).emb x) := by
  obtain ⟨r, k, rfl⟩ : ∃ (r : Fin 1024) (k : Fin 3), x = ix2 r k := ⟨x 0, x 1, eq_ix2 x⟩
  have hk := k.isLt
  rw [show (Rect.unit (s := S1024x963) ![0, 0] S1024x3.size inb_S1024x963_S1024x3_0_0).emb (ix2 r k)
      = ix2 r ⟨0 + k.val, by omega⟩ from emb_cols 0 3 _ r k _, blockResult_c0]

set_option maxHeartbeats 2000000 in
/-- A BLOCK OF THE KERNEL'S RESULT, as the body leaves it, is `blockResult` of the block of coordinates and the four
    flattened maps, when the maps' entries are real numbers. -/
theorem block_apply (c : Dev nD) (i : grid0.Coords) (arg1 : Memref sig .tc .vmem S1024x3 .f32) (harg1 : arg1.IsWhole) (arg2 : Memref sig .tc .vmem S3584x64 .f32) (harg2 : arg2.IsWhole) (arg3 : Memref sig .tc .vmem S1024x128 .f32) (harg3 : arg3.IsWhole) (arg4 : Memref sig .tc .vmem S512x256 .f32) (harg4 : arg4.IsWhole) (arg5 : Memref sig .tc .vmem S512x512 .f32) (harg5 : arg5.IsWhole) (arg6 : Memref sig .tc .vmem S1024x963 .f32) (harg6 : arg6.IsWhole) (x0 : Vec Ideal S1024x3 .f32) (x1 : Vec Ideal S3584x64 .f32) (x2 : Vec Ideal S1024x128 .f32) (x3 : Vec Ideal S512x256 .f32) (x4 : Vec Ideal S512x512 .f32)
    (h1 : ∀ i, IsFin (x1 i)) (h2 : ∀ i, IsFin (x2 i)) (h3 : ∀ i, IsFin (x3 i)) (h4 : ∀ i, IsFin (x4 i)) (y : S1024x963.Idx) :
    out0_A_5 (F := Ideal) c i arg1 harg1 arg2 harg2 arg3 harg3 arg4 harg4 arg5 harg5 arg6 harg6 x0 x1 x2 x3 x4 y = blockResult x0 x1 x2 x3 x4 y := by
  unfold out0_A_5
  rw [View.read_writes_eq_canon _ _ _ (cover0_A_5 c i arg1 harg1 arg2 harg2 arg3 harg3 arg4 harg4 arg5 harg5 arg6 harg6 x0 x1 x2 x3 x4)]
  refine View.canon_apply_of_pieces (blockResult x0 x1 x2 x3 x4) _ ?_ y (cover0_A_5 c i arg1 harg1 arg2 harg2 arg3 harg3 arg4 harg4 arg5 harg5 arg6 harg6 x0 x1 x2 x3 x4 y)
  rw [run_pieces]
  intro p hp
  unfold blockPieces at hp
  simp only [List.mem_cons, List.not_mem_nil, or_false] at hp
  rcases hp with rfl | rfl | rfl | rfl | rfl
  · exact piece_level 451 (by norm_num) dot_S1024x512_S512x512_S1024x512_1_0_0_1_n_n rfl rfl rfl rfl rfl rfl
      shapeCasts_S512x512_S512x512 0x42000000#32 6#32 7 (by norm_num) (by norm_num) (by decide)
      (Or.inr (Or.inr (Or.inr rfl))) 1 (by norm_num) (by norm_num) x0 x4 h4 (fc4 x4) (hG4 x4) _
      (fun r cc _ => blockResult_c4 x0 x1 x2 x3 x4 r cc) inb_S1024x963_S1024x512_0_451
  · exact piece_level 195 (by norm_num) dot_S1024x512_S512x256_S1024x256_1_0_0_1_n_n rfl rfl rfl rfl rfl rfl
      shapeCasts_S512x256_S512x256 0x41800000#32 13#32 14 (by norm_num) (by norm_num) (by decide)
      (Or.inr (Or.inr (Or.inl rfl))) 1 (by norm_num) (by norm_num) x0 x3 h3 (fc3 x3) (hG3 x3) _
      (fun r cc _ => blockResult_c3 x0 x1 x2 x3 x4 r cc) inb_S1024x963_S1024x256_0_195
  · exact piece_level 67 (by norm_num) dot_S1024x512_S512x128_S1024x128_1_0_0_1_n_n rfl rfl rfl rfl rfl rfl
      shapeCasts_S512x128_S512x128 0x41000000#32 27#32 28 (by norm_num) (by norm_num) (by decide)
      (Or.inr (Or.inl rfl)) 2 (by norm_num) (by norm_num) x0 x2 h2 (fc2 x2) (hG2 x2) _
      (fun r cc _ => blockResult_c2 x0 x1 x2 x3 x4 r cc) inb_S1024x963_S1024x128_0_67
  · exact piece_level 3 (by norm_num) dot_S1024x512_S512x64_S1024x64_1_0_0_1_n_n rfl rfl rfl rfl rfl rfl
      shapeCasts_S512x64_S512x64 0x40800000#32 55#32 56 (by norm_num) (by norm_num) (by decide)
      (Or.inl rfl) 7 (by norm_num) (by norm_num) x0 x1 h1 (fc1 x1) (hG1 x1) _
      (fun r cc _ => blockResult_c1 x0 x1 x2 x3 x4 r cc) inb_S1024x963_S1024x64_0_3
  · exact piece_coords x0 x1 x2 x3 x4

end Block3

end Cert.Bilinear

end
-- ==== Proof.Inputs.lean ====
/-
  What the kernel is given.

  (1) The precondition says every float input is finite; read entry by entry, every entry of the four feature maps is a
      real number.
  (2) Before its one launch the kernel's program flattens each H × H × C map to H·H rows of C channels (row  a · H + b  is
      cell (a, b)) and pads it with zero rows up to a multiple of 512 rows: row j of the padded array is cell
      (j / H, j % H) of the map for j < H·H and zero from there on.
-/
import proofs.«122278_j57483842289710_1_alg».proof.Defs
import proofs.«122278_j57483842289710_1_alg».proof.Proof.Gen.KernelIdeal.Frame
import proofs.«122278_j57483842289710_1_alg».proof.Proof.Gen.Pre_finite_inputs
import proofs.«122278_j57483842289710_1_alg».proof.Proof.LibERealStats
import Idealize.ShloMosaic.Lib.ValueIdx
import Idealize.ShloMosaic.Lib.ReduceAll
import Idealize.ShloMosaic.Lib.KernelVsHost
import Idealize.ShloMosaic.Lib.Pipeline.Value
import Idealize.ShloMosaic.Lib.StableHlo.Run

noncomputable section

namespace Cert.Bilinear

open Idealize.ShloMosaic Idealize.ShloMosaic.TcCoe Idealize.ShloMosaic.ValueIdx Idealize.SL.Sem
open Cert.KernelIdeal Cert.KernelIdeal.Gen Cert.LibERealStats

/-! ### A compare bit read back -/

/-- The bit of a strict comparison is set only if the comparison holds. -/
private theorem lt_of_cmp_olt {a b : EReal} (h : Ideal.cmp .olt a b = 1#1) : a < b := by
  have h' : BitVec.ofBool (decide (a < b)) = 1#1 := h
  by_contra hn
  rw [decide_eq_false hn] at h'
  exact absurd h' (by decide)

/-- An extended real whose absolute value  max x (-x)  lies strictly below the f32 word of +∞ is a real number. -/
private theorem real_of_abs_lt_inf (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  have hlt : max x (-x) < ⊤ := htop ▸ lt_of_cmp_olt h
  rw [max_lt_iff] at hlt
  exact ⟨lt_top_iff_ne_top.1 hlt.1, fun hb => (lt_top_iff_ne_top.1 hlt.2) (EReal.neg_eq_top_iff.2 hb)⟩

/-- If the conjunction over all entries of  |x i| < +∞  is 1, every entry of x is a real number. -/
private theorem entries_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : (x i : EReal) ≠ ⊤ ∧ (x i : EReal) ≠ ⊥ := by
  haveI : Subsingleton Cert.Pre_finite_inputs.S_.Idx := ⟨fun a b => funext fun d => d.elim0⟩
  exact real_of_abs_lt_inf (x i) (Host.reduce_andi_all _ _ hr hu _ e i)

/-! ### A flattened map, padded with rows below -/

/-- An H × H × C array flattened to H·H rows of C entries and padded below with rows of a value that is zero, read at
    row j and channel cc: cell (j / H, j % H) of the array for j < H·H, zero from there on. -/
private theorem pad_flat_apply {H C N R hi : Nat} (hN : N = H * H) (hH : 0 < H)
    (x : (⟨3, ![H, H, C]⟩ : Shape).Idx → EReal)
    (hc : (⟨3, ![H, H, C]⟩ : Shape).ShapeCasts ⟨2, ![N, C]⟩)
    {u : Shape} (v : u.Idx → EReal)
    (hp : (⟨2, ![N, C]⟩ : Shape).Pads (![0, 0] : Fin 2 → Nat) ![hi, 0] ![0, 0] ⟨2, ![R, C]⟩)
    (hu : 0 < u.numel) (hv : v (Shape.Idx.first hu) = 0) (j : Fin R) (cc : Fin C) :
    pad ⟨2, ![R, C]⟩ ![0, 0] ![hi, 0] ![0, 0] (shapeCast ⟨2, ![N, C]⟩ x hc) v hp hu (ix2 j cc)
      = if h : j.val < N then
          x (ix3 ⟨j.val / H, Nat.div_lt_of_lt_mul (hN ▸ h)⟩ ⟨j.val % H, Nat.mod_lt _ hH⟩ cc)
        else 0 := by
  by_cases h : j.val < N
  · rw [dif_pos h]
    refine (pad_apply_of_inside _ _ _ _ v hp hu (ix2 j cc) (ix2 (⟨j.val, h⟩ : Fin N) cc) ?_).trans ?_
    · intro a
      match a with
      | ⟨0, _⟩ => show j.val = 0 + j.val * (0 + 1); omega
      | ⟨1, _⟩ => show cc.val = 0 + cc.val * (0 + 1); omega
    · refine shapeCast_apply x hc _ _ ?_
      rw [Shape.rowMajor_val_three, Shape.rowMajor_val_two]
      show (j.val / H * H + j.val % H) * C + cc.val = j.val * C + cc.val
      rw [Nat.div_add_mod']
  · rw [dif_neg h]
    refine (pad_apply_of_not_inside _ _ _ _ v hp hu (ix2 j cc) (0 : Fin 2) ?_).trans hv
    intro hin
    have e : (j.val - 0) / (0 + 1) < N := hin.2.2
    rw [Nat.sub_zero, Nat.zero_add, Nat.div_one] at e
    exact h e

/-- The f32 conversion of the integer word 0, the value the rows below are filled with, is zero. -/
private theorem padValue_zero (hu : 0 < S_.numel) :
    (sitofp .f32 (constantI S_ 32 0#32) : FVec Ideal S_ .f32) (Shape.Idx.first hu) = 0 :=
  sitofp_zero

/-! ### Finite inputs -/

/-- Under the precondition every entry of each of the four feature maps is a real number. -/
theorem maps_finite [hP : Cert.Pre_finite_inputs.Facts] (m : (ℓ : Loc nD τ sig) → Buf (Elt Ideal) ℓ)
    (h : Cert.Pre_KernelIdeal m) (c : Dev nD) :
    (∀ i : S56x56x64.Idx, IsFin ((m ((c.tc : Thread nD τ).loc main_arg1) : S56x56x64.Idx → EReal) i))
    ∧ (∀ i : S28x28x128.Idx, IsFin ((m ((c.tc : Thread nD τ).loc main_arg2) : S28x28x128.Idx → EReal) i))
    ∧ (∀ i : S14x14x256.Idx, IsFin ((m ((c.tc : Thread nD τ).loc main_arg3) : S14x14x256.Idx → EReal) i))
    ∧ (∀ i : S7x7x512.Idx, IsFin ((m ((c.tc : Thread nD τ).loc main_arg4) : S7x7x512.Idx → EReal) i)) := by
  have h1 := congrFun (h c) ValueIdx.ix0
  dsimp only [Cert.Pre_finite_inputs.fn, Cert.Pre_finite_inputs.fn_part1] at h1
  obtain ⟨h1234, h5⟩ := IntOp.andi_eq_one.1 h1
  obtain ⟨h123, h4⟩ := IntOp.andi_eq_one.1 h1234
  obtain ⟨h12, h3⟩ := IntOp.andi_eq_one.1 h123
  obtain ⟨-, h2⟩ := IntOp.andi_eq_one.1 h12
  exact ⟨fun i => isFin_iff.2 (entries_real _ _ _ _ h2 i), fun i => isFin_iff.2 (entries_real _ _ _ _ h3 i),
    fun i => isFin_iff.2 (entries_real _ _ _ _ h4 i), fun i => isFin_iff.2 (entries_real _ _ _ _ h5 i)⟩

/-! ### The flattened, padded maps the launch finds -/

/-- Row `j` of the first padded map: cell `(j / 56, j % 56)` for `j < 56 · 56`, zero below. -/
theorem V_main_v1_apply (m : (ℓ : Loc nD τ sig) → Buf (Elt Ideal) ℓ) (c : Dev nD) (j : Fin 3584) (cc : Fin 64) :
    (V (F := Ideal) m c main_v1 : S3584x64.Idx → EReal) (ix2 j cc)
      = if h : j.val < 3136 then
          (m ((c.tc : Thread nD τ).loc main_arg1) : S56x56x64.Idx → EReal)
            (ix3 ⟨j.val / 56, by omega⟩ ⟨j.val % 56, Nat.mod_lt _ (by norm_num)⟩ cc)
        else (0 : EReal) := by
  have e : (V (F := Ideal) m c main_v1 : S3584x64.Idx → EReal)
      = pad S3584x64 ![0, 0] ![448, 0] ![0, 0]
          (shapeCast S3136x64 (m ((c.tc : Thread nD τ).loc main_arg1) : S56x56x64.Idx → EReal) shapeCasts_S56x56x64_S3136x64)
          (sitofp .f32 (constantI S_ 32 0#32) : FVec Ideal S_ .f32) pads_S3136x64_S3584x64_04480_000 h_S_ := by
    dsimp only [V]
    simp only [hostOps0, hostOps0_1, hostOps0_2, hostOps0_3, hostOps0_4, hostOps0_5, hostOps0_6, hostOps0_7,
      List.flatten_cons, List.flatten_nil, List.append_nil, List.cons_append, List.nil_append]
    after_results
    rfl
  exact (congrFun e (ix2 j cc)).trans
    (pad_flat_apply (H := 56) (N := 3136) rfl (by norm_num) _ shapeCasts_S56x56x64_S3136x64 _
      pads_S3136x64_S3584x64_04480_000 h_S_ (padValue_zero h_S_) j cc)

/-- Row `j` of the second padded map: cell `(j / 28, j % 28)` for `j < 28 · 28`, zero below. -/
theorem V_main_v3_apply (m : (ℓ : Loc nD τ sig) → Buf (Elt Ideal) ℓ) (c : Dev nD) (j : Fin 1024) (cc : Fin 128) :
    (V (F := Ideal) m c main_v3 : S1024x128.Idx → EReal) (ix2 j cc)
      = if h : j.val < 784 then
          (m ((c.tc : Thread nD τ).loc main_arg2) : S28x28x128.Idx → EReal)
            (ix3 ⟨j.val / 28, by omega⟩ ⟨j.val % 28, Nat.mod_lt _ (by norm_num)⟩ cc)
        else (0 : EReal) := by
  have e : (V (F := Ideal) m c main_v3 : S1024x128.Idx → EReal)
      = pad S1024x128 ![0, 0] ![240, 0] ![0, 0]
          (shapeCast S784x128 (m ((c.tc : Thread nD τ).loc main_arg2) : S28x28x128.Idx → EReal) shapeCasts_S28x28x128_S784x128)
          (sitofp .f32 (constantI S_ 32 0#32) : FVec Ideal S_ .f32) pads_S784x128_S1024x128_02400_000 h_S_ := by
    dsimp only [V]
    simp only [hostOps0, hostOps0_1, hostOps0_2, hostOps0_3, hostOps0_4, hostOps0_5, hostOps0_6, hostOps0_7,
      List.flatten_cons, List.flatten_nil, List.append_nil, List.cons_append, List.nil_append]
    after_results
    rfl
  exact (congrFun e (ix2 j cc)).trans
    (pad_flat_apply (H := 28) (N := 784) rfl (by norm_num) _ shapeCasts_S28x28x128_S784x128 _
      pads_S784x128_S1024x128_02400_000 h_S_ (padValue_zero h_S_) j cc)

/-- Row `j` of the third padded map: cell `(j / 14, j % 14)` for `j < 14 · 14`, zero below. -/
theorem V_main_v5_apply (m : (ℓ : Loc nD τ sig) → Buf (Elt Ideal) ℓ) (c : Dev nD) (j : Fin 512) (cc : Fin 256) :
    (V (F := Ideal) m c main_v5 : S512x256.Idx → EReal) (ix2 j cc)
      = if h : j.val < 196 then
          (m ((c.tc : Thread nD τ).loc main_arg3) : S14x14x256.Idx → EReal)
            (ix3 ⟨j.val / 14, by omega⟩ ⟨j.val % 14, Nat.mod_lt _ (by norm_num)⟩ cc)
        else (0 : EReal) := by
  have e : (V (F := Ideal) m c main_v5 : S512x256.Idx → EReal)
      = pad S512x256 ![0, 0] ![316, 0] ![0, 0]
          (shapeCast S196x256 (m ((c.tc : Thread nD τ).loc main_arg3) : S14x14x256.Idx → EReal) shapeCasts_S14x14x256_S196x256)
          (sitofp .f32 (constantI S_ 32 0#32) : FVec Ideal S_ .f32) pads_S196x256_S512x256_03160_000 h_S_ := by
    dsimp only [V]
    simp only [hostOps0, hostOps0_1, hostOps0_2, hostOps0_3, hostOps0_4, hostOps0_5, hostOps0_6, hostOps0_7,
      List.flatten_cons, List.flatten_nil, List.append_nil, List.cons_append, List.nil_append]
    after_results
    rfl
  exact (congrFun e (ix2 j cc)).trans
    (pad_flat_apply (H := 14) (N := 196) rfl (by norm_num) _ shapeCasts_S14x14x256_S196x256 _
      pads_S196x256_S512x256_03160_000 h_S_ (padValue_zero h_S_) j cc)

/-- Row `j` of the fourth padded map: cell `(j / 7, j % 7)` for `j < 7 · 7`, zero below. -/
theorem V_main_v7_apply (m : (ℓ : Loc nD τ sig) → Buf (Elt Ideal) ℓ) (c : Dev nD) (j : Fin 512) (cc : Fin 512) :
    (V (F := Ideal) m c main_v7 : S512x512.Idx → EReal) (ix2 j cc)
      = if h : j.val < 49 then
          (m ((c.tc : Thread nD τ).loc main_arg4) : S7x7x512.Idx → EReal)
            (ix3 ⟨j.val / 7, by omega⟩ ⟨j.val % 7, Nat.mod_lt _ (by norm_num)⟩ cc)
        else (0 : EReal) := by
  have e : (V (F := Ideal) m c main_v7 : S512x512.Idx → EReal)
      = pad S512x512 ![0, 0] ![463, 0] ![0, 0]
          (shapeCast S49x512 (m ((c.tc : Thread nD τ).loc main_arg4) : S7x7x512.Idx → EReal) shapeCasts_S7x7x512_S49x512)
          (sitofp .f32 (constantI S_ 32 0#32) : FVec Ideal S_ .f32) pads_S49x512_S512x512_04630_000 h_S_ := by
    dsimp only [V]
    simp only [hostOps0, hostOps0_1, hostOps0_2, hostOps0_3, hostOps0_4, hostOps0_5, hostOps0_6, hostOps0_7,
      List.flatten_cons, List.flatten_nil, List.append_nil, List.cons_append, List.nil_append]
    after_results
    rfl
  exact (congrFun e (ix2 j cc)).trans
    (pad_flat_apply (H := 7) (N := 49) rfl (by norm_num) _ shapeCasts_S7x7x512_S49x512 _
      pads_S49x512_S512x512_04630_000 h_S_ (padValue_zero h_S_) j cc)

end Cert.Bilinear

end
-- ==== Proof.KernelValue.lean ====
/-
  The kernel's result array is `result` of the five input arrays.

  The launch runs the body at 128 points; point t is given rows 1024 t … 1024 t + 1023 of the coordinates and the four
  flattened, padded maps whole, and writes back rows 1024 t … 1024 t + 1023 of the result. What it writes back is that
  block of `result` (the body's block over the flattened maps, which is `result`'s block because the flattened maps are
  the maps); the 128 blocks tile the result array.
-/
import proofs.«122278_j57483842289710_1_alg».proof.Proof.Gen.KernelIdeal.Value
import proofs.«122278_j57483842289710_1_alg».proof.Proof.KernelBlock
import proofs.«122278_j57483842289710_1_alg».proof.Proof.BlockSpec
import proofs.«122278_j57483842289710_1_alg».proof.Proof.Inputs

set_option maxRecDepth 16384

noncomputable section

namespace Cert.Bilinear

open Idealize.ShloMosaic Idealize.ShloMosaic.TcCoe Idealize.ShloMosaic.ValueIdx Idealize.SL.Sem
open Cert.KernelIdeal Cert.KernelIdeal.Gen Cert.KernelIdeal.Value Cert.LibERealStats
open Idealize.ShloMosaic.Pipeline (Dat)

variable (m : (ℓ : Loc nD τ sig) → Buf (Elt Ideal) ℓ) (ρ : Dev nD → PrngReg)

/-- `result` of the five arrays as launched on core `c`. -/
def res (c : Dev nD) : S131072x963.Idx → EReal :=
  result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The index maps over the 128 points: the coordinates' and the result's blocks move with the point, the maps' stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s block of the coordinates: rows `1024 t …`. -/
theorem iblk0_apply (c : Dev nD) (t : Fin cfg0.N) (r : Fin 1024) (k : Fin 3) :
    iblk m c 0 t (ix2 r k)
      = (m ((c.tc : Thread nD τ).loc main_arg0) : S131072x3.Idx → EReal)
          (ix2 ⟨1024 * t.val + r.val, by have ht : t.val < 128 := t.isLt; have := r.isLt; show _ < 131072; omega⟩ k) := by
  obtain ⟨e0, e1, -⟩ := idx_facts t
  show V m c main_arg0 (((cfg0.win 0).blk t).view.emb (ix2 r k)) = _
  rw [V_main_arg0]
  congr 1
  funext a
  apply Fin.ext
  match a with
  | ⟨0, _⟩ => show win0_0.index t (0 : Fin 2) * 1024 + 1 * r.val = 1024 * t.val + r.val; omega
  | ⟨1, _⟩ => show win0_0.index t (1 : Fin 2) * 3 + 1 * k.val = k.val; omega

/-- Point `t`'s block of each flattened map is the whole flattened map. -/
theorem iblk1_apply (c : Dev nD) (t : Fin cfg0.N) (j : Fin 3584) (cc : Fin 64) :
    iblk m c 1 t (ix2 j cc) = (V m c main_v1 : S3584x64.Idx → EReal) (ix2 j cc) := by
  obtain ⟨-, -, e0, e1, -⟩ := idx_facts t
  show V m c main_v1 (((cfg0.win 1).blk t).view.emb (ix2 j cc)) = _
  congr 1
  funext a
  apply Fin.ext
  match a with
  | ⟨0, _⟩ => show win0_1.index t (0 : Fin 2) * 3584 + 1 * j.val = j.val; omega
  | ⟨1, _⟩ => show win0_1.index t (1 : Fin 2) * 64 + 1 * cc.val = cc.val; omega

theorem iblk2_apply (c : Dev nD) (t : Fin cfg0.N) (j : Fin 1024) (cc : Fin 128) :
    iblk m c 2 t (ix2 j cc) = (V m c main_v3 : S1024x128.Idx → EReal) (ix2 j cc) := by
  obtain ⟨-, -, -, -, e0, e1, -⟩ := idx_facts t
  show V m c main_v3 (((cfg0.win 2).blk t).view.emb (ix2 j cc)) = _
  congr 1
  funext a
  apply Fin.ext
  match a with
  | ⟨0, _⟩ => show win0_2.index t (0 : Fin 2) * 1024 + 1 * j.val = j.val; omega
  | ⟨1, _⟩ => show win0_2.index t (1 : Fin 2) * 128 + 1 * cc.val = cc.val; omega

theorem iblk3_apply (c : Dev nD) (t : Fin cfg0.N) (j : Fin 512) (cc : Fin 256) :
    iblk m c 3 t (ix2 j cc) = (V m c main_v5 : S512x256.Idx → EReal) (ix2 j cc) := by
  obtain ⟨-, -, -, -, -, -, e0, e1, -⟩ := idx_facts t
  show V m c main_v5 (((cfg0.win 3).blk t).view.emb (ix2 j cc)) = _
  congr 1
  funext a
  apply Fin.ext
  match a with
  | ⟨0, _⟩ => show win0_3.index t (0 : Fin 2) * 512 + 1 * j.val = j.val; omega
  | ⟨1, _⟩ => show win0_3.index t (1 : Fin 2) * 256 + 1 * cc.val = cc.val; omega

theorem iblk4_apply (c : Dev nD) (t : Fin cfg0.N) (j : Fin 512) (cc : Fin 512) :
    iblk m c 4 t (ix2 j cc) = (V m c main_v7 : S512x512.Idx → EReal) (ix2 j cc) := by
  obtain ⟨-, -, -, -, -, -, -, -, e0, e1, -⟩ := idx_facts t
  show V m c main_v7 (((cfg0.win 4).blk t).view.emb (ix2 j cc)) = _
  congr 1
  funext a
  apply Fin.ext
  match a with
  | ⟨0, _⟩ => show win0_4.index t (0 : Fin 2) * 512 + 1 * j.val = j.val; omega
  | ⟨1, _⟩ => show win0_4.index t (1 : Fin 2) * 512 + 1 * cc.val = cc.val; omega

/-- WHAT POINT `t` WRITES BACK is its block of `result` of the launched arrays. -/
theorem flushed_eq [hP : Cert.Pre_finite_inputs.Facts] (hpre : Cert.Pre_KernelIdeal m) (c : Dev nD) (t : Fin cfg0.N) :
    (dats m 0 c).flushed 5 t = ((cfg0.win 5).blk t).view.read (Elt Ideal) (res m c) := by
  obtain ⟨f1, f2, f3, f4⟩ := maps_finite m hpre c
  obtain ⟨-, -, -, -, -, -, -, -, -, -, e0, e1⟩ := idx_facts t
  rw [flushed5_A]
  funext y
  obtain ⟨r, col, rfl⟩ : ∃ (r : Fin 1024) (col : Fin 963), y = ix2 r col := ⟨y 0, y 1, eq_ix2 y⟩
  show out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t) (ix2 r col)
    = res m c (((cfg0.win 5).blk t).view.emb (ix2 r col))
  have hemb : ((cfg0.win 5).blk t).view.emb (ix2 r col)
      = ix2 ⟨1024 * t.val + r.val, by have ht : t.val < 128 := t.isLt; have := r.isLt; show _ < 131072; omega⟩ col := by
    funext a
    apply Fin.ext
    match a with
    | ⟨0, _⟩ => show win0_5.index t (0 : Fin 2) * 1024 + 1 * r.val = 1024 * t.val + r.val; omega
    | ⟨1, _⟩ => show win0_5.index t (1 : Fin 2) * 963 + 1 * col.val = col.val; omega
  rw [hemb, block_apply c (grid0.coords t) _ _ _ _ _ _ _ _ _ _ _ _ (iblk m c 0 t) (iblk m c 1 t) (iblk m c 2 t) (iblk m c 3 t)
    (iblk m c 4 t)
    (fun i => by obtain ⟨j, cc, rfl⟩ : ∃ j cc, i = ix2 j cc := ⟨i 0, i 1, eq_ix2 i⟩
                 rw [iblk1_apply, V_main_v1_apply]; split
                 · exact f1 _
                 · exact isFin_zero)
    (fun i => by obtain ⟨j, cc, rfl⟩ : ∃ j cc, i = ix2 j cc := ⟨i 0, i 1, eq_ix2 i⟩
                 rw [iblk2_apply, V_main_v3_apply]; split
                 · exact f2 _
                 · exact isFin_zero)
    (fun i => by obtain ⟨j, cc, rfl⟩ : ∃ j cc, i = ix2 j cc := ⟨i 0, i 1, eq_ix2 i⟩
                 rw [iblk3_apply, V_main_v5_apply]; split
                 · exact f3 _
                 · exact isFin_zero)
    (fun i => by obtain ⟨j, cc, rfl⟩ : ∃ j cc, i = ix2 j cc := ⟨i 0, i 1, eq_ix2 i⟩
                 rw [iblk4_apply, V_main_v7_apply]; split
                 · exact f4 _
                 · exact isFin_zero)
    (ix2 r col)]
  unfold res
  have hb : 1024 * t.val + 1024 ≤ 131072 := by have ht : t.val < 128 := t.isLt; show _ ≤ 131072; omega
  exact blockResult_eq_result (1024 * t.val) hb _ _ _ _ _ _ _ _ _ _
    (fun r k => iblk0_apply m c t r k)
    (fun j cc => by rw [iblk1_apply, V_main_v1_apply])
    (fun j cc => by rw [iblk2_apply, V_main_v3_apply])
    (fun j cc => by rw [iblk3_apply, V_main_v5_apply])
    (fun j cc => by rw [iblk4_apply, V_main_v7_apply])
    r col

/-- An index of the result is in point `t`'s block iff its row is one of the block's 1024 rows. -/
theorem mem_blk (t : Fin cfg0.N) (i : S131072x963.Idx) :
    i ∈ ((cfg0.win 5).blk t).view.set ↔ ∀ a : Fin 2, win0_5.index t a * S1024x963.size a ≤ (i a).val
      ∧ (i a).val < win0_5.index t a * S1024x963.size a + S1024x963.size a := by
  show i ∈ ((View.whole main_v8).slice (win0_5.rect t)).set ↔ _
  rw [View.set_slice_whole, Rect.mem_set_unit]
  exact Iff.rfl

/-- THE RESULT ARRAY after the run is `result` of the launched arrays: the 128 blocks tile it. -/
theorem final [hP : Cert.Pre_finite_inputs.Facts] (hpre : Cert.Pre_KernelIdeal m) (c : Dev nD) :
    (dats m 0 c).arrAt 5 cfg0.N = res m c :=
  (dats m 0 c).arrAt_eq_of_cover 5 (res m c) (fun t _ => flushed_eq m hpre c t) fun i => by
    have hi0 : (i 0).val < 131072 := (i 0).isLt
    have hi1 : (i 1).val < 963 := (i 1).isLt
    refine ⟨⟨(i 0).val / 1024, by show _ < 128; omega⟩, flush0_5 _, ?_⟩
    obtain ⟨-, -, -, -, -, -, -, -, -, -, e0, e1⟩ := idx_facts ⟨(i 0).val / 1024, by show _ < 128; omega⟩
    rw [mem_blk]
    intro a
    match a with
    | ⟨0, _⟩ =>
      show win0_5.index _ (0 : Fin 2) * 1024 ≤ (i 0).val ∧ (i 0).val < win0_5.index _ (0 : Fin 2) * 1024 + 1024
      rw [e0]; show (i 0).val / 1024 * 1024 ≤ (i 0).val ∧ (i 0).val < (i 0).val / 1024 * 1024 + 1024; omega
    | ⟨1, _⟩ =>
      show win0_5.index _ (1 : Fin 2) * 963 ≤ (i 1).val ∧ (i 1).val < win0_5.index _ (1 : Fin 2) * 963 + 963
      rw [e1]; omega

/-- THE KERNEL'S RUN: it ends with the result array at `result` of the launched arrays, the arguments unchanged. -/
theorem kernel_run [hP : Cert.Pre_finite_inputs.Facts] (hpre : Cert.Pre_KernelIdeal m) :
    θ_run defs (onTc (τ := τ) (main (F := Ideal))) ⟨m, fun _ => 0, ρ⟩ fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m hpre c), (h c).2⟩) (run_blocks m ρ)

end Cert.Bilinear

end
-- ==== Proof.RefShared.lean ====
/-
  What the reference's four maps share.

  A gather with a two-component start index into an H × H × C map reads entry (a, b, c) where a and b are the two
  components read signed and kept inside the map; the start indices are two columns laid side by side; a clamped cell
  word is never negative, so the program's wrap of a negative index never applies. The query point's three coordinates
  are read off the first argument, and its two pixel coordinates are the clipped projections.
-/
import proofs.«122278_j57483842289710_1_alg».proof.Proof.Spec
import proofs.«122278_j57483842289710_1_alg».proof.Proof.Facts
import proofs.«122278_j57483842289710_1_alg».proof.Proof.RefRead
import Idealize.ShloMosaic.Lib.ValueIdx
import Idealize.ShloMosaic.Lib.Pipeline.Value
import Idealize.ShloMosaic.Lib.StableHlo.Predicate

noncomputable section

namespace Cert.Bilinear

open Idealize.ShloMosaic Idealize.ShloMosaic.TcCoe Idealize.ShloMosaic.ValueIdx
open Cert.ReferenceIdeal Cert.ReferenceIdeal.Gen Cert.ReferenceIdeal.ReadP

/-! ### The gather -/

/-- The dimension numbers of a gather that reads one channel vector per point: both spatial axes of the map collapsed and
    start-indexed, the channel axis the one offset axis, taken whole. -/
abbrev ref_cellDims (H C N : Nat)
    (wf : GatherDims.WF (⟨3, ![H, H, C]⟩ : Shape) (⟨2, ![N, 2]⟩ : Shape) (⟨2, ![N, C]⟩ : Shape) [1] [0, 1] [] [0, 1] [] 1 ![1, 1, C]) :
    GatherDims (⟨3, ![H, H, C]⟩ : Shape) (⟨2, ![N, 2]⟩ : Shape) (⟨2, ![N, C]⟩ : Shape) where
  offsetDims := [1]
  collapsedSliceDims := [0, 1]
  operandBatchingDims := []
  startIndicesBatchingDims := []
  startIndexMap := [0, 1]
  indexVectorDim := 1
  sliceSizes := ![1, 1, C]
  wf := wf

/-- With those dimension numbers, component k of point n's start index sits at (n, k) of the start indices. -/
theorem ref_cellDims_siIdx {H C N : Nat}
    (wf : GatherDims.WF (⟨3, ![H, H, C]⟩ : Shape) (⟨2, ![N, 2]⟩ : Shape) (⟨2, ![N, C]⟩ : Shape) [1] [0, 1] [] [0, 1] [] 1 ![1, 1, C])
    (n : Fin N) (c : Fin C) (k : Fin 2) :
    (ref_cellDims H C N wf).siIdx (ix2 n c) ⟨k.val, k.isLt⟩ = ix2 n k := by
  funext b
  match k, b with
  | ⟨0, _⟩, ⟨0, _⟩ => rfl
  | ⟨0, _⟩, ⟨1, _⟩ => rfl
  | ⟨1, _⟩, ⟨0, _⟩ => rfl
  | ⟨1, _⟩, ⟨1, _⟩ => rfl

/-- The gather with those dimension numbers, read at point n and channel c: on the two spatial axes the clamped start
    index, on the channel axis the offset c. -/
theorem ref_gather_cellDims {α : Type} {H C N w : Nat} (hH : 0 < H)
    (wf : GatherDims.WF (⟨3, ![H, H, C]⟩ : Shape) (⟨2, ![N, 2]⟩ : Shape) (⟨2, ![N, C]⟩ : Shape) [1] [0, 1] [] [0, 1] [] 1 ![1, 1, C])
    (x : (⟨3, ![H, H, C]⟩ : Shape).Idx → α) (idx : IVec (⟨2, ![N, 2]⟩ : Shape) w) (n : Fin N) (c : Fin C) :
    Host.gather (ref_cellDims H C N wf) x idx (ix2 n c)
      = x (ix3 ⟨min (idx (ix2 n (0 : Fin 2))).toInt.toNat (H - 1), by omega⟩
               ⟨min (idx (ix2 n (1 : Fin 2))).toInt.toNat (H - 1), by omega⟩ c) := by
  have hB : ∀ a : Fin 3, (ref_cellDims H C N wf).batchCoord (ix2 n c) a = 0 := fun a =>
    GatherDims.batchCoord_eq_zero _ _ _ List.not_mem_nil
  have hO0 : (ref_cellDims H C N wf).offCoord (ix2 n c) (0 : Fin 3) = 0 :=
    GatherDims.offCoord_eq_zero _ _ _ (fun h => ((GatherDims.mem_sKept _ _).mp h).1 List.mem_cons_self)
  have hO1 : (ref_cellDims H C N wf).offCoord (ix2 n c) (1 : Fin 3) = 0 :=
    GatherDims.offCoord_eq_zero _ _ _
      (fun h => ((GatherDims.mem_sKept _ _).mp h).1 (List.mem_cons_of_mem _ List.mem_cons_self))
  have h2 : (2 : Fin 3) ∉ ([0, 1] : List (Fin 3)) := by decide
  unfold Host.gather
  congr 1
  funext a
  refine Fin.ext ?_
  match a with
  | ⟨0, _⟩ =>
    show (ref_cellDims H C N wf).start (ix2 n c) idx (0 : Fin 3) + (ref_cellDims H C N wf).batchCoord (ix2 n c) (0 : Fin 3)
      + (ref_cellDims H C N wf).offCoord (ix2 n c) (0 : Fin 3) = min (idx (ix2 n (0 : Fin 2))).toInt.toNat (H - 1)
    simp only [hB, hO0, Nat.add_zero]
    unfold GatherDims.start
    rw [dif_pos (show (0 : Fin 3) ∈ (ref_cellDims H C N wf).startIndexMap from List.mem_cons_self)]
    exact congrArg (fun v => min (idx v).toInt.toNat (H - 1)) (ref_cellDims_siIdx wf n c 0)
  | ⟨1, _⟩ =>
    show (ref_cellDims H C N wf).start (ix2 n c) idx (1 : Fin 3) + (ref_cellDims H C N wf).batchCoord (ix2 n c) (1 : Fin 3)
      + (ref_cellDims H C N wf).offCoord (ix2 n c) (1 : Fin 3) = min (idx (ix2 n (1 : Fin 2))).toInt.toNat (H - 1)
    simp only [hB, hO1, Nat.add_zero]
    unfold GatherDims.start
    rw [dif_pos (show (1 : Fin 3) ∈ (ref_cellDims H C N wf).startIndexMap from List.mem_cons_of_mem _ List.mem_cons_self)]
    exact congrArg (fun v => min (idx v).toInt.toNat (H - 1)) (ref_cellDims_siIdx wf n c 1)
  | ⟨2, _⟩ =>
    show (ref_cellDims H C N wf).start (ix2 n c) idx (2 : Fin 3) + (ref_cellDims H C N wf).batchCoord (ix2 n c) (2 : Fin 3)
      + (ref_cellDims H C N wf).offCoord (ix2 n c) (2 : Fin 3) = c.val
    rw [hB, Nat.add_zero]
    unfold GatherDims.start GatherDims.offCoord
    rw [dif_neg (show (2 : Fin 3) ∉ (ref_cellDims H C N wf).startIndexMap from h2),
      dif_pos ((GatherDims.mem_sKept (ref_cellDims H C N wf) (2 : Fin 3)).2 ⟨h2, List.not_mem_nil⟩)]
    exact Nat.zero_add _

/-- A gather of one channel vector per point: the start index of point `n` is the pair `(idx (n, 0), idx (n, 1))`, each
    component read signed and kept inside the map; channel `c` of the result is channel `c` of that cell. -/
theorem gather_cell {α : Type} {H C N w : Nat} (hH : 0 < H)
    (d : GatherDims (⟨3, ![H, H, C]⟩ : Shape) (⟨2, ![N, 2]⟩ : Shape) (⟨2, ![N, C]⟩ : Shape))
    (hoff : d.offsetDims = [1]) (hcoll : d.collapsedSliceDims = [0, 1]) (hob : d.operandBatchingDims = [])
    (hsb : d.startIndicesBatchingDims = []) (hsim : d.startIndexMap = [0, 1]) (hivd : d.indexVectorDim = 1)
    (hss : d.sliceSizes = ![1, 1, C])
    (x : (⟨3, ![H, H, C]⟩ : Shape).Idx → α) (idx : IVec (⟨2, ![N, 2]⟩ : Shape) w) (n : Fin N) (c : Fin C) :
    Host.gather d x idx (ix2 n c)
      = x (ix3 ⟨min (idx (ix2 n (0 : Fin 2))).toInt.toNat (H - 1), by omega⟩
               ⟨min (idx (ix2 n (1 : Fin 2))).toInt.toNat (H - 1), by omega⟩ c) := by
  obtain ⟨od, cd, ob, sb, sm, iv, ss, wf⟩ := d
  dsimp only at hoff hcoll hob hsb hsim hivd hss
  subst hoff hcoll hob hsb hsim hivd hss
  exact ref_gather_cellDims hH wf x idx n c

/-! ### Words, tables, one gathered corner -/

/-- The wrap of a negative index never applies to a clamped cell word: its sign test answers no. -/
theorem ref_wrap_cell (last : BitVec 32) (hl : last.toNat < 2 ^ 31) (v : EReal) (alt : BitVec 32) :
    Scalar.select (IntOp.cmpi .slt (cell last v) 0#32) alt (cell last v) = cell last v := by
  rw [cell_not_slt_zero last hl v]
  exact select_zero _ _

/-- Column 0 of two columns laid side by side is the first column, -/
theorem ref_table_col0 {α : Type} (u v : S131072x1.Idx → α)
    (h : Shape.Concatenates [S131072x1, S131072x1] S131072x2 1) (n : Fin 131072) :
    concatenate S131072x2 1 [⟨S131072x1, u⟩, ⟨S131072x1, v⟩] h (ix2 n (0 : Fin 2)) = u (ix2 n (0 : Fin 1)) :=
  concatenate_pair_apply_left 1 u v h (ix2 n (0 : Fin 2)) rfl (ix2 n (0 : Fin 1))
    (fun b => match b with | ⟨0, _⟩ => rfl | ⟨1, _⟩ => rfl)

/-- and column 1 is the second. -/
theorem ref_table_col1 {α : Type} (u v : S131072x1.Idx → α)
    (h : Shape.Concatenates [S131072x1, S131072x1] S131072x2 1) (n : Fin 131072) :
    concatenate S131072x2 1 [⟨S131072x1, u⟩, ⟨S131072x1, v⟩] h (ix2 n (1 : Fin 2)) = v (ix2 n (0 : Fin 1)) :=
  concatenate_pair_apply_right 1 u v h (ix2 n (1 : Fin 2)) rfl rfl (ix2 n (0 : Fin 1))
    (fun b hb => match b, hb with | ⟨0, _⟩, _ => rfl | ⟨1, _⟩, hb => absurd rfl hb) rfl

/-- The gathered entry, once the two components of the point's start index are known. -/
theorem ref_gather_entry {H C N : Nat} (hH : 0 < H)
    (d : GatherDims (⟨3, ![H, H, C]⟩ : Shape) (⟨2, ![N, 2]⟩ : Shape) (⟨2, ![N, C]⟩ : Shape))
    (hoff : d.offsetDims = [1]) (hcoll : d.collapsedSliceDims = [0, 1]) (hob : d.operandBatchingDims = [])
    (hsb : d.startIndicesBatchingDims = []) (hsim : d.startIndexMap = [0, 1]) (hivd : d.indexVectorDim = 1)
    (hss : d.sliceSizes = ![1, 1, C])
    (feat : (⟨3, ![H, H, C]⟩ : Shape).Idx → EReal) (tbl : IVec (⟨2, ![N, 2]⟩ : Shape) 32) (n : Fin N) (c : Fin C)
    (a b : BitVec 32) (ha : tbl (ix2 n (0 : Fin 2)) = a) (hb : tbl (ix2 n (1 : Fin 2)) = b) :
    Host.gather d feat tbl (ix2 n c) = entry hH feat c a b := by
  subst ha hb
  exact gather_cell hH d hoff hcoll hob hsb hsim hivd hss feat tbl n c

/-! ### The point's coordinates and its pixel -/

/-- The query points, as the program's first argument. -/
abbrev RefCoord : Type := (⟨S131072x3, .f32⟩ : BufTy).Contents (Elt Ideal)

/-- The point a position of a per-point vector belongs to. -/
abbrev ref_pt (i : S131072.Idx) : Fin 131072 := i 0

theorem ref_read_X (x0 : RefCoord) (i : S131072.Idx) :
    val_main_v1 (F := Ideal) x0 i = x0 (ix2 (ref_pt i) (0 : Fin 3)) := by
  rw [val_main_v1_apply, val_main_v0_apply]
  congr 1
  funext a
  refine Fin.ext ?_
  match a with
  | ⟨0, _⟩ => exact Nat.div_one _
  | ⟨1, _⟩ => rfl

theorem ref_read_Y (x0 : RefCoord) (i : S131072.Idx) :
    val_main_v3 (F := Ideal) x0 i = x0 (ix2 (ref_pt i) (1 : Fin 3)) := by
  rw [val_main_v3_apply, val_main_v2_apply]
  congr 1
  funext a
  refine Fin.ext ?_
  match a with
  | ⟨0, _⟩ => exact Nat.div_one _
  | ⟨1, _⟩ => rfl

theorem ref_read_Z (x0 : RefCoord) (i : S131072.Idx) :
    val_main_v5 (F := Ideal) x0 i = x0 (ix2 (ref_pt i) (2 : Fin 3)) := by
  rw [val_main_v5_apply, val_main_v4_apply]
  congr 1
  funext a
  refine Fin.ext ?_
  match a with
  | ⟨0, _⟩ => exact Nat.div_one _
  | ⟨1, _⟩ => rfl

/-- The row pixel coordinate h of a point: from −Y and Z, -/
theorem ref_pix_row (x0 : RefCoord) (i : S131072.Idx) :
    val_main_v19 (F := Ideal) x0 i = pix (-(x0 (ix2 (ref_pt i) (1 : Fin 3)))) (x0 (ix2 (ref_pt i) (2 : Fin 3))) := by
  simp only [val_main_v19_apply, val_main_call0_v4_apply, val_main_call0_v3_apply, val_main_cst_4_apply,
    val_main_call0_v2_apply, val_main_call0_v1_apply, val_main_call0_v0_apply, val_main_cst_3_apply,
    val_main_v12_apply, val_main_v11_apply, val_main_cst_0_apply, val_main_v10_apply, val_main_v9_apply,
    val_main_v8_apply, val_main_v7_apply, val_main_cst_apply, val_main_v6_apply, ref_read_Y, ref_read_Z]
  rfl

/-- and the column pixel coordinate w: from X and Z. -/
theorem ref_pix_col (x0 : RefCoord) (i : S131072.Idx) :
    val_main_v20 (F := Ideal) x0 i = pix (x0 (ix2 (ref_pt i) (0 : Fin 3))) (x0 (ix2 (ref_pt i) (2 : Fin 3))) := by
  simp only [val_main_v20_apply, val_main_call1_v4_apply, val_main_call1_v3_apply, val_main_cst_6_apply,
    val_main_call1_v2_apply, val_main_call1_v1_apply, val_main_call1_v0_apply, val_main_cst_5_apply,
    val_main_v18_apply, val_main_v17_apply, val_main_cst_2_apply, val_main_v16_apply, val_main_v15_apply,
    val_main_v14_apply, val_main_v13_apply, val_main_cst_1_apply, ref_read_X, ref_read_Z]
  rfl

/-- The row and the column grid coordinate of point p on a map whose cell size is the float word s. -/
abbrev ref_gx (x0 : RefCoord) (s : BitVec 32) (p : Fin 131072) : EReal :=
  grid (pix (-(x0 (ix2 p (1 : Fin 3)))) (x0 (ix2 p (2 : Fin 3)))) s
abbrev ref_gy (x0 : RefCoord) (s : BitVec 32) (p : Fin 131072) : EReal :=
  grid (pix (x0 (ix2 p (0 : Fin 3))) (x0 (ix2 p (2 : Fin 3)))) s

end Cert.Bilinear

end
-- ==== Proof.RefMap1.lean ====
/-
  The first map's sample of a query point (56 × 56 cells, 64 channels, cell size 4).

  The grid coordinates are the pixel coordinates divided by the cell size; the four cell words are the rounded
  coordinates clamped to the map; each corner entry is one gather at the pair of cell words (the wrap of a negative
  index never applying to them); the sample is the sum of the four weighted corners in the program's order.
-/
import proofs.«122278_j57483842289710_1_alg».proof.Proof.RefShared

noncomputable section

namespace Cert.Bilinear

open Idealize.ShloMosaic Idealize.ShloMosaic.TcCoe Idealize.ShloMosaic.ValueIdx
open Cert.ReferenceIdeal Cert.ReferenceIdeal.Gen Cert.ReferenceIdeal.ReadP

/-! ### Grid coordinates and cell words -/

/-- The row grid coordinate: the row pixel coordinate divided by the cell size, -/
theorem ref1_gx (x0 : RefCoord) (i : S131072.Idx) : val_main_v22 (F := Ideal) x0 i = ref_gx x0 0x40800000#32 (ref_pt i) := by
  simp only [val_main_v22_apply, val_main_v21_apply, val_main_cst_7_apply, ref_pix_row]
  rfl

/-- and the column grid coordinate. -/
theorem ref1_gy (x0 : RefCoord) (i : S131072.Idx) : val_main_v24 (F := Ideal) x0 i = ref_gy x0 0x40800000#32 (ref_pt i) := by
  simp only [val_main_v24_apply, val_main_v23_apply, val_main_cst_8_apply, ref_pix_col]
  rfl

/-- The row cell below: the row grid coordinate rounded down, as a word clamped to the map. -/
theorem ref1_cx1 (x0 : RefCoord) (i : S131072.Idx) :
    val_main_v30 (F := Ideal) x0 i = cell 55#32 (below (ref_gx x0 0x40800000#32 (ref_pt i))) := by
  simp only [val_main_v30_apply, val_main_call2_v4_apply, val_main_call2_v3_apply, val_main_c_9_apply,
    val_main_call2_v2_apply, val_main_call2_v1_apply, val_main_call2_v0_apply, val_main_c_apply,
    val_main_v29_apply, val_main_v25_apply, ref1_gx]
  rfl

/-- The row cell above. -/
theorem ref1_cx2 (x0 : RefCoord) (i : S131072.Idx) :
    val_main_v32 (F := Ideal) x0 i = cell 55#32 (above (ref_gx x0 0x40800000#32 (ref_pt i))) := by
  simp only [val_main_v32_apply, val_main_call3_v4_apply, val_main_call3_v3_apply, val_main_c_11_apply,
    val_main_call3_v2_apply, val_main_call3_v1_apply, val_main_call3_v0_apply, val_main_c_10_apply,
    val_main_v31_apply, val_main_v26_apply, ref1_gx]
  rfl

/-- The column cell below. -/
theorem ref1_cy1 (x0 : RefCoord) (i : S131072.Idx) :
    val_main_v34 (F := Ideal) x0 i = cell 55#32 (below (ref_gy x0 0x40800000#32 (ref_pt i))) := by
  simp only [val_main_v34_apply, val_main_call4_v4_apply, val_main_call4_v3_apply, val_main_c_13_apply,
    val_main_call4_v2_apply, val_main_call4_v1_apply, val_main_call4_v0_apply, val_main_c_12_apply,
    val_main_v33_apply, val_main_v27_apply, ref1_gy]
  rfl

/-- The column cell above. -/
theorem ref1_cy2 (x0 : RefCoord) (i : S131072.Idx) :
    val_main_v36 (F := Ideal) x0 i = cell 55#32 (above (ref_gy x0 0x40800000#32 (ref_pt i))) := by
  simp only [val_main_v36_apply, val_main_call5_v4_apply, val_main_call5_v3_apply, val_main_c_15_apply,
    val_main_call5_v2_apply, val_main_call5_v1_apply, val_main_call5_v0_apply, val_main_c_14_apply,
    val_main_v35_apply, val_main_v28_apply, ref1_gy]
  rfl

/-! ### The wrap of a negative index, eight times: it never applies -/

theorem ref1_w11r (x0 : RefCoord) (i : S131072.Idx) :
    val_main_v41 (F := Ideal) x0 i = cell 55#32 (below (ref_gx x0 0x40800000#32 (ref_pt i))) := by
  rw [val_main_v41_apply, val_main_v38_apply, val_main_v37_apply, val_main_c_16_apply, ref1_cx1]
  exact ref_wrap_cell 55#32 (by decide) _ _

theorem ref1_w11c (x0 : RefCoord) (i : S131072.Idx) :
    val_main_v46 (F := Ideal) x0 i = cell 55#32 (below (ref_gy x0 0x40800000#32 (ref_pt i))) := by
  rw [val_main_v46_apply, val_main_v43_apply, val_main_v42_apply, val_main_c_18_apply, ref1_cy1]
  exact ref_wrap_cell 55#32 (by decide) _ _

theorem ref1_w21r (x0 : RefCoord) (i : S131072.Idx) :
    val_main_v55 (F := Ideal) x0 i = cell 55#32 (above (ref_gx x0 0x40800000#32 (ref_pt i))) := by
  rw [val_main_v55_apply, val_main_v52_apply, val_main_v51_apply, val_main_c_20_apply, ref1_cx2]
  exact ref_wrap_cell 55#32 (by decide) _ _

theorem ref1_w21c (x0 : RefCoord) (i : S131072.Idx) :
    val_main_v60 (F := Ideal) x0 i = cell 55#32 (below (ref_gy x0 0x40800000#32 (ref_pt i))) := by
  rw [val_main_v60_apply, val_main_v57_apply, val_main_v56_apply, val_main_c_22_apply, ref1_cy1]
  exact ref_wrap_cell 55#32 (by decide) _ _

theorem ref1_w12r (x0 : RefCoord) (i : S131072.Idx) :
    val_main_v69 (F := Ideal) x0 i = cell 55#32 (below (ref_gx x0 0x40800000#32 (ref_pt i))) := by
  rw [val_main_v69_apply, val_main_v66_apply, val_main_v65_apply, val_main_c_24_apply, ref1_cx1]
  exact ref_wrap_cell 55#32 (by decide) _ _

theorem ref1_w12c (x0 : RefCoord) (i : S131072.Idx) :
    val_main_v74 (F := Ideal) x0 i = cell 55#32 (above (ref_gy x0 0x40800000#32 (ref_pt i))) := by
  rw [val_main_v74_apply, val_main_v71_apply, val_main_v70_apply, val_main_c_26_apply, ref1_cy2]
  exact ref_wrap_cell 55#32 (by decide) _ _

theorem ref1_w22r (x0 : RefCoord) (i : S131072.Idx) :
    val_main_v83 (F := Ideal) x0 i = cell 55#32 (above (ref_gx x0 0x40800000#32 (ref_pt i))) := by
  rw [val_main_v83_apply, val_main_v80_apply, val_main_v79_apply, val_main_c_28_apply, ref1_cx2]
  exact ref_wrap_cell 55#32 (by decide) _ _

theorem ref1_w22c (x0 : RefCoord) (i : S131072.Idx) :
    val_main_v88 (F := Ideal) x0 i = cell 55#32 (above (ref_gy x0 0x40800000#32 (ref_pt i))) := by
  rw [val_main_v88_apply, val_main_v85_apply, val_main_v84_apply, val_main_c_30_apply, ref1_cy2]
  exact ref_wrap_cell 55#32 (by decide) _ _

/-! ### The four corners -/

/-- The corner (row below, column below). -/
theorem ref1_q11 (x0 : RefCoord) (x1 : (⟨S56x56x64, .f32⟩ : BufTy).Contents (Elt Ideal)) (n : Fin 131072) (c : Fin 64) :
    val_main_v50 (F := Ideal) x0 x1 (ix2 n c)
      = entry (by norm_num) x1 c (cell 55#32 (below (ref_gx x0 0x40800000#32 n))) (cell 55#32 (below (ref_gy x0 0x40800000#32 n))) :=
  ref_gather_entry (by norm_num) gather_S56x56x64_S131072x2_S131072x64_1_01_n_n_01_1_1164 rfl rfl rfl rfl rfl rfl rfl x1 (val_main_v49 (F := Ideal) x0) n c _ _
    ((ref_table_col0 _ _ _ n).trans ((val_main_v47_apply x0 _).trans (ref1_w11r x0 _)))
    ((ref_table_col1 _ _ _ n).trans ((val_main_v48_apply x0 _).trans (ref1_w11c x0 _)))

/-- The corner (row above, column below). -/
theorem ref1_q21 (x0 : RefCoord) (x1 : (⟨S56x56x64, .f32⟩ : BufTy).Contents (Elt Ideal)) (n : Fin 131072) (c : Fin 64) :
    val_main_v64 (F := Ideal) x0 x1 (ix2 n c)
      = entry (by norm_num) x1 c (cell 55#32 (above (ref_gx x0 0x40800000#32 n))) (cell 55#32 (below (ref_gy x0 0x40800000#32 n))) :=
  ref_gather_entry (by norm_num) gather_S56x56x64_S131072x2_S131072x64_1_01_n_n_01_1_1164 rfl rfl rfl rfl rfl rfl rfl x1 (val_main_v63 (F := Ideal) x0) n c _ _
    ((ref_table_col0 _ _ _ n).trans ((val_main_v61_apply x0 _).trans (ref1_w21r x0 _)))
    ((ref_table_col1 _ _ _ n).trans ((val_main_v62_apply x0 _).trans (ref1_w21c x0 _)))

/-- The corner (row below, column above). -/
theorem ref1_q12 (x0 : RefCoord) (x1 : (⟨S56x56x64, .f32⟩ : BufTy).Contents (Elt Ideal)) (n : Fin 131072) (c : Fin 64) :
    val_main_v78 (F := Ideal) x0 x1 (ix2 n c)
      = entry (by norm_num) x1 c (cell 55#32 (below (ref_gx x0 0x40800000#32 n))) (cell 55#32 (above (ref_gy x0 0x40800000#32 n))) :=
  ref_gather_entry (by norm_num) gather_S56x56x64_S131072x2_S131072x64_1_01_n_n_01_1_1164 rfl rfl rfl rfl rfl rfl rfl x1 (val_main_v77 (F := Ideal) x0) n c _ _
    ((ref_table_col0 _ _ _ n).trans ((val_main_v75_apply x0 _).trans (ref1_w12r x0 _)))
    ((ref_table_col1 _ _ _ n).trans ((val_main_v76_apply x0 _).trans (ref1_w12c x0 _)))

/-- The corner (row above, column above). -/
theorem ref1_q22 (x0 : RefCoord) (x1 : (⟨S56x56x64, .f32⟩ : BufTy).Contents (Elt Ideal)) (n : Fin 131072) (c : Fin 64) :
    val_main_v92 (F := Ideal) x0 x1 (ix2 n c)
      = entry (by norm_num) x1 c (cell 55#32 (above (ref_gx x0 0x40800000#32 n))) (cell 55#32 (above (ref_gy x0 0x40800000#32 n))) :=
  ref_gather_entry (by norm_num) gather_S56x56x64_S131072x2_S131072x64_1_01_n_n_01_1_1164 rfl rfl rfl rfl rfl rfl rfl x1 (val_main_v91 (F := Ideal) x0) n c _ _
    ((ref_table_col0 _ _ _ n).trans ((val_main_v89_apply x0 _).trans (ref1_w22r x0 _)))
    ((ref_table_col1 _ _ _ n).trans ((val_main_v90_apply x0 _).trans (ref1_w22c x0 _)))

/-! ### The sample -/

/-- The map's sample of a point: the four weighted corner entries, added in the program's order. -/
theorem level1_eq (x0 : (⟨S131072x3, .f32⟩ : BufTy).Contents (Elt Ideal)) (x1 : (⟨S56x56x64, .f32⟩ : BufTy).Contents (Elt Ideal))
    (n : Fin 131072) (c : Fin 64) :
    val_main_v119 (F := Ideal) x0 x1 (ix2 n c)
      = level (by norm_num) 55#32 0x40800000#32 x1 (x0 (ix2 n (0 : Fin 3))) (x0 (ix2 n (1 : Fin 3))) (x0 (ix2 n (2 : Fin 3))) c := by
  simp only [
    val_main_v119_apply, val_main_v118_apply, val_main_v117_apply, val_main_v116_apply,
    val_main_v115_apply, val_main_v114_apply, val_main_v113_apply, val_main_v112_apply,
    val_main_v111_apply, val_main_v110_apply, val_main_v109_apply, val_main_v108_apply,
    val_main_v107_apply, val_main_v106_apply, val_main_v105_apply, val_main_v104_apply,
    val_main_v103_apply, val_main_v102_apply, val_main_v101_apply, val_main_v100_apply,
    val_main_v99_apply, val_main_v98_apply, val_main_v97_apply, val_main_v96_apply,
    val_main_v95_apply, val_main_v94_apply, val_main_v93_apply,
    val_main_v25_apply, val_main_v26_apply, val_main_v27_apply, val_main_v28_apply,
    ref1_gx, ref1_gy, ref1_q11, ref1_q21, ref1_q12, ref1_q22]
  rfl

end Cert.Bilinear

end
-- ==== Proof.RefMap2.lean ====
/-
  The second map's sample of a query point (28 × 28 cells, 128 channels, cell size 8).

  The grid coordinates are the pixel coordinates divided by the cell size; the four cell words are the rounded
  coordinates clamped to the map; each corner entry is one gather at the pair of cell words (the wrap of a negative
  index never applying to them); the sample is the sum of the four weighted corners in the program's order.
-/
import proofs.«122278_j57483842289710_1_alg».proof.Proof.RefShared

noncomputable section

namespace Cert.Bilinear

open Idealize.ShloMosaic Idealize.ShloMosaic.TcCoe Idealize.ShloMosaic.ValueIdx
open Cert.ReferenceIdeal Cert.ReferenceIdeal.Gen Cert.ReferenceIdeal.ReadP

/-! ### Grid coordinates and cell words -/

/-- The row grid coordinate: the row pixel coordinate divided by the cell size, -/
theorem ref2_gx (x0 : RefCoord) (i : S131072.Idx) : val_main_v121 (F := Ideal) x0 i = ref_gx x0 0x41000000#32 (ref_pt i) := by
  simp only [val_main_v121_apply, val_main_v120_apply, val_main_cst_32_apply, ref_pix_row]
  rfl

/-- and the column grid coordinate. -/
theorem ref2_gy (x0 : RefCoord) (i : S131072.Idx) : val_main_v123 (F := Ideal) x0 i = ref_gy x0 0x41000000#32 (ref_pt i) := by
  simp only [val_main_v123_apply, val_main_v122_apply, val_main_cst_33_apply, ref_pix_col]
  rfl

/-- The row cell below: the row grid coordinate rounded down, as a word clamped to the map. -/
theorem ref2_cx1 (x0 : RefCoord) (i : S131072.Idx) :
    val_main_v129 (F := Ideal) x0 i = cell 27#32 (below (ref_gx x0 0x41000000#32 (ref_pt i))) := by
  simp only [val_main_v129_apply, val_main_call6_v4_apply, val_main_call6_v3_apply, val_main_c_35_apply,
    val_main_call6_v2_apply, val_main_call6_v1_apply, val_main_call6_v0_apply, val_main_c_34_apply,
    val_main_v128_apply, val_main_v124_apply, ref2_gx]
  rfl

/-- The row cell above. -/
theorem ref2_cx2 (x0 : RefCoord) (i : S131072.Idx) :
    val_main_v131 (F := Ideal) x0 i = cell 27#32 (above (ref_gx x0 0x41000000#32 (ref_pt i))) := by
  simp only [val_main_v131_apply, val_main_call7_v4_apply, val_main_call7_v3_apply, val_main_c_37_apply,
    val_main_call7_v2_apply, val_main_call7_v1_apply, val_main_call7_v0_apply, val_main_c_36_apply,
    val_main_v130_apply, val_main_v125_apply, ref2_gx]
  rfl

/-- The column cell below. -/
theorem ref2_cy1 (x0 : RefCoord) (i : S131072.Idx) :
    val_main_v133 (F := Ideal) x0 i = cell 27#32 (below (ref_gy x0 0x41000000#32 (ref_pt i))) := by
  simp only [val_main_v133_apply, val_main_call8_v4_apply, val_main_call8_v3_apply, val_main_c_39_apply,
    val_main_call8_v2_apply, val_main_call8_v1_apply, val_main_call8_v0_apply, val_main_c_38_apply,
    val_main_v132_apply, val_main_v126_apply, ref2_gy]
  rfl

/-- The column cell above. -/
theorem ref2_cy2 (x0 : RefCoord) (i : S131072.Idx) :
    val_main_v135 (F := Ideal) x0 i = cell 27#32 (above (ref_gy x0 0x41000000#32 (ref_pt i))) := by
  simp only [val_main_v135_apply, val_main_call9_v4_apply, val_main_call9_v3_apply, val_main_c_41_apply,
    val_main_call9_v2_apply, val_main_call9_v1_apply, val_main_call9_v0_apply, val_main_c_40_apply,
    val_main_v134_apply, val_main_v127_apply, ref2_gy]
  rfl

/-! ### The wrap of a negative index, eight times: it never applies -/

theorem ref2_w11r (x0 : RefCoord) (i : S131072.Idx) :
    val_main_v140 (F := Ideal) x0 i = cell 27#32 (below (ref_gx x0 0x41000000#32 (ref_pt i))) := by
  rw [val_main_v140_apply, val_main_v137_apply, val_main_v136_apply, val_main_c_42_apply, ref2_cx1]
  exact ref_wrap_cell 27#32 (by decide) _ _

theorem ref2_w11c (x0 : RefCoord) (i : S131072.Idx) :
    val_main_v145 (F := Ideal) x0 i = cell 27#32 (below (ref_gy x0 0x41000000#32 (ref_pt i))) := by
  rw [val_main_v145_apply, val_main_v142_apply, val_main_v141_apply, val_main_c_44_apply, ref2_cy1]
  exact ref_wrap_cell 27#32 (by decide) _ _

theorem ref2_w21r (x0 : RefCoord) (i : S131072.Idx) :
    val_main_v154 (F := Ideal) x0 i = cell 27#32 (above (ref_gx x0 0x41000000#32 (ref_pt i))) := by
  rw [val_main_v154_apply, val_main_v151_apply, val_main_v150_apply, val_main_c_46_apply, ref2_cx2]
  exact ref_wrap_cell 27#32 (by decide) _ _

theorem ref2_w21c (x0 : RefCoord) (i : S131072.Idx) :
    val_main_v159 (F := Ideal) x0 i = cell 27#32 (below (ref_gy x0 0x41000000#32 (ref_pt i))) := by
  rw [val_main_v159_apply, val_main_v156_apply, val_main_v155_apply, val_main_c_48_apply, ref2_cy1]
  exact ref_wrap_cell 27#32 (by decide) _ _

theorem ref2_w12r (x0 : RefCoord) (i : S131072.Idx) :
    val_main_v168 (F := Ideal) x0 i = cell 27#32 (below (ref_gx x0 0x41000000#32 (ref_pt i))) := by
  rw [val_main_v168_apply, val_main_v165_apply, val_main_v164_apply, val_main_c_50_apply, ref2_cx1]
  exact ref_wrap_cell 27#32 (by decide) _ _

theorem ref2_w12c (x0 : RefCoord) (i : S131072.Idx) :
    val_main_v173 (F := Ideal) x0 i = cell 27#32 (above (ref_gy x0 0x41000000#32 (ref_pt i))) := by
  rw [val_main_v173_apply, val_main_v170_apply, val_main_v169_apply, val_main_c_52_apply, ref2_cy2]
  exact ref_wrap_cell 27#32 (by decide) _ _

theorem ref2_w22r (x0 : RefCoord) (i : S131072.Idx) :
    val_main_v182 (F := Ideal) x0 i = cell 27#32 (above (ref_gx x0 0x41000000#32 (ref_pt i))) := by
  rw [val_main_v182_apply, val_main_v179_apply, val_main_v178_apply, val_main_c_54_apply, ref2_cx2]
  exact ref_wrap_cell 27#32 (by decide) _ _

theorem ref2_w22c (x0 : RefCoord) (i : S131072.Idx) :
    val_main_v187 (F := Ideal) x0 i = cell 27#32 (above (ref_gy x0 0x41000000#32 (ref_pt i))) := by
  rw [val_main_v187_apply, val_main_v184_apply, val_main_v183_apply, val_main_c_56_apply, ref2_cy2]
  exact ref_wrap_cell 27#32 (by decide) _ _

/-! ### The four corners -/

/-- The corner (row below, column below). -/
theorem ref2_q11 (x0 : RefCoord) (x2 : (⟨S28x28x128, .f32⟩ : BufTy).Contents (Elt Ideal)) (n : Fin 131072) (c : Fin 128) :
    val_main_v149 (F := Ideal) x0 x2 (ix2 n c)
      = entry (by norm_num) x2 c (cell 27#32 (below (ref_gx x0 0x41000000#32 n))) (cell 27#32 (below (ref_gy x0 0x41000000#32 n))) :=
  ref_gather_entry (by norm_num) gather_S28x28x128_S131072x2_S131072x128_1_01_n_n_01_1_11128 rfl rfl rfl rfl rfl rfl rfl x2 (val_main_v148 (F := Ideal) x0) n c _ _
    ((ref_table_col0 _ _ _ n).trans ((val_main_v146_apply x0 _).trans (ref2_w11r x0 _)))
    ((ref_table_col1 _ _ _ n).trans ((val_main_v147_apply x0 _).trans (ref2_w11c x0 _)))

/-- The corner (row above, column below). -/
theorem ref2_q21 (x0 : RefCoord) (x2 : (⟨S28x28x128, .f32⟩ : BufTy).Contents (Elt Ideal)) (n : Fin 131072) (c : Fin 128) :
    val_main_v163 (F := Ideal) x0 x2 (ix2 n c)
      = entry (by norm_num) x2 c (cell 27#32 (above (ref_gx x0 0x41000000#32 n))) (cell 27#32 (below (ref_gy x0 0x41000000#32 n))) :=
  ref_gather_entry (by norm_num) gather_S28x28x128_S131072x2_S131072x128_1_01_n_n_01_1_11128 rfl rfl rfl rfl rfl rfl rfl x2 (val_main_v162 (F := Ideal) x0) n c _ _
    ((ref_table_col0 _ _ _ n).trans ((val_main_v160_apply x0 _).trans (ref2_w21r x0 _)))
    ((ref_table_col1 _ _ _ n).trans ((val_main_v161_apply x0 _).trans (ref2_w21c x0 _)))

/-- The corner (row below, column above). -/
theorem ref2_q12 (x0 : RefCoord) (x2 : (⟨S28x28x128, .f32⟩ : BufTy).Contents (Elt Ideal)) (n : Fin 131072) (c : Fin 128) :
    val_main_v177 (F := Ideal) x0 x2 (ix2 n c)
      = entry (by norm_num) x2 c (cell 27#32 (below (ref_gx x0 0x41000000#32 n))) (cell 27#32 (above (ref_gy x0 0x41000000#32 n))) :=
  ref_gather_entry (by norm_num) gather_S28x28x128_S131072x2_S131072x128_1_01_n_n_01_1_11128 rfl rfl rfl rfl rfl rfl rfl x2 (val_main_v176 (F := Ideal) x0) n c _ _
    ((ref_table_col0 _ _ _ n).trans ((val_main_v174_apply x0 _).trans (ref2_w12r x0 _)))
    ((ref_table_col1 _ _ _ n).trans ((val_main_v175_apply x0 _).trans (ref2_w12c x0 _)))

/-- The corner (row above, column above). -/
theorem ref2_q22 (x0 : RefCoord) (x2 : (⟨S28x28x128, .f32⟩ : BufTy).Contents (Elt Ideal)) (n : Fin 131072) (c : Fin 128) :
    val_main_v191 (F := Ideal) x0 x2 (ix2 n c)
      = entry (by norm_num) x2 c (cell 27#32 (above (ref_gx x0 0x41000000#32 n))) (cell 27#32 (above (ref_gy x0 0x41000000#32 n))) :=
  ref_gather_entry (by norm_num) gather_S28x28x128_S131072x2_S131072x128_1_01_n_n_01_1_11128 rfl rfl rfl rfl rfl rfl rfl x2 (val_main_v190 (F := Ideal) x0) n c _ _
    ((ref_table_col0 _ _ _ n).trans ((val_main_v188_apply x0 _).trans (ref2_w22r x0 _)))
    ((ref_table_col1 _ _ _ n).trans ((val_main_v189_apply x0 _).trans (ref2_w22c x0 _)))

/-! ### The sample -/

/-- The map's sample of a point: the four weighted corner entries, added in the program's order. -/
theorem level2_eq (x0 : (⟨S131072x3, .f32⟩ : BufTy).Contents (Elt Ideal)) (x2 : (⟨S28x28x128, .f32⟩ : BufTy).Contents (Elt Ideal))
    (n : Fin 131072) (c : Fin 128) :
    val_main_v218 (F := Ideal) x0 x2 (ix2 n c)
      = level (by norm_num) 27#32 0x41000000#32 x2 (x0 (ix2 n (0 : Fin 3))) (x0 (ix2 n (1 : Fin 3))) (x0 (ix2 n (2 : Fin 3))) c := by
  simp only [
    val_main_v218_apply, val_main_v217_apply, val_main_v216_apply, val_main_v215_apply,
    val_main_v214_apply, val_main_v213_apply, val_main_v212_apply, val_main_v211_apply,
    val_main_v210_apply, val_main_v209_apply, val_main_v208_apply, val_main_v207_apply,
    val_main_v206_apply, val_main_v205_apply, val_main_v204_apply, val_main_v203_apply,
    val_main_v202_apply, val_main_v201_apply, val_main_v200_apply, val_main_v199_apply,
    val_main_v198_apply, val_main_v197_apply, val_main_v196_apply, val_main_v195_apply,
    val_main_v194_apply, val_main_v193_apply, val_main_v192_apply,
    val_main_v124_apply, val_main_v125_apply, val_main_v126_apply, val_main_v127_apply,
    ref2_gx, ref2_gy, ref2_q11, ref2_q21, ref2_q12, ref2_q22]
  rfl

end Cert.Bilinear

end
-- ==== Proof.RefMap3.lean ====
/-
  The third map's sample of a query point (14 × 14 cells, 256 channels, cell size 16).

  The grid coordinates are the pixel coordinates divided by the cell size; the four cell words are the rounded
  coordinates clamped to the map; each corner entry is one gather at the pair of cell words (the wrap of a negative
  index never applying to them); the sample is the sum of the four weighted corners in the program's order.
-/
import proofs.«122278_j57483842289710_1_alg».proof.Proof.RefShared

noncomputable section

namespace Cert.Bilinear

open Idealize.ShloMosaic Idealize.ShloMosaic.TcCoe Idealize.ShloMosaic.ValueIdx
open Cert.ReferenceIdeal Cert.ReferenceIdeal.Gen Cert.ReferenceIdeal.ReadP

/-! ### Grid coordinates and cell words -/

/-- The row grid coordinate: the row pixel coordinate divided by the cell size, -/
theorem ref3_gx (x0 : RefCoord) (i : S131072.Idx) : val_main_v220 (F := Ideal) x0 i = ref_gx x0 0x41800000#32 (ref_pt i) := by
  simp only [val_main_v220_apply, val_main_v219_apply, val_main_cst_58_apply, ref_pix_row]
  rfl

/-- and the column grid coordinate. -/
theorem ref3_gy (x0 : RefCoord) (i : S131072.Idx) : val_main_v222 (F := Ideal) x0 i = ref_gy x0 0x41800000#32 (ref_pt i) := by
  simp only [val_main_v222_apply, val_main_v221_apply, val_main_cst_59_apply, ref_pix_col]
  rfl

/-- The row cell below: the row grid coordinate rounded down, as a word clamped to the map. -/
theorem ref3_cx1 (x0 : RefCoord) (i : S131072.Idx) :
    val_main_v228 (F := Ideal) x0 i = cell 13#32 (below (ref_gx x0 0x41800000#32 (ref_pt i))) := by
  simp only [val_main_v228_apply, val_main_call10_v4_apply, val_main_call10_v3_apply, val_main_c_61_apply,
    val_main_call10_v2_apply, val_main_call10_v1_apply, val_main_call10_v0_apply, val_main_c_60_apply,
    val_main_v227_apply, val_main_v223_apply, ref3_gx]
  rfl

/-- The row cell above. -/
theorem ref3_cx2 (x0 : RefCoord) (i : S131072.Idx) :
    val_main_v230 (F := Ideal) x0 i = cell 13#32 (above (ref_gx x0 0x41800000#32 (ref_pt i))) := by
  simp only [val_main_v230_apply, val_main_call11_v4_apply, val_main_call11_v3_apply, val_main_c_63_apply,
    val_main_call11_v2_apply, val_main_call11_v1_apply, val_main_call11_v0_apply, val_main_c_62_apply,
    val_main_v229_apply, val_main_v224_apply, ref3_gx]
  rfl

/-- The column cell below. -/
theorem ref3_cy1 (x0 : RefCoord) (i : S131072.Idx) :
    val_main_v232 (F := Ideal) x0 i = cell 13#32 (below (ref_gy x0 0x41800000#32 (ref_pt i))) := by
  simp only [val_main_v232_apply, val_main_call12_v4_apply, val_main_call12_v3_apply, val_main_c_65_apply,
    val_main_call12_v2_apply, val_main_call12_v1_apply, val_main_call12_v0_apply, val_main_c_64_apply,
    val_main_v231_apply, val_main_v225_apply, ref3_gy]
  rfl

/-- The column cell above. -/
theorem ref3_cy2 (x0 : RefCoord) (i : S131072.Idx) :
    val_main_v234 (F := Ideal) x0 i = cell 13#32 (above (ref_gy x0 0x41800000#32 (ref_pt i))) := by
  simp only [val_main_v234_apply, val_main_call13_v4_apply, val_main_call13_v3_apply, val_main_c_67_apply,
    val_main_call13_v2_apply, val_main_call13_v1_apply, val_main_call13_v0_apply, val_main_c_66_apply,
    val_main_v233_apply, val_main_v226_apply, ref3_gy]
  rfl

/-! ### The wrap of a negative index, eight times: it never applies -/

theorem ref3_w11r (x0 : RefCoord) (i : S131072.Idx) :
    val_main_v239 (F := Ideal) x0 i = cell 13#32 (below (ref_gx x0 0x41800000#32 (ref_pt i))) := by
  rw [val_main_v239_apply, val_main_v236_apply, val_main_v235_apply, val_main_c_68_apply, ref3_cx1]
  exact ref_wrap_cell 13#32 (by decide) _ _

theorem ref3_w11c (x0 : RefCoord) (i : S131072.Idx) :
    val_main_v244 (F := Ideal) x0 i = cell 13#32 (below (ref_gy x0 0x41800000#32 (ref_pt i))) := by
  rw [val_main_v244_apply, val_main_v241_apply, val_main_v240_apply, val_main_c_70_apply, ref3_cy1]
  exact ref_wrap_cell 13#32 (by decide) _ _

theorem ref3_w21r (x0 : RefCoord) (i : S131072.Idx) :
    val_main_v253 (F := Ideal) x0 i = cell 13#32 (above (ref_gx x0 0x41800000#32 (ref_pt i))) := by
  rw [val_main_v253_apply, val_main_v250_apply, val_main_v249_apply, val_main_c_72_apply, ref3_cx2]
  exact ref_wrap_cell 13#32 (by decide) _ _

theorem ref3_w21c (x0 : RefCoord) (i : S131072.Idx) :
    val_main_v258 (F := Ideal) x0 i = cell 13#32 (below (ref_gy x0 0x41800000#32 (ref_pt i))) := by
  rw [val_main_v258_apply, val_main_v255_apply, val_main_v254_apply, val_main_c_74_apply, ref3_cy1]
  exact ref_wrap_cell 13#32 (by decide) _ _

theorem ref3_w12r (x0 : RefCoord) (i : S131072.Idx) :
    val_main_v267 (F := Ideal) x0 i = cell 13#32 (below (ref_gx x0 0x41800000#32 (ref_pt i))) := by
  rw [val_main_v267_apply, val_main_v264_apply, val_main_v263_apply, val_main_c_76_apply, ref3_cx1]
  exact ref_wrap_cell 13#32 (by decide) _ _

theorem ref3_w12c (x0 : RefCoord) (i : S131072.Idx) :
    val_main_v272 (F := Ideal) x0 i = cell 13#32 (above (ref_gy x0 0x41800000#32 (ref_pt i))) := by
  rw [val_main_v272_apply, val_main_v269_apply, val_main_v268_apply, val_main_c_78_apply, ref3_cy2]
  exact ref_wrap_cell 13#32 (by decide) _ _

theorem ref3_w22r (x0 : RefCoord) (i : S131072.Idx) :
    val_main_v281 (F := Ideal) x0 i = cell 13#32 (above (ref_gx x0 0x41800000#32 (ref_pt i))) := by
  rw [val_main_v281_apply, val_main_v278_apply, val_main_v277_apply, val_main_c_80_apply, ref3_cx2]
  exact ref_wrap_cell 13#32 (by decide) _ _

theorem ref3_w22c (x0 : RefCoord) (i : S131072.Idx) :
    val_main_v286 (F := Ideal) x0 i = cell 13#32 (above (ref_gy x0 0x41800000#32 (ref_pt i))) := by
  rw [val_main_v286_apply, val_main_v283_apply, val_main_v282_apply, val_main_c_82_apply, ref3_cy2]
  exact ref_wrap_cell 13#32 (by decide) _ _

/-! ### The four corners -/

/-- The corner (row below, column below). -/
theorem ref3_q11 (x0 : RefCoord) (x3 : (⟨S14x14x256, .f32⟩ : BufTy).Contents (Elt Ideal)) (n : Fin 131072) (c : Fin 256) :
    val_main_v248 (F := Ideal) x0 x3 (ix2 n c)
      = entry (by norm_num) x3 c (cell 13#32 (below (ref_gx x0 0x41800000#32 n))) (cell 13#32 (below (ref_gy x0 0x41800000#32 n))) :=
  ref_gather_entry (by norm_num) gather_S14x14x256_S131072x2_S131072x256_1_01_n_n_01_1_11256 rfl rfl rfl rfl rfl rfl rfl x3 (val_main_v247 (F := Ideal) x0) n c _ _
    ((ref_table_col0 _ _ _ n).trans ((val_main_v245_apply x0 _).trans (ref3_w11r x0 _)))
    ((ref_table_col1 _ _ _ n).trans ((val_main_v246_apply x0 _).trans (ref3_w11c x0 _)))

/-- The corner (row above, column below). -/
theorem ref3_q21 (x0 : RefCoord) (x3 : (⟨S14x14x256, .f32⟩ : BufTy).Contents (Elt Ideal)) (n : Fin 131072) (c : Fin 256) :
    val_main_v262 (F := Ideal) x0 x3 (ix2 n c)
      = entry (by norm_num) x3 c (cell 13#32 (above (ref_gx x0 0x41800000#32 n))) (cell 13#32 (below (ref_gy x0 0x41800000#32 n))) :=
  ref_gather_entry (by norm_num) gather_S14x14x256_S131072x2_S131072x256_1_01_n_n_01_1_11256 rfl rfl rfl rfl rfl rfl rfl x3 (val_main_v261 (F := Ideal) x0) n c _ _
    ((ref_table_col0 _ _ _ n).trans ((val_main_v259_apply x0 _).trans (ref3_w21r x0 _)))
    ((ref_table_col1 _ _ _ n).trans ((val_main_v260_apply x0 _).trans (ref3_w21c x0 _)))

/-- The corner (row below, column above). -/
theorem ref3_q12 (x0 : RefCoord) (x3 : (⟨S14x14x256, .f32⟩ : BufTy).Contents (Elt Ideal)) (n : Fin 131072) (c : Fin 256) :
    val_main_v276 (F := Ideal) x0 x3 (ix2 n c)
      = entry (by norm_num) x3 c (cell 13#32 (below (ref_gx x0 0x41800000#32 n))) (cell 13#32 (above (ref_gy x0 0x41800000#32 n))) :=
  ref_gather_entry (by norm_num) gather_S14x14x256_S131072x2_S131072x256_1_01_n_n_01_1_11256 rfl rfl rfl rfl rfl rfl rfl x3 (val_main_v275 (F := Ideal) x0) n c _ _
    ((ref_table_col0 _ _ _ n).trans ((val_main_v273_apply x0 _).trans (ref3_w12r x0 _)))
    ((ref_table_col1 _ _ _ n).trans ((val_main_v274_apply x0 _).trans (ref3_w12c x0 _)))

/-- The corner (row above, column above). -/
theorem ref3_q22 (x0 : RefCoord) (x3 : (⟨S14x14x256, .f32⟩ : BufTy).Contents (Elt Ideal)) (n : Fin 131072) (c : Fin 256) :
    val_main_v290 (F := Ideal) x0 x3 (ix2 n c)
      = entry (by norm_num) x3 c (cell 13#32 (above (ref_gx x0 0x41800000#32 n))) (cell 13#32 (above (ref_gy x0 0x41800000#32 n))) :=
  ref_gather_entry (by norm_num) gather_S14x14x256_S131072x2_S131072x256_1_01_n_n_01_1_11256 rfl rfl rfl rfl rfl rfl rfl x3 (val_main_v289 (F := Ideal) x0) n c _ _
    ((ref_table_col0 _ _ _ n).trans ((val_main_v287_apply x0 _).trans (ref3_w22r x0 _)))
    ((ref_table_col1 _ _ _ n).trans ((val_main_v288_apply x0 _).trans (ref3_w22c x0 _)))

/-! ### The sample -/

/-- The map's sample of a point: the four weighted corner entries, added in the program's order. -/
theorem level3_eq (x0 : (⟨S131072x3, .f32⟩ : BufTy).Contents (Elt Ideal)) (x3 : (⟨S14x14x256, .f32⟩ : BufTy).Contents (Elt Ideal))
    (n : Fin 131072) (c : Fin 256) :
    val_main_v317 (F := Ideal) x0 x3 (ix2 n c)
      = level (by norm_num) 13#32 0x41800000#32 x3 (x0 (ix2 n (0 : Fin 3))) (x0 (ix2 n (1 : Fin 3))) (x0 (ix2 n (2 : Fin 3))) c := by
  simp only [
    val_main_v317_apply, val_main_v316_apply, val_main_v315_apply, val_main_v314_apply,
    val_main_v313_apply, val_main_v312_apply, val_main_v311_apply, val_main_v310_apply,
    val_main_v309_apply, val_main_v308_apply, val_main_v307_apply, val_main_v306_apply,
    val_main_v305_apply, val_main_v304_apply, val_main_v303_apply, val_main_v302_apply,
    val_main_v301_apply, val_main_v300_apply, val_main_v299_apply, val_main_v298_apply,
    val_main_v297_apply, val_main_v296_apply, val_main_v295_apply, val_main_v294_apply,
    val_main_v293_apply, val_main_v292_apply, val_main_v291_apply,
    val_main_v223_apply, val_main_v224_apply, val_main_v225_apply, val_main_v226_apply,
    ref3_gx, ref3_gy, ref3_q11, ref3_q21, ref3_q12, ref3_q22]
  rfl

end Cert.Bilinear

end
-- ==== Proof.RefMap4.lean ====
/-
  The fourth map's sample of a query point (7 × 7 cells, 512 channels, cell size 32).

  The grid coordinates are the pixel coordinates divided by the cell size; the four cell words are the rounded
  coordinates clamped to the map; each corner entry is one gather at the pair of cell words (the wrap of a negative
  index never applying to them); the sample is the sum of the four weighted corners in the program's order.
-/
import proofs.«122278_j57483842289710_1_alg».proof.Proof.RefShared

noncomputable section

namespace Cert.Bilinear

open Idealize.ShloMosaic Idealize.ShloMosaic.TcCoe Idealize.ShloMosaic.ValueIdx
open Cert.ReferenceIdeal Cert.ReferenceIdeal.Gen Cert.ReferenceIdeal.ReadP

/-! ### Grid coordinates and cell words -/

/-- The row grid coordinate: the row pixel coordinate divided by the cell size, -/
theorem ref4_gx (x0 : RefCoord) (i : S131072.Idx) : val_main_v319 (F := Ideal) x0 i = ref_gx x0 0x42000000#32 (ref_pt i) := by
  simp only [val_main_v319_apply, val_main_v318_apply, val_main_cst_84_apply, ref_pix_row]
  rfl

/-- and the column grid coordinate. -/
theorem ref4_gy (x0 : RefCoord) (i : S131072.Idx) : val_main_v321 (F := Ideal) x0 i = ref_gy x0 0x42000000#32 (ref_pt i) := by
  simp only [val_main_v321_apply, val_main_v320_apply, val_main_cst_85_apply, ref_pix_col]
  rfl

/-- The row cell below: the row grid coordinate rounded down, as a word clamped to the map. -/
theorem ref4_cx1 (x0 : RefCoord) (i : S131072.Idx) :
    val_main_v327 (F := Ideal) x0 i = cell 6#32 (below (ref_gx x0 0x42000000#32 (ref_pt i))) := by
  simp only [val_main_v327_apply, val_main_call14_v4_apply, val_main_call14_v3_apply, val_main_c_87_apply,
    val_main_call14_v2_apply, val_main_call14_v1_apply, val_main_call14_v0_apply, val_main_c_86_apply,
    val_main_v326_apply, val_main_v322_apply, ref4_gx]
  rfl

/-- The row cell above. -/
theorem ref4_cx2 (x0 : RefCoord) (i : S131072.Idx) :
    val_main_v329 (F := Ideal) x0 i = cell 6#32 (above (ref_gx x0 0x42000000#32 (ref_pt i))) := by
  simp only [val_main_v329_apply, val_main_call15_v4_apply, val_main_call15_v3_apply, val_main_c_89_apply,
    val_main_call15_v2_apply, val_main_call15_v1_apply, val_main_call15_v0_apply, val_main_c_88_apply,
    val_main_v328_apply, val_main_v323_apply, ref4_gx]
  rfl

/-- The column cell below. -/
theorem ref4_cy1 (x0 : RefCoord) (i : S131072.Idx) :
    val_main_v331 (F := Ideal) x0 i = cell 6#32 (below (ref_gy x0 0x42000000#32 (ref_pt i))) := by
  simp only [val_main_v331_apply, val_main_call16_v4_apply, val_main_call16_v3_apply, val_main_c_91_apply,
    val_main_call16_v2_apply, val_main_call16_v1_apply, val_main_call16_v0_apply, val_main_c_90_apply,
    val_main_v330_apply, val_main_v324_apply, ref4_gy]
  rfl

/-- The column cell above. -/
theorem ref4_cy2 (x0 : RefCoord) (i : S131072.Idx) :
    val_main_v333 (F := Ideal) x0 i = cell 6#32 (above (ref_gy x0 0x42000000#32 (ref_pt i))) := by
  simp only [val_main_v333_apply, val_main_call17_v4_apply, val_main_call17_v3_apply, val_main_c_93_apply,
    val_main_call17_v2_apply, val_main_call17_v1_apply, val_main_call17_v0_apply, val_main_c_92_apply,
    val_main_v332_apply, val_main_v325_apply, ref4_gy]
  rfl

/-! ### The wrap of a negative index, eight times: it never applies -/

theorem ref4_w11r (x0 : RefCoord) (i : S131072.Idx) :
    val_main_v338 (F := Ideal) x0 i = cell 6#32 (below (ref_gx x0 0x42000000#32 (ref_pt i))) := by
  rw [val_main_v338_apply, val_main_v335_apply, val_main_v334_apply, val_main_c_94_apply, ref4_cx1]
  exact ref_wrap_cell 6#32 (by decide) _ _

theorem ref4_w11c (x0 : RefCoord) (i : S131072.Idx) :
    val_main_v343 (F := Ideal) x0 i = cell 6#32 (below (ref_gy x0 0x42000000#32 (ref_pt i))) := by
  rw [val_main_v343_apply, val_main_v340_apply, val_main_v339_apply, val_main_c_96_apply, ref4_cy1]
  exact ref_wrap_cell 6#32 (by decide) _ _

theorem ref4_w21r (x0 : RefCoord) (i : S131072.Idx) :
    val_main_v352 (F := Ideal) x0 i = cell 6#32 (above (ref_gx x0 0x42000000#32 (ref_pt i))) := by
  rw [val_main_v352_apply, val_main_v349_apply, val_main_v348_apply, val_main_c_98_apply, ref4_cx2]
  exact ref_wrap_cell 6#32 (by decide) _ _

theorem ref4_w21c (x0 : RefCoord) (i : S131072.Idx) :
    val_main_v357 (F := Ideal) x0 i = cell 6#32 (below (ref_gy x0 0x42000000#32 (ref_pt i))) := by
  rw [val_main_v357_apply, val_main_v354_apply, val_main_v353_apply, val_main_c_100_apply, ref4_cy1]
  exact ref_wrap_cell 6#32 (by decide) _ _

theorem ref4_w12r (x0 : RefCoord) (i : S131072.Idx) :
    val_main_v366 (F := Ideal) x0 i = cell 6#32 (below (ref_gx x0 0x42000000#32 (ref_pt i))) := by
  rw [val_main_v366_apply, val_main_v363_apply, val_main_v362_apply, val_main_c_102_apply, ref4_cx1]
  exact ref_wrap_cell 6#32 (by decide) _ _

theorem ref4_w12c (x0 : RefCoord) (i : S131072.Idx) :
    val_main_v371 (F := Ideal) x0 i = cell 6#32 (above (ref_gy x0 0x42000000#32 (ref_pt i))) := by
  rw [val_main_v371_apply, val_main_v368_apply, val_main_v367_apply, val_main_c_104_apply, ref4_cy2]
  exact ref_wrap_cell 6#32 (by decide) _ _

theorem ref4_w22r (x0 : RefCoord) (i : S131072.Idx) :
    val_main_v380 (F := Ideal) x0 i = cell 6#32 (above (ref_gx x0 0x42000000#32 (ref_pt i))) := by
  rw [val_main_v380_apply, val_main_v377_apply, val_main_v376_apply, val_main_c_106_apply, ref4_cx2]
  exact ref_wrap_cell 6#32 (by decide) _ _

theorem ref4_w22c (x0 : RefCoord) (i : S131072.Idx) :
    val_main_v385 (F := Ideal) x0 i = cell 6#32 (above (ref_gy x0 0x42000000#32 (ref_pt i))) := by
  rw [val_main_v385_apply, val_main_v382_apply, val_main_v381_apply, val_main_c_108_apply, ref4_cy2]
  exact ref_wrap_cell 6#32 (by decide) _ _

/-! ### The four corners -/

/-- The corner (row below, column below). -/
theorem ref4_q11 (x0 : RefCoord) (x4 : (⟨S7x7x512, .f32⟩ : BufTy).Contents (Elt Ideal)) (n : Fin 131072) (c : Fin 512) :
    val_main_v347 (F := Ideal) x0 x4 (ix2 n c)
      = entry (by norm_num) x4 c (cell 6#32 (below (ref_gx x0 0x42000000#32 n))) (cell 6#32 (below (ref_gy x0 0x42000000#32 n))) :=
  ref_gather_entry (by norm_num) gather_S7x7x512_S131072x2_S131072x512_1_01_n_n_01_1_11512 rfl rfl rfl rfl rfl rfl rfl x4 (val_main_v346 (F := Ideal) x0) n c _ _
    ((ref_table_col0 _ _ _ n).trans ((val_main_v344_apply x0 _).trans (ref4_w11r x0 _)))
    ((ref_table_col1 _ _ _ n).trans ((val_main_v345_apply x0 _).trans (ref4_w11c x0 _)))

/-- The corner (row above, column below). -/
theorem ref4_q21 (x0 : RefCoord) (x4 : (⟨S7x7x512, .f32⟩ : BufTy).Contents (Elt Ideal)) (n : Fin 131072) (c : Fin 512) :
    val_main_v361 (F := Ideal) x0 x4 (ix2 n c)
      = entry (by norm_num) x4 c (cell 6#32 (above (ref_gx x0 0x42000000#32 n))) (cell 6#32 (below (ref_gy x0 0x42000000#32 n))) :=
  ref_gather_entry (by norm_num) gather_S7x7x512_S131072x2_S131072x512_1_01_n_n_01_1_11512 rfl rfl rfl rfl rfl rfl rfl x4 (val_main_v360 (F := Ideal) x0) n c _ _
    ((ref_table_col0 _ _ _ n).trans ((val_main_v358_apply x0 _).trans (ref4_w21r x0 _)))
    ((ref_table_col1 _ _ _ n).trans ((val_main_v359_apply x0 _).trans (ref4_w21c x0 _)))

/-- The corner (row below, column above). -/
theorem ref4_q12 (x0 : RefCoord) (x4 : (⟨S7x7x512, .f32⟩ : BufTy).Contents (Elt Ideal)) (n : Fin 131072) (c : Fin 512) :
    val_main_v375 (F := Ideal) x0 x4 (ix2 n c)
      = entry (by norm_num) x4 c (cell 6#32 (below (ref_gx x0 0x42000000#32 n))) (cell 6#32 (above (ref_gy x0 0x42000000#32 n))) :=
  ref_gather_entry (by norm_num) gather_S7x7x512_S131072x2_S131072x512_1_01_n_n_01_1_11512 rfl rfl rfl rfl rfl rfl rfl x4 (val_main_v374 (F := Ideal) x0) n c _ _
    ((ref_table_col0 _ _ _ n).trans ((val_main_v372_apply x0 _).trans (ref4_w12r x0 _)))
    ((ref_table_col1 _ _ _ n).trans ((val_main_v373_apply x0 _).trans (ref4_w12c x0 _)))

/-- The corner (row above, column above). -/
theorem ref4_q22 (x0 : RefCoord) (x4 : (⟨S7x7x512, .f32⟩ : BufTy).Contents (Elt Ideal)) (n : Fin 131072) (c : Fin 512) :
    val_main_v389 (F := Ideal) x0 x4 (ix2 n c)
      = entry (by norm_num) x4 c (cell 6#32 (above (ref_gx x0 0x42000000#32 n))) (cell 6#32 (above (ref_gy x0 0x42000000#32 n))) :=
  ref_gather_entry (by norm_num) gather_S7x7x512_S131072x2_S131072x512_1_01_n_n_01_1_11512 rfl rfl rfl rfl rfl rfl rfl x4 (val_main_v388 (F := Ideal) x0) n c _ _
    ((ref_table_col0 _ _ _ n).trans ((val_main_v386_apply x0 _).trans (ref4_w22r x0 _)))
    ((ref_table_col1 _ _ _ n).trans ((val_main_v387_apply x0 _).trans (ref4_w22c x0 _)))

/-! ### The sample -/

/-- The map's sample of a point: the four weighted corner entries, added in the program's order. -/
theorem level4_eq (x0 : (⟨S131072x3, .f32⟩ : BufTy).Contents (Elt Ideal)) (x4 : (⟨S7x7x512, .f32⟩ : BufTy).Contents (Elt Ideal))
    (n : Fin 131072) (c : Fin 512) :
    val_main_v416 (F := Ideal) x0 x4 (ix2 n c)
      = level (by norm_num) 6#32 0x42000000#32 x4 (x0 (ix2 n (0 : Fin 3))) (x0 (ix2 n (1 : Fin 3))) (x0 (ix2 n (2 : Fin 3))) c := by
  simp only [
    val_main_v416_apply, val_main_v415_apply, val_main_v414_apply, val_main_v413_apply,
    val_main_v412_apply, val_main_v411_apply, val_main_v410_apply, val_main_v409_apply,
    val_main_v408_apply, val_main_v407_apply, val_main_v406_apply, val_main_v405_apply,
    val_main_v404_apply, val_main_v403_apply, val_main_v402_apply, val_main_v401_apply,
    val_main_v400_apply, val_main_v399_apply, val_main_v398_apply, val_main_v397_apply,
    val_main_v396_apply, val_main_v395_apply, val_main_v394_apply, val_main_v393_apply,
    val_main_v392_apply, val_main_v391_apply, val_main_v390_apply,
    val_main_v322_apply, val_main_v323_apply, val_main_v324_apply, val_main_v325_apply,
    ref4_gx, ref4_gy, ref4_q11, ref4_q21, ref4_q12, ref4_q22]
  rfl

end Cert.Bilinear

end
-- ==== Proof.RefValue.lean ====
/-
  The reference computes `Cert.Bilinear.result`.

  Its program projects every query point, and for each of the four maps rounds the grid coordinates down and up, clamps
  the four cell numbers, gathers the four corner entries (one gather per corner: the two cell numbers of a point side by
  side as a start index, the channel axis taken whole) and adds the four weighted entries; the five pieces — the
  coordinates and the four maps' samples — are laid side by side along the columns.
  A gather with a two-component start index into an H × H × C map reads entry (a, b, c) where a and b are the two
  components read signed and kept inside the map. The cell numbers are clamped to the map before the gather, so the
  program's wrap of a negative index (add H when negative) never applies.
-/
import proofs.«122278_j57483842289710_1_alg».proof.Proof.RefMap1
import proofs.«122278_j57483842289710_1_alg».proof.Proof.RefMap2
import proofs.«122278_j57483842289710_1_alg».proof.Proof.RefMap3
import proofs.«122278_j57483842289710_1_alg».proof.Proof.RefMap4

noncomputable section

namespace Cert.Bilinear

open Idealize.ShloMosaic Idealize.ShloMosaic.TcCoe Idealize.ShloMosaic.ValueIdx
open Cert.ReferenceIdeal Cert.ReferenceIdeal.Gen Cert.ReferenceIdeal.ReadP

/-! ### The five pieces side by side -/

/-- Columns 0 to 2 of the result are the point's coordinates. -/
theorem ref_cat0 (x0 : (⟨S131072x3, .f32⟩ : BufTy).Contents (Elt Ideal)) (x1 : (⟨S56x56x64, .f32⟩ : BufTy).Contents (Elt Ideal))
    (x2 : (⟨S28x28x128, .f32⟩ : BufTy).Contents (Elt Ideal)) (x3 : (⟨S14x14x256, .f32⟩ : BufTy).Contents (Elt Ideal))
    (x4 : (⟨S7x7x512, .f32⟩ : BufTy).Contents (Elt Ideal)) (n : Fin 131072) (col : Fin 963) (h0 : col.val < 3) :
    val_main_v417 (F := Ideal) x0 x1 x2 x3 x4 (ix2 n col) = x0 (ix2 n (⟨col.val, h0⟩ : Fin 3)) := by
  unfold val_main_v417
  exact concatenate_apply_piece 1 _ _ (ix2 n col) 0 (by simp) S131072x3 x0 rfl rfl 0 rfl (ix2 n (⟨col.val, h0⟩ : Fin 3))
    (fun b hb => match b, hb with | ⟨0, _⟩, _ => rfl | ⟨1, _⟩, hb => absurd rfl hb)
    (by show 0 + col.val = col.val; omega)

/-- Columns 3 to 66 are the first map's samples. -/
theorem ref_cat1 (x0 : (⟨S131072x3, .f32⟩ : BufTy).Contents (Elt Ideal)) (x1 : (⟨S56x56x64, .f32⟩ : BufTy).Contents (Elt Ideal))
    (x2 : (⟨S28x28x128, .f32⟩ : BufTy).Contents (Elt Ideal)) (x3 : (⟨S14x14x256, .f32⟩ : BufTy).Contents (Elt Ideal))
    (x4 : (⟨S7x7x512, .f32⟩ : BufTy).Contents (Elt Ideal)) (n : Fin 131072) (col : Fin 963) (h0 : ¬ col.val < 3) (h1 : col.val < 67) :
    val_main_v417 (F := Ideal) x0 x1 x2 x3 x4 (ix2 n col)
      = val_main_v119 (F := Ideal) x0 x1 (ix2 n (⟨col.val - 3, by have := col.isLt; omega⟩ : Fin 64)) := by
  unfold val_main_v417
  exact concatenate_apply_piece 1 _ _ (ix2 n col) 1 (by simp) S131072x64 (val_main_v119 (F := Ideal) x0 x1) rfl rfl 3 rfl
    (ix2 n (⟨col.val - 3, by have := col.isLt; omega⟩ : Fin 64))
    (fun b hb => match b, hb with | ⟨0, _⟩, _ => rfl | ⟨1, _⟩, hb => absurd rfl hb)
    (by show 3 + (col.val - 3) = col.val; omega)

/-- Columns 67 to 194 are the second map's samples. -/
theorem ref_cat2 (x0 : (⟨S131072x3, .f32⟩ : BufTy).Contents (Elt Ideal)) (x1 : (⟨S56x56x64, .f32⟩ : BufTy).Contents (Elt Ideal))
    (x2 : (⟨S28x28x128, .f32⟩ : BufTy).Contents (Elt Ideal)) (x3 : (⟨S14x14x256, .f32⟩ : BufTy).Contents (Elt Ideal))
    (x4 : (⟨S7x7x512, .f32⟩ : BufTy).Contents (Elt Ideal)) (n : Fin 131072) (col : Fin 963) (h1 : ¬ col.val < 67) (h2 : col.val < 195) :
    val_main_v417 (F := Ideal) x0 x1 x2 x3 x4 (ix2 n col)
      = val_main_v218 (F := Ideal) x0 x2 (ix2 n (⟨col.val - 67, by have := col.isLt; omega⟩ : Fin 128)) := by
  unfold val_main_v417
  exact concatenate_apply_piece 1 _ _ (ix2 n col) 2 (by simp) S131072x128 (val_main_v218 (F := Ideal) x0 x2) rfl rfl 67 rfl
    (ix2 n (⟨col.val - 67, by have := col.isLt; omega⟩ : Fin 128))
    (fun b hb => match b, hb with | ⟨0, _⟩, _ => rfl | ⟨1, _⟩, hb => absurd rfl hb)
    (by show 67 + (col.val - 67) = col.val; omega)

/-- Columns 195 to 450 are the third map's samples. -/
theorem ref_cat3 (x0 : (⟨S131072x3, .f32⟩ : BufTy).Contents (Elt Ideal)) (x1 : (⟨S56x56x64, .f32⟩ : BufTy).Contents (Elt Ideal))
    (x2 : (⟨S28x28x128, .f32⟩ : BufTy).Contents (Elt Ideal)) (x3 : (⟨S14x14x256, .f32⟩ : BufTy).Contents (Elt Ideal))
    (x4 : (⟨S7x7x512, .f32⟩ : BufTy).Contents (Elt Ideal)) (n : Fin 131072) (col : Fin 963) (h2 : ¬ col.val < 195) (h3 : col.val < 451) :
    val_main_v417 (F := Ideal) x0 x1 x2 x3 x4 (ix2 n col)
      = val_main_v317 (F := Ideal) x0 x3 (ix2 n (⟨col.val - 195, by have := col.isLt; omega⟩ : Fin 256)) := by
  unfold val_main_v417
  exact concatenate_apply_piece 1 _ _ (ix2 n col) 3 (by simp) S131072x256 (val_main_v317 (F := Ideal) x0 x3) rfl rfl 195 rfl
    (ix2 n (⟨col.val - 195, by have := col.isLt; omega⟩ : Fin 256))
    (fun b hb => match b, hb with | ⟨0, _⟩, _ => rfl | ⟨1, _⟩, hb => absurd rfl hb)
    (by show 195 + (col.val - 195) = col.val; omega)

/-- Columns 451 to 962 are the fourth map's samples. -/
theorem ref_cat4 (x0 : (⟨S131072x3, .f32⟩ : BufTy).Contents (Elt Ideal)) (x1 : (⟨S56x56x64, .f32⟩ : BufTy).Contents (Elt Ideal))
    (x2 : (⟨S28x28x128, .f32⟩ : BufTy).Contents (Elt Ideal)) (x3 : (⟨S14x14x256, .f32⟩ : BufTy).Contents (Elt Ideal))
    (x4 : (⟨S7x7x512, .f32⟩ : BufTy).Contents (Elt Ideal)) (n : Fin 131072) (col : Fin 963) (h3 : ¬ col.val < 451) :
    val_main_v417 (F := Ideal) x0 x1 x2 x3 x4 (ix2 n col)
      = val_main_v416 (F := Ideal) x0 x4 (ix2 n (⟨col.val - 451, by have := col.isLt; omega⟩ : Fin 512)) := by
  unfold val_main_v417
  exact concatenate_apply_piece 1 _ _ (ix2 n col) 4 (by simp) S131072x512 (val_main_v416 (F := Ideal) x0 x4) rfl rfl 451 rfl
    (ix2 n (⟨col.val - 451, by have := col.isLt; omega⟩ : Fin 512))
    (fun b hb => match b, hb with | ⟨0, _⟩, _ => rfl | ⟨1, _⟩, hb => absurd rfl hb)
    (by show 451 + (col.val - 451) = col.val; omega)

/-- `result` at row n, column col, with the index's two coordinates read off. -/
theorem ref_result_ix2 (coord : (⟨2, ![131072, 3]⟩ : Shape).Idx → EReal)
    (f56 : (⟨3, ![56, 56, 64]⟩ : Shape).Idx → EReal) (f28 : (⟨3, ![28, 28, 128]⟩ : Shape).Idx → EReal)
    (f14 : (⟨3, ![14, 14, 256]⟩ : Shape).Idx → EReal) (f7 : (⟨3, ![7, 7, 512]⟩ : Shape).Idx → EReal)
    (n : Fin 131072) (col : Fin 963) :
    result coord f56 f28 f14 f7 (ix2 n col)
      = if h0 : col.val < 3 then coord (ix2 n (⟨col.val, h0⟩ : Fin 3))
        else if h1 : col.val < 67 then
          level (by omega) 55#32 0x40800000#32 f56 (coord (ix2 n (0 : Fin 3))) (coord (ix2 n (1 : Fin 3))) (coord (ix2 n (2 : Fin 3)))
            (⟨col.val - 3, by omega⟩ : Fin 64)
        else if h2 : col.val < 195 then
          level (by omega) 27#32 0x41000000#32 f28 (coord (ix2 n (0 : Fin 3))) (coord (ix2 n (1 : Fin 3))) (coord (ix2 n (2 : Fin 3)))
            (⟨col.val - 67, by omega⟩ : Fin 128)
        else if h3 : col.val < 451 then
          level (by omega) 13#32 0x41800000#32 f14 (coord (ix2 n (0 : Fin 3))) (coord (ix2 n (1 : Fin 3))) (coord (ix2 n (2 : Fin 3)))
            (⟨col.val - 195, by omega⟩ : Fin 256)
        else
          level (by omega) 6#32 0x42000000#32 f7 (coord (ix2 n (0 : Fin 3))) (coord (ix2 n (1 : Fin 3))) (coord (ix2 n (2 : Fin 3)))
            (⟨col.val - 451, by have := col.isLt; omega⟩ : Fin 512) := rfl

/-- THE REFERENCE'S RESULT, as a function of the five arrays, is `result` of them. -/
theorem reference_eq (x0 : (⟨S131072x3, .f32⟩ : BufTy).Contents (Elt Ideal)) (x1 : (⟨S56x56x64, .f32⟩ : BufTy).Contents (Elt Ideal))
    (x2 : (⟨S28x28x128, .f32⟩ : BufTy).Contents (Elt Ideal)) (x3 : (⟨S14x14x256, .f32⟩ : BufTy).Contents (Elt Ideal))
    (x4 : (⟨S7x7x512, .f32⟩ : BufTy).Contents (Elt Ideal)) :
    (val_main_v417 (F := Ideal) x0 x1 x2 x3 x4 : S131072x963.Idx → EReal) = result x0 x1 x2 x3 x4 := by
  funext j
  obtain ⟨n, col, rfl⟩ : ∃ (n : Fin 131072) (col : Fin 963), j = ix2 n col := ⟨j 0, j 1, eq_ix2 j⟩
  rw [ref_result_ix2]
  split_ifs with h0 h1 h2 h3
  · exact ref_cat0 x0 x1 x2 x3 x4 n col h0
  · exact (ref_cat1 x0 x1 x2 x3 x4 n col h0 h1).trans (level1_eq x0 x1 n _)
  · exact (ref_cat2 x0 x1 x2 x3 x4 n col h1 h2).trans (level2_eq x0 x2 n _)
  · exact (ref_cat3 x0 x1 x2 x3 x4 n col h2 h3).trans (level3_eq x0 x3 n _)
  · exact (ref_cat4 x0 x1 x2 x3 x4 n col h3).trans (level4_eq x0 x4 n _)

end Cert.Bilinear

end
-- ==== Proof.lean ====
/-
  The kernel samples four feature maps bilinearly at the projections of 131072 query points and lays each point's
  coordinates and its samples side by side; the reference does the same with gathers. Both are the function
  `Cert.Bilinear.result` of the five input arrays (Proof/Spec.lean), entry by entry over the extended reals.

  The reference computes it operation by operation (Proof/RefValue.lean: the projection, the rounded and clamped cell
  numbers, the four gathered corners, the weighted sum, the five pieces side by side). The kernel computes, per block of
  1024 points and per map, the product of a weight matrix — for each point the four weights placed at the four corners'
  flattened cell numbers, zero elsewhere — with the flattened, zero-padded map, 512 positions at a time
  (Proof/KernelMirror.lean, Proof/KernelBlock.lean); over real weights and real map entries that product is the weighted
  sum of the four corner entries (Proof/OneHot.lean). The weights are real because the pixel coordinates are clipped
  (Proof/Facts.lean) and the map entries are real by the precondition (Proof/Inputs.lean); the flattened cell number of two
  clamped cell words names the cell the reference's pair of indices names (Proof/BlockSpec.lean). The 128 blocks tile the
  result (Proof/KernelValue.lean).

  The three programs run to completion and leave their arguments unchanged: for the two kernel programs that is their
  frame; for the reference it is its run with the result dropped. No operation of the kernel was rewritten to idealize
  it, so there is nothing to preserve.
-/
import proofs.«122278_j57483842289710_1_alg».proof.Defs
import proofs.«122278_j57483842289710_1_alg».proof.Proof.Gen.Kernel
import proofs.«122278_j57483842289710_1_alg».proof.Proof.Gen.Kernel.Skeleton
import proofs.«122278_j57483842289710_1_alg».proof.Proof.Gen.Kernel.Launch
import proofs.«122278_j57483842289710_1_alg».proof.Proof.Gen.Kernel.Points
import proofs.«122278_j57483842289710_1_alg».proof.Proof.Gen.Kernel.Frame
import proofs.«122278_j57483842289710_1_alg».proof.Proof.Gen.KernelIdeal
import proofs.«122278_j57483842289710_1_alg».proof.Proof.Gen.KernelIdeal.Skeleton
import proofs.«122278_j57483842289710_1_alg».proof.Proof.Gen.KernelIdeal.Launch
import proofs.«122278_j57483842289710_1_alg».proof.Proof.Gen.KernelIdeal.Points
import proofs.«122278_j57483842289710_1_alg».proof.Proof.Gen.KernelIdeal.Frame
import proofs.«122278_j57483842289710_1_alg».proof.Proof.Gen.ReferenceIdeal
import proofs.«122278_j57483842289710_1_alg».proof.Proof.Gen.Pre_finite_inputs
import proofs.«122278_j57483842289710_1_alg».proof.Proof.Gen.KernelIdeal.Value
import proofs.«122278_j57483842289710_1_alg».proof.Proof.RefRun
import proofs.«122278_j57483842289710_1_alg».proof.Proof.RefRead
import proofs.«122278_j57483842289710_1_alg».proof.Proof.KernelValue
import proofs.«122278_j57483842289710_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the five arrays both programs end with `result` of those arrays. -/
theorem algebraic : Cert.algebraic_KernelIdeal_ReferenceIdeal := by
  intro m ρ m' ρ' hpre hagree
  refine ⟨fun c => Cert.Bilinear.res m c, Cert.Bilinear.kernel_run m ρ hpre, ?_⟩
  refine (θ_run Cert.ReferenceIdeal.defs _ _).mono (fun _ h c => ⟨?_, (h c).2⟩)
    (Cert.ReferenceIdeal.ValueP.run (F := Ideal) m' ρ')
  obtain ⟨e0, e1, e2, e3, e4⟩ := hagree c
  rw [(h c).1, Cert.ReferenceIdeal.ReadP.val_main_v417_eq, Cert.Bilinear.reference_eq, e0, e1, e2, e3, e4]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
